-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  IdealRules.sign_bit.Statement Cert.KernelIdeal.S128x2560 .f32

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v82) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x2560x1 : Shape := ⟨3, ![16384, 2560, 1]⟩
abbrev S_ : Shape := ⟨0, ![]⟩

class Facts : Prop where
  bcast_S_S16384x2560x1 : S_.BroadcastsInDim S16384x2560x1 (![] : Fin 0 → Fin S16384x2560x1.rank)
  reducesTo_S16384x2560x1_S_d0_1_2 : S16384x2560x1.ReducesTo [0, 1, 2] S_
  h_S_ : 0 < S_.numel

variable [Facts]

def fn {F : FTy → Type} [FloatOps F] (main_arg0 : FVec F S16384x2560x1 .f32) : IVec S_ 1 :=
  let main_v0 : FVec F S16384x2560x1 .f32 := Host.absf main_arg0
  let main_cst : FVec F S_ .f32 := constant S_ .f32 0x7F800000#32
  let main_v1 : FVec F S16384x2560x1 .f32 := broadcastInDim S16384x2560x1 ![] bcast_S_S16384x2560x1 main_cst
  let main_v2 : IVec S16384x2560x1 1 := cmpf .olt main_v0 main_v1
  let main_c : IVec S_ 1 := constantI S_ 1 1#1
  let main_v3 : IVec S_ 1 := (fun x v => Host.reduce IntOp.andi x v reducesTo_S16384x2560x1_S_d0_1_2 h_S_) main_v2 main_c
  main_v3
-- ==== Kernel.lean ====
abbrev S16384x2560x1 : Shape := ⟨3, ![16384, 2560, 1]⟩
abbrev S16384x2560 : Shape := ⟨2, ![16384, 2560]⟩
abbrev S16384x15 : Shape := ⟨2, ![16384, 15]⟩
abbrev S128x2560 : Shape := ⟨2, ![128, 2560]⟩
abbrev S128x15 : Shape := ⟨2, ![128, 15]⟩
abbrev S128 : Shape := ⟨1, ![128]⟩
abbrev S128x1 : Shape := ⟨2, ![128, 1]⟩
abbrev S128x2559 : Shape := ⟨2, ![128, 2559]⟩
abbrev S128x2558 : Shape := ⟨2, ![128, 2558]⟩

abbrev nBuf : Space → Nat
  | .hbm => 3
  | .vmem => 4
  | .smem => 0
  | _ => 0

abbrev bufTy : (tb : Table) → Fin (tcTables nBuf tb) → BufTy
  | .hbm, ⟨0, _⟩ => ⟨S16384x2560x1, .f32⟩
  | .hbm, ⟨1, _⟩ => ⟨S16384x2560, .f32⟩
  | .hbm, ⟨2, _⟩ => ⟨S16384x15, .f32⟩
  | .local _ .vmem, ⟨0, _⟩ => ⟨S128x2560, .f32⟩
  | .local _ .vmem, ⟨1, _⟩ => ⟨S128x2560, .f32⟩
  | .local _ .vmem, ⟨2, _⟩ => ⟨S128x15, .f32⟩
  | .local _ .vmem, ⟨3, _⟩ => ⟨S128x15, .f32⟩
  | _, _ => ⟨S16384x2560x1, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [BitOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x2560 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x15 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

class Facts₀ : Prop where
  shapeCasts_S16384x2560x1_S16384x2560 : S16384x2560x1.ShapeCasts S16384x2560
  inb_S128x2560_S128x2560_0_0 : ∀ a, (![0, 0] : Fin 2 → Nat) a + S128x2560.size a ≤ S128x2560.size a
  h_S128x2560 : 0 < S128x2560.numel
  shapeCasts_S128x2560_S128x2560 : S128x2560.ShapeCasts S128x2560
  reduces_S128x2560_S128 : S128x2560.Reduces [1] S128
  shapeCasts_S128_S128x1 : S128.ShapeCasts S128x1
  broadcasts_S128x1_S128x2560 : S128x1.Broadcasts S128x2560
  natLt_1_32 : 1 < 32
  slices_S128x2560_o0_1_S128x2559 : S128x2560.Slices ![0, 1] S128x2559
  slices_S128x2560_o0_0_S128x2559 : S128x2560.Slices ![0, 0] S128x2559
  reduces_S128x2559_S128 : S128x2559.Reduces [1] S128
  broadcasts_S128x1_S128x2559 : S128x1.Broadcasts S128x2559
  slices_S128x2559_o0_1_S128x2558 : S128x2559.Slices ![0, 1] S128x2558
  slices_S128x2559_o0_0_S128x2558 : S128x2559.Slices ![0, 0] S128x2558
  reduces_S128x2558_S128 : S128x2558.Reduces [1] S128
  broadcasts_S128x1_S128x2558 : S128x1.Broadcasts S128x2558
  concatenates_S128x1_S128x1_S128x1_S128x1_S128x1_S128x1_S128x1_S128x1_S128x1_S128x1_S128x1_S128x1_S128x1_S128x1_S128x1_S128x15_d1 : Shape.Concatenates [S128x1, S128x1, S128x1, S128x1, S128x1, S128x1, S128x1, S128x1, S128x1, S128x1, S128x1, S128x1, S128x1, S128x1, S128x1] S128x15 1
  inb_S128x15_S128x15_0_0 : ∀ a, (![0, 0] : Fin 2 → Nat) a + S128x15.size a ≤ S128x15.size a
  h_S128x15 : 0 < S128x15.numel
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S128x2560.size a ≤ S16384x2560.size a
  hwx0_0 : ∀ i : grid0.Coords, EltTy.bits .f32 = 32 ∨ (Rect.block (s := S16384x2560) S128x2560.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S128x15.size a ≤ S16384x15.size a
  hwx0_1 : ∀ i : grid0.Coords, EltTy.bits .f32 = 32 ∨ (Rect.block (s := S16384x15) S128x15.size (cc0_transform_1 i) (hinb0_1 i)).WholeWords (EltTy.packing .f32)

variable [Facts₀]

abbrev win0_0 : Pipeline.Window sig grid0 :=
  Pipeline.Window.ofSpec (Memref.whole main_v0) S128x2560.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S128x15.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

class Facts : Prop extends Facts₀ where

variable [Facts]
-- ==== ReferenceIdeal.lean ====
abbrev S16384x2560x1 : Shape := ⟨3, ![16384, 2560, 1]⟩
abbrev S16384x2560 : Shape := ⟨2, ![16384, 2560]⟩
abbrev S_ : Shape := ⟨0, ![]⟩
abbrev S16384 : Shape := ⟨1, ![16384]⟩
abbrev S16384x1 : Shape := ⟨2, ![16384, 1]⟩
abbrev S16384x2559 : Shape := ⟨2, ![16384, 2559]⟩
abbrev S16384x2558 : Shape := ⟨2, ![16384, 2558]⟩
abbrev S16384x15 : Shape := ⟨2, ![16384, 15]⟩

abbrev nBuf : Space → Nat
  | .hbm => 175
  | .vmem => 0
  | .smem => 0
  | _ => 0

abbrev hbmTy0_0 (i : Nat) : BufTy := match i % 128 with
  | 0 => ⟨S16384x2560x1, .f32⟩
  | 1 => ⟨S16384x2560, .f32⟩
  | 2 => ⟨S_, .f32⟩
  | 3 => ⟨S16384, .f32⟩
  | 4 => ⟨S_, .f32⟩
  | 5 => ⟨S16384, .f32⟩
  | 6 => ⟨S16384, .f32⟩
  | 7 => ⟨S_, .f32⟩
  | 8 => ⟨S16384, .f32⟩
  | 9 => ⟨S_, .f32⟩
  | 10 => ⟨S16384, .f32⟩
  | 11 => ⟨S16384, .f32⟩
  | 12 => ⟨S16384x2560, .f32⟩
  | 13 => ⟨S_, .f32⟩
  | 14 => ⟨S16384, .f32⟩
  | 15 => ⟨S_, .f32⟩
  | 16 => ⟨S16384, .f32⟩
  | 17 => ⟨S16384, .f32⟩
  | 18 => ⟨S16384, .f32⟩
  | 19 => ⟨S_, .i32⟩
  | 20 => ⟨S_, .f32⟩
  | 21 => ⟨S16384, .f32⟩
  | 22 => ⟨S16384x1, .f32⟩
  | 23 => ⟨S_, .f32⟩
  | 24 => ⟨S16384x1, .f32⟩
  | 25 => ⟨S16384x1, .f32⟩
  | 26 => ⟨S16384x2560, .f32⟩
  | 27 => ⟨S16384x2560, .f32⟩
  | 28 => ⟨S16384x2560, .f32⟩
  | 29 => ⟨S_, .f32⟩
  | 30 => ⟨S_, .f32⟩
  | 31 => ⟨S_, .f32⟩
  | 32 => ⟨S_, .f32⟩
  | 33 => ⟨S16384, .f32⟩
  | 34 => ⟨S16384, .f32⟩
  | 35 => ⟨S16384, .f32⟩
  | 36 => ⟨S_, .f32⟩
  | 37 => ⟨S_, .i1⟩
  | 38 => ⟨S_, .f32⟩
  | 39 => ⟨S_, .f32⟩
  | 40 => ⟨S16384, .f32⟩
  | 41 => ⟨S16384, .f32⟩
  | 42 => ⟨S16384, .f32⟩
  | 43 => ⟨S16384x1, .f32⟩
  | 44 => ⟨S16384x2560, .f32⟩
  | 45 => ⟨S16384x2560, .f32⟩
  | 46 => ⟨S16384x2560, .f32⟩
  | 47 => ⟨S16384x2560, .f32⟩
  | 48 => ⟨S_, .f32⟩
  | 49 => ⟨S16384, .f32⟩
  | 50 => ⟨S_, .f32⟩
  | 51 => ⟨S16384, .f32⟩
  | 52 => ⟨S16384, .f32⟩
  | 53 => ⟨S16384, .f32⟩
  | 54 => ⟨S16384, .f32⟩
  | 55 => ⟨S16384, .f32⟩
  | 56 => ⟨S16384x2560, .f32⟩
  | 57 => ⟨S16384x2560, .f32⟩
  | 58 => ⟨S_, .f32⟩
  | 59 => ⟨S16384, .f32⟩
  | 60 => ⟨S_, .f32⟩
  | 61 => ⟨S16384, .f32⟩
  | 62 => ⟨S16384, .f32⟩
  | 63 => ⟨S16384, .f32⟩
  | 64 => ⟨S16384, .f32⟩
  | 65 => ⟨S16384, .f32⟩
  | 66 => ⟨S16384x2560, .f32⟩
  | 67 => ⟨S_, .f32⟩
  | 68 => ⟨S16384, .f32⟩
  | 69 => ⟨S_, .f32⟩
  | 70 => ⟨S16384, .f32⟩
  | 71 => ⟨S_, .f32⟩
  | 72 => ⟨S16384, .f32⟩
  | 73 => ⟨S16384, .f32⟩
  | 74 => ⟨S16384, .f32⟩
  | 75 => ⟨S_, .f32⟩
  | 76 => ⟨S16384, .f32⟩
  | 77 => ⟨S16384, .f32⟩
  | 78 => ⟨S16384, .f32⟩
  | 79 => ⟨S16384x2560, .f32⟩
  | 80 => ⟨S16384x1, .f32⟩
  | 81 => ⟨S_, .f32⟩
  | 82 => ⟨S16384x1, .f32⟩
  | 83 => ⟨S16384x1, .f32⟩
  | 84 => ⟨S16384x2560, .f32⟩
  | 85 => ⟨S16384x2560, .i1⟩
  | 86 => ⟨S16384x2560, .i32⟩
  | 87 => ⟨S_, .i32⟩
  | 88 => ⟨S16384, .i32⟩
  | 89 => ⟨S16384, .f32⟩
  | 90 => ⟨S16384x2560, .f32⟩
  | 91 => ⟨S16384x2559, .f32⟩
  | 92 => ⟨S16384x2559, .f32⟩
  | 93 => ⟨S16384x2559, .f32⟩
  | 94 => ⟨S_, .f32⟩
  | 95 => ⟨S16384x2559, .f32⟩
  | 96 => ⟨S16384x2559, .i1⟩
  | 97 => ⟨S16384x2559, .f32⟩
  | 98 => ⟨S_, .f32⟩
  | 99 => ⟨S16384, .f32⟩
  | 100 => ⟨S_, .f32⟩
  | 101 => ⟨S16384, .f32⟩
  | 102 => ⟨S16384, .f32⟩
  | 103 => ⟨S16384x2559, .f32⟩
  | 104 => ⟨S16384x2559, .f32⟩
  | 105 => ⟨S16384x2559, .f32⟩
  | 106 => ⟨S16384x2558, .f32⟩
  | 107 => ⟨S16384x2558, .f32⟩
  | 108 => ⟨S16384x2558, .f32⟩
  | 109 => ⟨S_, .i32⟩
  | 110 => ⟨S_, .f32⟩
  | 111 => ⟨S16384, .f32⟩
  | 112 => ⟨S16384x1, .f32⟩
  | 113 => ⟨S_, .f32⟩
  | 114 => ⟨S16384x1, .f32⟩
  | 115 => ⟨S16384x1, .f32⟩
  | 116 => ⟨S16384x2559, .f32⟩
  | 117 => ⟨S16384x2559, .f32⟩
  | 118 => ⟨S16384x2559, .f32⟩
  | 119 => ⟨S_, .f32⟩
  | 120 => ⟨S_, .f32⟩
  | 121 => ⟨S_, .f32⟩
  | 122 => ⟨S_, .f32⟩
  | 123 => ⟨S16384, .f32⟩
  | 124 => ⟨S16384, .f32⟩
  | 125 => ⟨S16384, .f32⟩
  | 126 => ⟨S_, .f32⟩
  | 127 => ⟨S_, .i1⟩
  | _ => ⟨S16384x2560x1, .f32⟩

abbrev hbmTy0_1 (i : Nat) : BufTy := match i % 128 with
  | 0 => ⟨S_, .f32⟩
  | 1 => ⟨S_, .f32⟩
  | 2 => ⟨S16384, .f32⟩
  | 3 => ⟨S16384, .f32⟩
  | 4 => ⟨S_, .i32⟩
  | 5 => ⟨S_, .f32⟩
  | 6 => ⟨S16384, .f32⟩
  | 7 => ⟨S16384x1, .f32⟩
  | 8 => ⟨S_, .f32⟩
  | 9 => ⟨S16384x1, .f32⟩
  | 10 => ⟨S16384x1, .f32⟩
  | 11 => ⟨S16384x2558, .f32⟩
  | 12 => ⟨S16384x2558, .f32⟩
  | 13 => ⟨S16384x2558, .f32⟩
  | 14 => ⟨S_, .f32⟩
  | 15 => ⟨S_, .f32⟩
  | 16 => ⟨S_, .f32⟩
  | 17 => ⟨S_, .f32⟩
  | 18 => ⟨S16384, .f32⟩
  | 19 => ⟨S16384, .f32⟩
  | 20 => ⟨S16384, .f32⟩
  | 21 => ⟨S_, .f32⟩
  | 22 => ⟨S_, .i1⟩
  | 23 => ⟨S_, .f32⟩
  | 24 => ⟨S_, .f32⟩
  | 25 => ⟨S16384, .f32⟩
  | 26 => ⟨S16384, .f32⟩
  | 27 => ⟨S16384, .f32⟩
  | 28 => ⟨S16384, .f32⟩
  | 29 => ⟨S16384, .f32⟩
  | 30 => ⟨S16384, .f32⟩
  | 31 => ⟨S16384x1, .f32⟩
  | 32 => ⟨S16384x1, .f32⟩
  | 33 => ⟨S16384x1, .f32⟩
  | 34 => ⟨S16384x1, .f32⟩
  | 35 => ⟨S16384x1, .f32⟩
  | 36 => ⟨S16384x1, .f32⟩
  | 37 => ⟨S16384x1, .f32⟩
  | 38 => ⟨S16384x1, .f32⟩
  | 39 => ⟨S16384x1, .f32⟩
  | 40 => ⟨S16384x1, .f32⟩
  | 41 => ⟨S16384x1, .f32⟩
  | 42 => ⟨S16384x1, .f32⟩
  | 43 => ⟨S16384x1, .f32⟩
  | 44 => ⟨S16384x1, .f32⟩
  | 45 => ⟨S16384x1, .f32⟩
  | 46 => ⟨S16384x15, .f32⟩
  | _ => ⟨S16384x2560x1, .f32⟩

abbrev hbmTy (i : Nat) : BufTy := match i / 128 with
  | 0 => hbmTy0_0 i
  | 1 => hbmTy0_1 i
  | _ => ⟨S16384x2560x1, .f32⟩

abbrev bufTy : (tb : Table) → Fin (tcTables nBuf tb) → BufTy
  | .hbm, ⟨i, _⟩ => hbmTy i
  | _, _ => ⟨S16384x2560x1, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_cst : Ref sig .tc := ⟨.hbm, 2, rfl⟩
abbrev main_v1 : Ref sig .tc := ⟨.hbm, 3, rfl⟩
abbrev main_cst_0 : Ref sig .tc := ⟨.hbm, 4, rfl⟩
abbrev main_v2 : Ref sig .tc := ⟨.hbm, 5, rfl⟩
abbrev main_v3 : Ref sig .tc := ⟨.hbm, 6, rfl⟩
abbrev main_cst_1 : Ref sig .tc := ⟨.hbm, 7, rfl⟩
abbrev main_v4 : Ref sig .tc := ⟨.hbm, 8, rfl⟩
abbrev main_cst_2 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_cst_3 : Ref sig .tc := ⟨.hbm, 13, rfl⟩
abbrev main_v8 : Ref sig .tc := ⟨.hbm, 14, rfl⟩
abbrev main_cst_4 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_c : Ref sig .tc := ⟨.hbm, 19, rfl⟩
abbrev main_call0_cst : Ref sig .tc := ⟨.hbm, 20, rfl⟩
abbrev main_call0_v0 : Ref sig .tc := ⟨.hbm, 21, rfl⟩
abbrev main_call0_v1 : Ref sig .tc := ⟨.hbm, 22, rfl⟩
abbrev main_call0_cst_0 : Ref sig .tc := ⟨.hbm, 23, rfl⟩
abbrev main_call0_v2 : Ref sig .tc := ⟨.hbm, 24, rfl⟩
abbrev main_call0_v3 : Ref sig .tc := ⟨.hbm, 25, rfl⟩
abbrev main_call0_v4 : Ref sig .tc := ⟨.hbm, 26, rfl⟩
abbrev main_call0_v5 : Ref sig .tc := ⟨.hbm, 27, rfl⟩
abbrev main_call0_v6 : Ref sig .tc := ⟨.hbm, 28, rfl⟩
abbrev main_call0_v7 : Ref sig .tc := ⟨.hbm, 29, rfl⟩
abbrev main_call0_cst_1 : Ref sig .tc := ⟨.hbm, 30, rfl⟩
abbrev main_call0_v8 : Ref sig .tc := ⟨.hbm, 31, rfl⟩
abbrev main_call0_cst_2 : Ref sig .tc := ⟨.hbm, 32, rfl⟩
abbrev main_call0_v9 : Ref sig .tc := ⟨.hbm, 33, rfl⟩
abbrev main_call0_v10 : Ref sig .tc := ⟨.hbm, 34, rfl⟩
abbrev main_call0_v11 : Ref sig .tc := ⟨.hbm, 35, rfl⟩
abbrev main_call0_cst_3 : Ref sig .tc := ⟨.hbm, 36, rfl⟩
abbrev main_call0_v12 : Ref sig .tc := ⟨.hbm, 37, rfl⟩
abbrev main_call0_cst_4 : Ref sig .tc := ⟨.hbm, 38, rfl⟩
abbrev main_call0_call0_v0 : Ref sig .tc := ⟨.hbm, 39, rfl⟩
abbrev main_call0_call0_v1 : Ref sig .tc := ⟨.hbm, 40, rfl⟩
abbrev main_v12 : Ref sig .tc := ⟨.hbm, 41, rfl⟩
abbrev main_v13 : Ref sig .tc := ⟨.hbm, 42, rfl⟩
abbrev main_v14 : Ref sig .tc := ⟨.hbm, 43, rfl⟩
abbrev main_v15 : Ref sig .tc := ⟨.hbm, 44, rfl⟩
abbrev main_v16 : Ref sig .tc := ⟨.hbm, 45, rfl⟩
abbrev main_v17 : Ref sig .tc := ⟨.hbm, 46, rfl⟩
abbrev main_v18 : Ref sig .tc := ⟨.hbm, 47, rfl⟩
abbrev main_cst_5 : Ref sig .tc := ⟨.hbm, 48, rfl⟩
abbrev main_v19 : Ref sig .tc := ⟨.hbm, 49, rfl⟩
abbrev main_cst_6 : Ref sig .tc := ⟨.hbm, 50, rfl⟩
abbrev main_v20 : Ref sig .tc := ⟨.hbm, 51, rfl⟩
abbrev main_v21 : Ref sig .tc := ⟨.hbm, 52, rfl⟩
abbrev main_v22 : Ref sig .tc := ⟨.hbm, 53, rfl⟩
abbrev main_v23 : Ref sig .tc := ⟨.hbm, 54, rfl⟩
abbrev main_v24 : Ref sig .tc := ⟨.hbm, 55, rfl⟩
abbrev main_v25 : Ref sig .tc := ⟨.hbm, 56, rfl⟩
abbrev main_v26 : Ref sig .tc := ⟨.hbm, 57, rfl⟩
abbrev main_cst_7 : Ref sig .tc := ⟨.hbm, 58, rfl⟩
abbrev main_v27 : Ref sig .tc := ⟨.hbm, 59, rfl⟩
abbrev main_cst_8 : Ref sig .tc := ⟨.hbm, 60, rfl⟩
abbrev main_v28 : Ref sig .tc := ⟨.hbm, 61, rfl⟩
abbrev main_v29 : Ref sig .tc := ⟨.hbm, 62, rfl⟩
abbrev main_v30 : Ref sig .tc := ⟨.hbm, 63, rfl⟩
abbrev main_v31 : Ref sig .tc := ⟨.hbm, 64, rfl⟩
abbrev main_v32 : Ref sig .tc := ⟨.hbm, 65, rfl⟩
abbrev main_v33 : Ref sig .tc := ⟨.hbm, 66, rfl⟩
abbrev main_cst_9 : Ref sig .tc := ⟨.hbm, 67, rfl⟩
abbrev main_v34 : Ref sig .tc := ⟨.hbm, 68, rfl⟩
abbrev main_cst_10 : Ref sig .tc := ⟨.hbm, 69, rfl⟩
abbrev main_v35 : Ref sig .tc := ⟨.hbm, 70, rfl⟩
abbrev main_cst_11 : Ref sig .tc := ⟨.hbm, 71, rfl⟩
abbrev main_v36 : Ref sig .tc := ⟨.hbm, 72, rfl⟩
abbrev main_v37 : Ref sig .tc := ⟨.hbm, 73, rfl⟩
abbrev main_v38 : Ref sig .tc := ⟨.hbm, 74, rfl⟩
abbrev main_cst_12 : Ref sig .tc := ⟨.hbm, 75, rfl⟩
abbrev main_v39 : Ref sig .tc := ⟨.hbm, 76, rfl⟩
abbrev main_v40 : Ref sig .tc := ⟨.hbm, 77, rfl⟩
abbrev main_v41 : Ref sig .tc := ⟨.hbm, 78, rfl⟩
abbrev main_v42 : Ref sig .tc := ⟨.hbm, 79, rfl⟩
abbrev main_v43 : Ref sig .tc := ⟨.hbm, 80, rfl⟩
abbrev main_cst_13 : Ref sig .tc := ⟨.hbm, 81, rfl⟩
abbrev main_v44 : Ref sig .tc := ⟨.hbm, 82, rfl⟩
abbrev main_v45 : Ref sig .tc := ⟨.hbm, 83, rfl⟩
abbrev main_v46 : Ref sig .tc := ⟨.hbm, 84, rfl⟩
abbrev main_v47 : Ref sig .tc := ⟨.hbm, 85, rfl⟩
abbrev main_v48 : Ref sig .tc := ⟨.hbm, 86, rfl⟩
abbrev main_c_14 : Ref sig .tc := ⟨.hbm, 87, rfl⟩
abbrev main_v49 : Ref sig .tc := ⟨.hbm, 88, rfl⟩
abbrev main_v50 : Ref sig .tc := ⟨.hbm, 89, rfl⟩
abbrev main_v51 : Ref sig .tc := ⟨.hbm, 90, rfl⟩
abbrev main_call1_v0 : Ref sig .tc := ⟨.hbm, 91, rfl⟩
abbrev main_call1_v1 : Ref sig .tc := ⟨.hbm, 92, rfl⟩
abbrev main_v52 : Ref sig .tc := ⟨.hbm, 93, rfl⟩
abbrev main_cst_15 : Ref sig .tc := ⟨.hbm, 94, rfl⟩
abbrev main_v53 : Ref sig .tc := ⟨.hbm, 95, rfl⟩
abbrev main_v54 : Ref sig .tc := ⟨.hbm, 96, rfl⟩
abbrev main_v55 : Ref sig .tc := ⟨.hbm, 97, rfl⟩
abbrev main_cst_16 : Ref sig .tc := ⟨.hbm, 98, rfl⟩
abbrev main_v56 : Ref sig .tc := ⟨.hbm, 99, rfl⟩
abbrev main_cst_17 : Ref sig .tc := ⟨.hbm, 100, rfl⟩
abbrev main_v57 : Ref sig .tc := ⟨.hbm, 101, rfl⟩
abbrev main_v58 : Ref sig .tc := ⟨.hbm, 102, rfl⟩
abbrev main_call2_v0 : Ref sig .tc := ⟨.hbm, 103, rfl⟩
abbrev main_call2_v1 : Ref sig .tc := ⟨.hbm, 104, rfl⟩
abbrev main_v59 : Ref sig .tc := ⟨.hbm, 105, rfl⟩
abbrev main_call3_v0 : Ref sig .tc := ⟨.hbm, 106, rfl⟩
abbrev main_call3_v1 : Ref sig .tc := ⟨.hbm, 107, rfl⟩
abbrev main_v60 : Ref sig .tc := ⟨.hbm, 108, rfl⟩
abbrev main_c_18 : Ref sig .tc := ⟨.hbm, 109, rfl⟩
abbrev main_call4_cst : Ref sig .tc := ⟨.hbm, 110, rfl⟩
abbrev main_call4_v0 : Ref sig .tc := ⟨.hbm, 111, rfl⟩
abbrev main_call4_v1 : Ref sig .tc := ⟨.hbm, 112, rfl⟩
abbrev main_call4_cst_0 : Ref sig .tc := ⟨.hbm, 113, rfl⟩
abbrev main_call4_v2 : Ref sig .tc := ⟨.hbm, 114, rfl⟩
abbrev main_call4_v3 : Ref sig .tc := ⟨.hbm, 115, rfl⟩
abbrev main_call4_v4 : Ref sig .tc := ⟨.hbm, 116, rfl⟩
abbrev main_call4_v5 : Ref sig .tc := ⟨.hbm, 117, rfl⟩
abbrev main_call4_v6 : Ref sig .tc := ⟨.hbm, 118, rfl⟩
abbrev main_call4_v7 : Ref sig .tc := ⟨.hbm, 119, rfl⟩
abbrev main_call4_cst_1 : Ref sig .tc := ⟨.hbm, 120, rfl⟩
abbrev main_call4_v8 : Ref sig .tc := ⟨.hbm, 121, rfl⟩
abbrev main_call4_cst_2 : Ref sig .tc := ⟨.hbm, 122, rfl⟩
abbrev main_call4_v9 : Ref sig .tc := ⟨.hbm, 123, rfl⟩
abbrev main_call4_v10 : Ref sig .tc := ⟨.hbm, 124, rfl⟩
abbrev main_call4_v11 : Ref sig .tc := ⟨.hbm, 125, rfl⟩
abbrev main_call4_cst_3 : Ref sig .tc := ⟨.hbm, 126, rfl⟩
abbrev main_call4_v12 : Ref sig .tc := ⟨.hbm, 127, rfl⟩
abbrev main_call4_cst_4 : Ref sig .tc := ⟨.hbm, 128, rfl⟩
abbrev main_call4_call0_v0 : Ref sig .tc := ⟨.hbm, 129, rfl⟩
abbrev main_call4_call0_v1 : Ref sig .tc := ⟨.hbm, 130, rfl⟩
abbrev main_v61 : Ref sig .tc := ⟨.hbm, 131, rfl⟩
abbrev main_c_19 : Ref sig .tc := ⟨.hbm, 132, rfl⟩
abbrev main_call5_cst : Ref sig .tc := ⟨.hbm, 133, rfl⟩
abbrev main_call5_v0 : Ref sig .tc := ⟨.hbm, 134, rfl⟩
abbrev main_call5_v1 : Ref sig .tc := ⟨.hbm, 135, rfl⟩
abbrev main_call5_cst_0 : Ref sig .tc := ⟨.hbm, 136, rfl⟩
abbrev main_call5_v2 : Ref sig .tc := ⟨.hbm, 137, rfl⟩
abbrev main_call5_v3 : Ref sig .tc := ⟨.hbm, 138, rfl⟩
abbrev main_call5_v4 : Ref sig .tc := ⟨.hbm, 139, rfl⟩
abbrev main_call5_v5 : Ref sig .tc := ⟨.hbm, 140, rfl⟩
abbrev main_call5_v6 : Ref sig .tc := ⟨.hbm, 141, rfl⟩
abbrev main_call5_v7 : Ref sig .tc := ⟨.hbm, 142, rfl⟩
abbrev main_call5_cst_1 : Ref sig .tc := ⟨.hbm, 143, rfl⟩
abbrev main_call5_v8 : Ref sig .tc := ⟨.hbm, 144, rfl⟩
abbrev main_call5_cst_2 : Ref sig .tc := ⟨.hbm, 145, rfl⟩
abbrev main_call5_v9 : Ref sig .tc := ⟨.hbm, 146, rfl⟩
abbrev main_call5_v10 : Ref sig .tc := ⟨.hbm, 147, rfl⟩
abbrev main_call5_v11 : Ref sig .tc := ⟨.hbm, 148, rfl⟩
abbrev main_call5_cst_3 : Ref sig .tc := ⟨.hbm, 149, rfl⟩
abbrev main_call5_v12 : Ref sig .tc := ⟨.hbm, 150, rfl⟩
abbrev main_call5_cst_4 : Ref sig .tc := ⟨.hbm, 151, rfl⟩
abbrev main_call5_call0_v0 : Ref sig .tc := ⟨.hbm, 152, rfl⟩
abbrev main_call5_call0_v1 : Ref sig .tc := ⟨.hbm, 153, rfl⟩
abbrev main_v62 : Ref sig .tc := ⟨.hbm, 154, rfl⟩
abbrev main_v63 : Ref sig .tc := ⟨.hbm, 155, rfl⟩
abbrev main_v64 : Ref sig .tc := ⟨.hbm, 156, rfl⟩
abbrev main_v65 : Ref sig .tc := ⟨.hbm, 157, rfl⟩
abbrev main_v66 : Ref sig .tc := ⟨.hbm, 158, rfl⟩
abbrev main_v67 : Ref sig .tc := ⟨.hbm, 159, rfl⟩
abbrev main_v68 : Ref sig .tc := ⟨.hbm, 160, rfl⟩
abbrev main_v69 : Ref sig .tc := ⟨.hbm, 161, rfl⟩
abbrev main_v70 : Ref sig .tc := ⟨.hbm, 162, rfl⟩
abbrev main_v71 : Ref sig .tc := ⟨.hbm, 163, rfl⟩
abbrev main_v72 : Ref sig .tc := ⟨.hbm, 164, rfl⟩
abbrev main_v73 : Ref sig .tc := ⟨.hbm, 165, rfl⟩
abbrev main_v74 : Ref sig .tc := ⟨.hbm, 166, rfl⟩
abbrev main_v75 : Ref sig .tc := ⟨.hbm, 167, rfl⟩
abbrev main_v76 : Ref sig .tc := ⟨.hbm, 168, rfl⟩
abbrev main_v77 : Ref sig .tc := ⟨.hbm, 169, rfl⟩
abbrev main_v78 : Ref sig .tc := ⟨.hbm, 170, rfl⟩
abbrev main_v79 : Ref sig .tc := ⟨.hbm, 171, rfl⟩
abbrev main_v80 : Ref sig .tc := ⟨.hbm, 172, rfl⟩
abbrev main_v81 : Ref sig .tc := ⟨.hbm, 173, rfl⟩
abbrev main_v82 : Ref sig .tc := ⟨.hbm, 174, rfl⟩

abbrev nD : Nat := 1
abbrev τ : Topo := Topo.v7x

variable {F : FTy → Type} [FloatOps F]

class Facts₀ : Prop where
  shapeCasts_S16384x2560x1_S16384x2560 : S16384x2560x1.ShapeCasts S16384x2560
  reducesTo_S16384x2560_S16384_d1 : S16384x2560.ReducesTo [1] S16384
  h_S_ : 0 < S_.numel
  bcast_S_S16384 : S_.BroadcastsInDim S16384 (![] : Fin 0 → Fin S16384.rank)
  bcast_S16384_S16384x1_0 : S16384.BroadcastsInDim S16384x1 (![0] : Fin 1 → Fin S16384x1.rank)
  bcast_S_S16384x1 : S_.BroadcastsInDim S16384x1 (![] : Fin 0 → Fin S16384x1.rank)
  bcast_S16384x1_S16384x2560_0_1 : S16384x1.BroadcastsInDim S16384x2560 (![0, 1] : Fin 2 → Fin S16384x2560.rank)
  natLt_1_32 : 1 < 32
  slices_S16384x2560_S16384x2559_0_1 : S16384x2560.Slices ![0, 1] S16384x2559
  slices_S16384x2560_S16384x2559_0_0 : S16384x2560.Slices ![0, 0] S16384x2559
  bcast_S_S16384x2559 : S_.BroadcastsInDim S16384x2559 (![] : Fin 0 → Fin S16384x2559.rank)
  reducesTo_S16384x2559_S16384_d1 : S16384x2559.ReducesTo [1] S16384
  slices_S16384x2559_S16384x2558_0_1 : S16384x2559.Slices ![0, 1] S16384x2558
  slices_S16384x2559_S16384x2558_0_0 : S16384x2559.Slices ![0, 0] S16384x2558
  bcast_S16384x1_S16384x2559_0_1 : S16384x1.BroadcastsInDim S16384x2559 (![0, 1] : Fin 2 → Fin S16384x2559.rank)
  reducesTo_S16384x2558_S16384_d1 : S16384x2558.ReducesTo [1] S16384
  bcast_S16384x1_S16384x2558_0_1 : S16384x1.BroadcastsInDim S16384x2558 (![0, 1] : Fin 2 → Fin S16384x2558.rank)
  concatenates_S16384x1_S16384x1_S16384x1_S16384x1_S16384x1_S16384x1_S16384x1_S16384x1_S16384x1_S16384x1_S16384x1_S16384x1_S16384x1_S16384x1_S16384x1_S16384x15_d1 : Shape.Concatenates [S16384x1, S16384x1, S16384x1, S16384x1, S16384x1, S16384x1, S16384x1, S16384x1, S16384x1, S16384x1, S16384x1, S16384x1, S16384x1, S16384x1, S16384x1] S16384x15 1

variable [Facts₀]

class Facts : Prop extends Facts₀ where

variable [Facts]
-- ==== Proof.Stats.lean ====
/-
  The fifteen statistics of one signal row, as functions of the row's 2560 samples read as extended reals.

  A row v : Fin 2560 → EReal gives: its mean (the sum over 2560); its largest and smallest sample and their
  difference; the unbiased variance, the sum of (v - mean)² over 2559 (twice: as "variance" and as the Hjorth
  activity) and its root, the standard deviation; the root mean square; the skewness and the kurtosis (third and
  fourth central moments over 2560, divided by the cube and the fourth power of the standard deviation); the shape
  factor and the impulse factor (rms · 2560 and max |v| · 2560, each over the sum of |v|); the number of samples
  further than three standard deviations from the mean; the zero-crossing rate (sign changes between neighbours,
  over 2 · 2560); and the Hjorth mobility and complexity, √(var v' / var v) and √(var v'' / var v'), where v' and v''
  are the first and second differences of the row, of lengths 2559 and 2558, and their variances are unbiased
  (divisors 2558 and 2557).

  Every divisor is kept as the extended real its 32-bit float word denotes (lit): both programs spell the same
  words, so no word is evaluated here. Division is the instance's (Ideal.div), so every corner (a zero variance,
  an infinite sum) is the same value on both sides and needs no case split.
-/
import Idealize.ShloMosaic.PureOps.Ideal
import Idealize.ShloMosaic.PureOps.Ideal.Laws
import Idealize.ShloMosaic.Lib.ValueIdx

noncomputable section

open scoped BigOperators

namespace Cert.Stats

open Idealize.ShloMosaic

/-- The extended real a 32-bit float word denotes. -/
abbrev lit (w : BitVec 32) : EReal := Ideal.ofBits .f32 w

/-- The words of the divisors: 2560, 2559, 2558, 2557, 5120, and of the threshold 3. -/
abbrev W0 : BitVec 32 := 0x45200000#32
abbrev W1 : BitVec 32 := 0x451FF000#32
abbrev W2 : BitVec 32 := 0x451FE000#32
abbrev W3 : BitVec 32 := 0x451FD000#32
abbrev W5120 : BitVec 32 := 0x45A00000#32
abbrev Wthree : BitVec 32 := 0x40400000#32

variable {n : ℕ}

/-- The sum of a row over the divisor the word w denotes. -/
def avg (w : BitVec 32) (v : Fin n → EReal) : EReal := Ideal.div (∑ k, v k) (lit w)

/-- The largest sample (from -∞) and the smallest (from +∞). -/
def hi (v : Fin n → EReal) : EReal := (Finset.univ : Finset (Fin n)).fold max (lit 0xFF800000#32) v
def lo (v : Fin n → EReal) : EReal := (Finset.univ : Finset (Fin n)).fold min (lit 0x7F800000#32) v

/-- The row centred at its mean (divisor word w). -/
def dev (w : BitVec 32) (v : Fin n → EReal) : Fin n → EReal := fun k => v k - avg w v

/-- The unbiased variance: mean divisor wm, variance divisor wv. -/
def spread (wm wv : BitVec 32) (v : Fin n → EReal) : EReal := avg wv (fun k => dev wm v k * dev wm v k)

/-- First difference: neighbour minus sample. -/
def diff (v : Fin (n + 1) → EReal) : Fin n → EReal := fun k => v k.succ - v k.castSucc

/-- The magnitude, as the instance's absf. -/
def mag (a : EReal) : EReal := max a (-a)

/-- A one-bit condition as the number 0 or 1. -/
def bit (b : BitVec 1) : EReal := ((b.toNat : ℝ) : EReal)

section Row
variable (v : Fin 2560 → EReal)

def mean : EReal := avg W0 v
def var : EReal := spread W0 W1 v
def std : EReal := Ideal.sqrt (var v)
def rms : EReal := Ideal.sqrt (avg W0 (fun k => v k * v k))
def skew : EReal :=
  Ideal.div (avg W0 (fun k => (dev W0 v k * dev W0 v k) * dev W0 v k)) ((std v * std v) * std v)
def kurt : EReal :=
  Ideal.div (avg W0 (fun k => (dev W0 v k * dev W0 v k) * (dev W0 v k * dev W0 v k))) (((std v * std v) * std v) * std v)
def absSum : EReal := ∑ k, mag (v k)
def absMax : EReal := hi (fun k => mag (v k))
def shapeFactor : EReal := Ideal.div (rms v * lit W0) (absSum v)
def impulseFactor : EReal := Ideal.div (absMax v * lit W0) (absSum v)
def outliers : EReal := ∑ k, bit (Ideal.cmp .ogt (mag (dev W0 v k)) (lit Wthree * std v))
def zcr : EReal :=
  Ideal.div (∑ k : Fin 2559, bit (Ideal.cmp .one (diff (n := 2559) (fun i => Ideal.sign (v i)) k) (lit 0x00000000#32))) (lit W5120)
def d1 : Fin 2559 → EReal := diff (n := 2559) v
def d2 : Fin 2558 → EReal := diff (n := 2558) (d1 v)
def varD1 : EReal := spread W1 W2 (d1 v)
def varD2 : EReal := spread W2 W3 (d2 v)
def mobility : EReal := Ideal.sqrt (Ideal.div (varD1 v) (var v))
def complexity : EReal := Ideal.sqrt (Ideal.div (varD2 v) (varD1 v))

/-- The fifteen statistics of a row, in the order both programs lay them out. -/
def rowStat : Fin 15 → EReal
  | ⟨0, _⟩ => mean v
  | ⟨1, _⟩ => hi v
  | ⟨2, _⟩ => lo v
  | ⟨3, _⟩ => hi v - lo v
  | ⟨4, _⟩ => var v
  | ⟨5, _⟩ => rms v
  | ⟨6, _⟩ => skew v
  | ⟨7, _⟩ => kurt v
  | ⟨8, _⟩ => shapeFactor v
  | ⟨9, _⟩ => impulseFactor v
  | ⟨10, _⟩ => outliers v
  | ⟨11, _⟩ => zcr v
  | ⟨12, _⟩ => var v
  | ⟨13, _⟩ => mobility v
  | ⟨14, _⟩ => complexity v
  | ⟨_ + 15, h⟩ => absurd h (by omega)

end Row

open Idealize.ShloMosaic.ValueIdx in
/-- The whole result: entry (r, j) is statistic j of signal r, whose sample k is the argument's entry (r, k, 0). -/
def G (a : (⟨3, ![16384, 2560, 1]⟩ : Shape).Idx → EReal) : (⟨2, ![16384, 15]⟩ : Shape).Idx → EReal :=
  fun i => rowStat (fun k => a (ix3 (i 0 : Fin 16384) k (0 : Fin 1))) (i 1 : Fin 15)

open Idealize.ShloMosaic.ValueIdx in
theorem G_apply (a : (⟨3, ![16384, 2560, 1]⟩ : Shape).Idx → EReal) (r : Fin 16384) (j : Fin 15) :
    G a (ix2 r j) = rowStat (fun k => a (ix3 r k (0 : Fin 1))) j := rfl

end Cert.Stats

end
-- ==== Proof.LibRows.lean ====
/-
  Arrays of n rows and c columns read row by row.

  A reduction along the second axis, read at row p, ranges over the columns k of that row: the source index over the
  reduced index (p) with the coordinate k inserted is (p, k). So a kernel's multi_reduction and the host's reduce
  over axis 1 are, at row p, the sum (the largest, the smallest) of the row's entries x (p, k), k : Fin c.
  A unit-stride slice that drops the first or the last column reads the row shifted or unshifted, and a concatenation
  of fifteen columns of shape [n, 1] along axis 1 reads, at (p, j), column j at (p, 0).
-/
import Idealize.ShloMosaic.Lib.ValueIdx
import Idealize.ShloMosaic.Lib.Pipeline.Value
import Idealize.ShloMosaic.PureOps.Ideal.Laws

noncomputable section

open scoped BigOperators

namespace Idealize.ShloMosaic.Rows

open Idealize.ShloMosaic Idealize.ShloMosaic.ValueIdx

variable {n c : ℕ} {φ : FTy}

/-- Over row p, the source index with column k inserted is (p, k). -/
theorem lift_row (h : (⟨2, ![n, c]⟩ : Shape).Reduces [1] ⟨1, ![n]⟩) (p : Fin n) (k : Fin c) :
    h.lift (ix1 p) k = ix2 p k := by
  funext a
  apply Fin.ext
  show h.liftVal (ix1 p) k.val a = _
  match a with
  | ⟨0, _⟩ => simp [Shape.Reduces.liftVal]
  | ⟨1, _⟩ => simp [Shape.Reduces.liftVal]

/-- A kernel's sum along the columns, at row p. -/
theorem mredAdd_row (src : FVec Ideal ⟨2, ![n, c]⟩ φ) (acc : BitVec φ.bits)
    (h : (⟨2, ![n, c]⟩ : Shape).Reduces [1] ⟨1, ![n]⟩) (hφ : FKind.Formats φ) (hacc : acc = FKind.add.neutral φ hφ)
    (p : Fin n) :
    multiReduction .add [1] ⟨1, ![n]⟩ src acc h hφ hacc (ix1 p) = ∑ k : Fin c, src (ix2 p k) := by
  rw [Ideal.multiReduction_add_single]
  exact Finset.sum_congr rfl fun k _ => congrArg src (lift_row h p k)

/-- A kernel's maximum along the columns, at row p. -/
theorem mredMax_row (src : FVec Ideal ⟨2, ![n, c]⟩ φ) (acc : BitVec φ.bits)
    (h : (⟨2, ![n, c]⟩ : Shape).Reduces [1] ⟨1, ![n]⟩) (hφ : FKind.Formats φ) (hacc : acc = FKind.maximumf.neutral φ hφ)
    (p : Fin n) :
    multiReduction .maximumf [1] ⟨1, ![n]⟩ src acc h hφ hacc (ix1 p)
      = (Finset.univ : Finset (Fin c)).fold max (Ideal.ofBits φ acc) (fun k => src (ix2 p k)) := by
  rw [Ideal.multiReduction_maximumf_single]
  have e : (src ∘ h.lift (ix1 p)) = fun k : Fin c => src (ix2 p k) := funext fun k => congrArg src (lift_row h p k)
  rw [e]
  rfl

/-- A kernel's minimum along the columns, at row p. -/
theorem mredMin_row (src : FVec Ideal ⟨2, ![n, c]⟩ φ) (acc : BitVec φ.bits)
    (h : (⟨2, ![n, c]⟩ : Shape).Reduces [1] ⟨1, ![n]⟩) (hφ : FKind.Formats φ) (hacc : acc = FKind.minimumf.neutral φ hφ)
    (p : Fin n) :
    multiReduction .minimumf [1] ⟨1, ![n]⟩ src acc h hφ hacc (ix1 p)
      = (Finset.univ : Finset (Fin c)).fold min (Ideal.ofBits φ acc) (fun k => src (ix2 p k)) := by
  rw [multiReduction_minimumf_eq_fold, h.fold_filter_drop_single]
  have e : (src ∘ h.lift (ix1 p)) = fun k : Fin c => src (ix2 p k) := funext fun k => congrArg src (lift_row h p k)
  rw [e]
  rfl

/-- The host's sum along the columns, at row p: the initial value plus the row's sum. -/
theorem hredAdd_row (x : FVec Ideal ⟨2, ![n, c]⟩ φ) {u : Shape} (v : u.Idx → Ideal φ)
    (h' : (⟨2, ![n, c]⟩ : Shape).ReducesTo [1] ⟨1, ![n]⟩) (h : (⟨2, ![n, c]⟩ : Shape).Reduces [1] ⟨1, ![n]⟩)
    (hu : 0 < u.numel) (p : Fin n) :
    Host.reduceAdd x v h' hu (ix1 p) = v (Shape.Idx.first hu) + ∑ k : Fin c, x (ix2 p k) := by
  show Ideal.hostReduceAdd h' x (v (Shape.Idx.first hu)) (ix1 p) = _
  rw [Ideal.hostReduceAdd_single h' h]
  exact congrArg (v (Shape.Idx.first hu) + ·) (Finset.sum_congr rfl fun k _ => congrArg x (lift_row h p k))

/-- The host's maximum along the columns, at row p. -/
theorem hredMax_row (x : FVec Ideal ⟨2, ![n, c]⟩ φ) {u : Shape} (v : u.Idx → Ideal φ)
    (h' : (⟨2, ![n, c]⟩ : Shape).ReducesTo [1] ⟨1, ![n]⟩) (h : (⟨2, ![n, c]⟩ : Shape).Reduces [1] ⟨1, ![n]⟩)
    (hu : 0 < u.numel) (p : Fin n) :
    Host.reduce FloatOps.maximumf x v h' hu (ix1 p)
      = (Finset.univ : Finset (Fin c)).fold max (v (Shape.Idx.first hu)) (fun k => x (ix2 p k)) := by
  rw [Host.reduce_eq_fold_single FloatOps.maximumf x v h' h hu]
  have e : (x ∘ h.lift (ix1 p)) = fun k : Fin c => x (ix2 p k) := funext fun k => congrArg x (lift_row h p k)
  rw [e]
  rfl

/-- The host's minimum along the columns, at row p. -/
theorem hredMin_row (x : FVec Ideal ⟨2, ![n, c]⟩ φ) {u : Shape} (v : u.Idx → Ideal φ)
    (h' : (⟨2, ![n, c]⟩ : Shape).ReducesTo [1] ⟨1, ![n]⟩) (h : (⟨2, ![n, c]⟩ : Shape).Reduces [1] ⟨1, ![n]⟩)
    (hu : 0 < u.numel) (p : Fin n) :
    Host.reduce FloatOps.minimumf x v h' hu (ix1 p)
      = (Finset.univ : Finset (Fin c)).fold min (v (Shape.Idx.first hu)) (fun k => x (ix2 p k)) := by
  rw [Host.reduce_eq_fold_single FloatOps.minimumf x v h' h hu]
  have e : (x ∘ h.lift (ix1 p)) = fun k : Fin c => x (ix2 p k) := funext fun k => congrArg x (lift_row h p k)
  rw [e]
  rfl

variable {α : Type}

/-- The slice that drops the first column reads the row one to the right. -/
theorem slice_succ (x : (⟨2, ![n, c + 1]⟩ : Shape).Idx → α)
    (h : (⟨2, ![n, c + 1]⟩ : Shape).Slices ![0, 1] ⟨2, ![n, c]⟩) (p : Fin n) (k : Fin c) :
    extractStridedSlice ⟨2, ![n, c]⟩ ![0, 1] x h (ix2 p k) = x (ix2 p k.succ) :=
  extractStridedSlice_apply _ x h _ _ fun a => by
    match a with
    | ⟨0, _⟩ => show p.val = 0 + p.val; omega
    | ⟨1, _⟩ => show k.val + 1 = 1 + k.val; omega

/-- The slice that drops the last column reads the row in place. -/
theorem slice_castSucc (x : (⟨2, ![n, c + 1]⟩ : Shape).Idx → α)
    (h : (⟨2, ![n, c + 1]⟩ : Shape).Slices ![0, 0] ⟨2, ![n, c]⟩) (p : Fin n) (k : Fin c) :
    extractStridedSlice ⟨2, ![n, c]⟩ ![0, 0] x h (ix2 p k) = x (ix2 p k.castSucc) :=
  extractStridedSlice_apply _ x h _ _ fun a => by
    match a with
    | ⟨0, _⟩ => show p.val = 0 + p.val; omega
    | ⟨1, _⟩ => show k.val = 0 + k.val; omega

/-- Fifteen columns [n, 1] laid side by side: entry (p, j) is column j at (p, 0). -/
theorem concat15_apply (f : Fin 15 → ((⟨2, ![n, 1]⟩ : Shape).Idx → α))
    (h : Shape.Concatenates ((List.ofFn fun i : Fin 15 => (⟨⟨2, ![n, 1]⟩, f i⟩ : (s : Shape) × (s.Idx → α))).map (·.1))
      ⟨2, ![n, 15]⟩ 1)
    (p : Fin n) (j : Fin 15) :
    concatenate ⟨2, ![n, 15]⟩ 1 (List.ofFn fun i : Fin 15 => (⟨⟨2, ![n, 1]⟩, f i⟩ : (s : Shape) × (s.Idx → α))) h (ix2 p j)
      = f j (ix2 p (0 : Fin 1)) :=
  concatenate_ofFn_unit_apply (t := ⟨2, ![n, 15]⟩) (s₁ := ⟨2, ![n, 1]⟩) 1 f h rfl rfl (ix2 p j) j rfl (ix2 p (0 : Fin 1))
    (fun b hb => by
      match b with
      | ⟨0, _⟩ => rfl
      | ⟨1, _⟩ => exact absurd rfl hb)

end Idealize.ShloMosaic.Rows

end
-- ==== Proof.LibColumn.lean ====
/-
  A vector of length `a` laid out as a column `[a, 1]`, read at an index.

  Two host operations produce the same column from a vector `x`: a reshape `[a] → [a, 1]` (row-major position
  `i * 1 + 0 = i`) and a `broadcast_in_dim` along axis `0` into `[a, 1]` (the new axis has extent one, so nothing is
  repeated). Both read `x i` at `(i, u)`, whatever the unit coordinate `u`; hence the two columns are equal as arrays.
  A column broadcast along its unit axis to `[a, b]` (the kernel-side `vector.broadcast`, the host's
  `broadcast_in_dim` along both axes) reads the column at `(i, 0)`.
-/
import Idealize.ShloMosaic.Lib.ValueIdx
import Idealize.ShloMosaic.Lib.Pipeline.Value

namespace Idealize.ShloMosaic.Column

open Idealize.ShloMosaic Idealize.ShloMosaic.ValueIdx

variable {α : Type}

/-- The reshape `[a] → [a, 1]` at `(i, u)` is the vector at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- The `broadcast_in_dim` of a vector along axis `0` into `[a, 1]`, at `(i, u)`, is the vector at `i`
    (for `a ≠ 1`; the extent-one case reads index `0`, which is again `i`). -/
theorem broadcastInDim_a_a1_apply {a : ℕ} (x : (⟨1, ![a]⟩ : Shape).Idx → α)
    (dims : Fin 1 → Fin 2) (hd : dims 0 = 0)
    (h : (⟨1, ![a]⟩ : Shape).BroadcastsInDim ⟨2, ![a, 1]⟩ dims)
    (i : Fin a) (u : Fin 1) : broadcastInDim ⟨2, ![a, 1]⟩ dims h x (ix2 i u) = x (ix1 i) := by
  refine broadcastInDim_apply dims h x (ix2 i u) (ix1 i) ?_
  intro d
  match d with
  | ⟨0, _⟩ =>
    show i.val = if a = 1 then 0 else ((ix2 i u : (⟨2, ![a, 1]⟩ : Shape).Idx) (dims 0)).val
    rw [hd]
    by_cases h1 : a = 1
    · rw [if_pos h1]; have := i.isLt; omega
    · rw [if_neg h1]

/-- So the two columns are one array. -/
theorem shapeCast_eq_broadcastInDim {a : ℕ} (x : (⟨1, ![a]⟩ : Shape).Idx → α)
    (hs : (⟨1, ![a]⟩ : Shape).ShapeCasts ⟨2, ![a, 1]⟩)
    (dims : Fin 1 → Fin 2) (hd : dims 0 = 0)
    (hb : (⟨1, ![a]⟩ : Shape).BroadcastsInDim ⟨2, ![a, 1]⟩ dims) :
    shapeCast ⟨2, ![a, 1]⟩ x hs = broadcastInDim ⟨2, ![a, 1]⟩ dims hb x := by
  funext j
  obtain ⟨p, q, rfl⟩ : ∃ (p : Fin a) (q : Fin 1), j = ix2 p q := ⟨j 0, j 1, eq_ix2 j⟩
  rw [shapeCast_a_a1_apply, broadcastInDim_a_a1_apply x dims hd]

/-- A column `[a, 1]` broadcast to `[a, b]` (a kernel's `vector.broadcast`) reads, at `(i, j)`, the column at `(i, 0)`
    (for `a ≠ 1`). -/
theorem broadcastTo_a1_ab_apply {a b : ℕ} (ha : a ≠ 1) (x : (⟨2, ![a, 1]⟩ : Shape).Idx → α)
    (h : (⟨2, ![a, 1]⟩ : Shape).Broadcasts ⟨2, ![a, b]⟩) (i : Fin a) (j : Fin b) :
    broadcastTo ⟨2, ![a, b]⟩ x h (ix2 i j) = x (ix2 i (0 : Fin 1)) := by
  refine broadcastTo_apply x h (ix2 i j) (ix2 i (0 : Fin 1)) ?_
  intro d
  match d with
  | ⟨0, _⟩ => show i.val = if a = 1 then 0 else i.val; rw [if_neg ha]
  | ⟨1, _⟩ => show 0 = if (1 : ℕ) = 1 then 0 else j.val; rw [if_pos rfl]

/-- The host's `broadcast_in_dim` of a column `[a, 1]` along both axes into `[a, b]` reads the same (for `a ≠ 1`). -/
theorem broadcastInDim_a1_ab_apply {a b : ℕ} (ha : a ≠ 1) (x : (⟨2, ![a, 1]⟩ : Shape).Idx → α)
    (dims : Fin 2 → Fin 2) (hd0 : dims 0 = 0) (hd1 : dims 1 = 1)
    (h : (⟨2, ![a, 1]⟩ : Shape).BroadcastsInDim ⟨2, ![a, b]⟩ dims) (i : Fin a) (j : Fin b) :
    broadcastInDim ⟨2, ![a, b]⟩ dims h x (ix2 i j) = x (ix2 i (0 : Fin 1)) := by
  refine broadcastInDim_apply dims h x (ix2 i j) (ix2 i (0 : Fin 1)) ?_
  intro d
  match d with
  | ⟨0, _⟩ =>
    show i.val = if a = 1 then 0 else ((ix2 i j : (⟨2, ![a, b]⟩ : Shape).Idx) (dims 0)).val
    rw [hd0, if_neg ha]
  | ⟨1, _⟩ =>
    show 0 = if (1 : ℕ) = 1 then 0 else ((ix2 i j : (⟨2, ![a, b]⟩ : Shape).Idx) (dims 1)).val
    rw [if_pos rfl]

end Idealize.ShloMosaic.Column
-- ==== Proof.Consts.lean ====
/-
  The divisor words as numbers, and the small facts about one-bit conditions.

  2560.0, 2559.0, 2558.0, 2557.0 as 32-bit float words denote those reals; so jnp.var's divisor "length minus ddof",
  computed by the reference as a float subtraction of the integer 1 converted to a float, is the next word down, and
  is positive. A one-bit condition widened to 32 bits and converted as a signed integer, or converted directly as an
  unsigned one, is the number 0 or 1.
-/
import proofs.«138518_j60224031425109_1_alg».proof.Proof.Stats

noncomputable section

namespace Cert.Consts

open Idealize.ShloMosaic Cert.Stats

theorem lit_W0 : lit W0 = ((2560 : ℝ) : EReal) := by
  show Ideal.ofBits .f32 0x45200000#32 = _
  simp [Ideal.ofBits, Ideal.ieee, -EReal.coe_mul]; norm_num
theorem lit_W1 : lit W1 = ((2559 : ℝ) : EReal) := by
  show Ideal.ofBits .f32 0x451FF000#32 = _
  simp [Ideal.ofBits, Ideal.ieee, -EReal.coe_mul]; norm_num
theorem lit_W2 : lit W2 = ((2558 : ℝ) : EReal) := by
  show Ideal.ofBits .f32 0x451FE000#32 = _
  simp [Ideal.ofBits, Ideal.ieee, -EReal.coe_mul]; norm_num
theorem lit_W3 : lit W3 = ((2557 : ℝ) : EReal) := by
  show Ideal.ofBits .f32 0x451FD000#32 = _
  simp [Ideal.ofBits, Ideal.ieee, -EReal.coe_mul]; norm_num
theorem lit_zero : lit 0x00000000#32 = 0 := Ideal.ofBits_zero_f32

/-- The integer one, converted, is the real one. -/
theorem sitofp_one : (FloatOps.sitofp (F := Ideal) .f32 (1#32 : BitVec 32) : EReal) = ((1 : ℝ) : EReal) := by
  show (((1#32 : BitVec 32).toInt : ℝ) : EReal) = _
  norm_num

/-- Length minus one, for the three lengths. -/
theorem W0_sub_one : lit W0 - FloatOps.sitofp (F := Ideal) .f32 (1#32 : BitVec 32) = lit W1 := by
  rw [lit_W0, lit_W1, sitofp_one, ← EReal.coe_sub]; norm_num
theorem W1_sub_one : lit W1 - FloatOps.sitofp (F := Ideal) .f32 (1#32 : BitVec 32) = lit W2 := by
  rw [lit_W1, lit_W2, sitofp_one, ← EReal.coe_sub]; norm_num
theorem W2_sub_one : lit W2 - FloatOps.sitofp (F := Ideal) .f32 (1#32 : BitVec 32) = lit W3 := by
  rw [lit_W2, lit_W3, sitofp_one, ← EReal.coe_sub]; norm_num

/-- The divisors are positive: the guard of jnp.var is taken. -/
theorem W1_pos : Ideal.cmp .ogt (lit W1) (lit 0x00000000#32) = 1#1 := by
  rw [lit_W1, lit_zero]; simp [Ideal.cmp]
theorem W2_pos : Ideal.cmp .ogt (lit W2) (lit 0x00000000#32) = 1#1 := by
  rw [lit_W2, lit_zero]; simp [Ideal.cmp]
theorem W3_pos : Ideal.cmp .ogt (lit W3) (lit 0x00000000#32) = 1#1 := by
  rw [lit_W3, lit_zero]; simp [Ideal.cmp]

/-- A bit widened to a word and read signed is the bit; read unsigned directly likewise. -/
theorem sitofp_extui_bit (b : BitVec 1) : (FloatOps.sitofp (F := Ideal) .f32 (b.setWidth 32) : EReal) = bit b := by
  rcases BitVec.eq_zero_or_eq_one b with rfl | rfl <;> (show ((_ : ℝ) : EReal) = ((_ : ℝ) : EReal); norm_num [bit])
theorem uitofp_bit (b : BitVec 1) : (FloatOps.uitofp (F := Ideal) .f32 b : EReal) = bit b := rfl
/-- A bit is 1 when set, else 0. -/
theorem bit_eq_ite (b : BitVec 1) : bit b = if b = 1#1 then 1 else 0 := by
  rcases BitVec.eq_zero_or_eq_one b with rfl | rfl <;> simp [bit]

end Cert.Consts

end
-- ==== Proof.KernelRowsA.lean ====
import proofs.«138518_j60224031425109_1_alg».proof.Proof.Gen.KernelIdeal.Skeleton
import proofs.«138518_j60224031425109_1_alg».proof.Proof.Stats
import proofs.«138518_j60224031425109_1_alg».proof.Proof.LibRows
import proofs.«138518_j60224031425109_1_alg».proof.Proof.LibColumn
import proofs.«138518_j60224031425109_1_alg».proof.Proof.Consts

noncomputable section

open scoped BigOperators

namespace Cert.KernelIdeal.Rows

open Cert.KernelIdeal Cert.KernelIdeal.Gen Idealize.ShloMosaic Idealize.ShloMosaic.ValueIdx Cert.Stats
open Idealize.ShloMosaic.Rows Idealize.ShloMosaic.Column

/-- Row p of a block of 128 signals. -/
abbrev row (P0 : FVec Ideal S128x2560 .f32) (p : Fin 128) : Fin 2560 → EReal := fun k => P0 (ix2 p k)

variable (P0 : FVec Ideal S128x2560 .f32) (p : Fin 128)

/-- The loaded block, re-cast to its own shape, is the block. -/
theorem pay2_eq : k0_pay2 (F := Ideal) P0 = P0 := by
  unfold k0_pay2
  exact shapeCast_self _ _

set_option backward.isDefEq.respectTransparency.types false in
/-- Column 0: the row's mean. The sum along the columns, laid out as a column, over the word of 2560. -/
theorem pay3_row : k0_pay3 (F := Ideal) P0 (ix2 p (0 : Fin 1)) = mean (row P0 p) := by
  unfold k0_pay3
  rw [pay2_eq]
  show Ideal.div (shapeCast S128x1 (multiReduction .add [1] S128 P0 0x00000000#32 _ _ _) _ (ix2 p (0 : Fin 1))) (Ideal.ofBits .f32 W0) = _
  rw [shapeCast_a_a1_apply, mredAdd_row]
  rfl

set_option backward.isDefEq.respectTransparency.types false in
/-- Columns 1, 2, 3: the largest and the smallest sample and their difference. -/
theorem pay4_row : k0_pay4 (F := Ideal) P0 (ix2 p (0 : Fin 1)) = hi (row P0 p) := by
  unfold k0_pay4
  rw [pay2_eq]
  show shapeCast S128x1 (multiReduction .maximumf [1] S128 P0 0xFF800000#32 _ _ _) _ (ix2 p (0 : Fin 1)) = _
  rw [shapeCast_a_a1_apply, mredMax_row]
  rfl

set_option backward.isDefEq.respectTransparency.types false in
theorem pay5_row : k0_pay5 (F := Ideal) P0 (ix2 p (0 : Fin 1)) = lo (row P0 p) := by
  unfold k0_pay5
  rw [pay2_eq]
  show shapeCast S128x1 (multiReduction .minimumf [1] S128 P0 0x7F800000#32 _ _ _) _ (ix2 p (0 : Fin 1)) = _
  rw [shapeCast_a_a1_apply, mredMin_row]
  rfl

theorem pay6_row : k0_pay6 (F := Ideal) P0 (ix2 p (0 : Fin 1)) = hi (row P0 p) - lo (row P0 p) := by
  unfold k0_pay6
  show k0_pay4 (F := Ideal) P0 (ix2 p (0 : Fin 1)) - k0_pay5 (F := Ideal) P0 (ix2 p (0 : Fin 1)) = _
  rw [pay4_row, pay5_row]

set_option backward.isDefEq.respectTransparency.types false in
/-- Column 5: the root mean square. The squares are taken entry by entry, so the sum along row p is the sum of
    the row's squares. -/
theorem pay7_row : k0_pay7 (F := Ideal) P0 (ix2 p (0 : Fin 1)) = rms (row P0 p) := by
  unfold k0_pay7
  rw [pay2_eq]
  show Ideal.sqrt (Ideal.div (shapeCast S128x1 (multiReduction .add [1] S128 (mulf P0 P0) 0x00000000#32 _ _ _) _ (ix2 p (0 : Fin 1))) (Ideal.ofBits .f32 W0)) = _
  rw [shapeCast_a_a1_apply, mredAdd_row]
  rfl

/-- The block centred row by row: the mean column, repeated along the row, is taken off every sample. -/
theorem pay8_row (k : Fin 2560) : k0_pay8 (F := Ideal) P0 (ix2 p k) = dev W0 (row P0 p) k := by
  unfold k0_pay8
  rw [pay2_eq]
  show P0 (ix2 p k) - broadcastTo S128x2560 (k0_pay3 (F := Ideal) P0) _ (ix2 p k) = _
  rw [broadcastTo_a1_ab_apply (by decide), pay3_row]
  rfl

set_option backward.isDefEq.respectTransparency.types false in
/-- Columns 4 and 12: the unbiased variance, the sum of the centred squares over the word of 2559; and its root. -/
theorem pay9_row : k0_pay9 (F := Ideal) P0 (ix2 p (0 : Fin 1)) = var (row P0 p) := by
  unfold k0_pay9
  show Ideal.div (shapeCast S128x1 (multiReduction .add [1] S128 (mulf (k0_pay8 (F := Ideal) P0) (k0_pay8 (F := Ideal) P0)) 0x00000000#32 _ _ _) _ (ix2 p (0 : Fin 1))) (Ideal.ofBits .f32 W1)
    = Ideal.div (∑ k : Fin 2560, dev W0 (row P0 p) k * dev W0 (row P0 p) k) (lit W1)
  rw [shapeCast_a_a1_apply, mredAdd_row]
  refine congrArg (fun s => Ideal.div s (lit W1)) (Finset.sum_congr rfl fun k _ => ?_)
  show k0_pay8 (F := Ideal) P0 (ix2 p k) * k0_pay8 (F := Ideal) P0 (ix2 p k) = _
  rw [pay8_row]

theorem pay10_row : k0_pay10 (F := Ideal) P0 (ix2 p (0 : Fin 1)) = std (row P0 p) := by
  unfold k0_pay10
  show Ideal.sqrt (k0_pay9 (F := Ideal) P0 (ix2 p (0 : Fin 1))) = _
  rw [pay9_row]
  rfl

/-- The centred squares. -/
theorem pay11_row (k : Fin 2560) : k0_pay11 (F := Ideal) P0 (ix2 p k) = dev W0 (row P0 p) k * dev W0 (row P0 p) k := by
  unfold k0_pay11
  show k0_pay8 (F := Ideal) P0 (ix2 p k) * k0_pay8 (F := Ideal) P0 (ix2 p k) = _
  rw [pay8_row]

set_option backward.isDefEq.respectTransparency.types false in
/-- Columns 6 and 7: skewness and kurtosis. The third central moment is the mean of (square times deviation), the
    fourth the mean of (square times square); the divisors are the standard deviation multiplied up from the left. -/
theorem pay12_row : k0_pay12 (F := Ideal) P0 (ix2 p (0 : Fin 1)) = skew (row P0 p) := by
  unfold k0_pay12
  show Ideal.div
      (Ideal.div (shapeCast S128x1 (multiReduction .add [1] S128 (mulf (k0_pay11 (F := Ideal) P0) (k0_pay8 (F := Ideal) P0)) 0x00000000#32 _ _ _) _ (ix2 p (0 : Fin 1))) (Ideal.ofBits .f32 W0))
      ((k0_pay10 (F := Ideal) P0 (ix2 p (0 : Fin 1)) * k0_pay10 (F := Ideal) P0 (ix2 p (0 : Fin 1))) * k0_pay10 (F := Ideal) P0 (ix2 p (0 : Fin 1)))
    = Ideal.div (Ideal.div (∑ k : Fin 2560, (dev W0 (row P0 p) k * dev W0 (row P0 p) k) * dev W0 (row P0 p) k) (lit W0))
        ((std (row P0 p) * std (row P0 p)) * std (row P0 p))
  rw [shapeCast_a_a1_apply, mredAdd_row, pay10_row]
  refine congrArg (fun s => Ideal.div (Ideal.div s (lit W0)) ((std (row P0 p) * std (row P0 p)) * std (row P0 p)))
    (Finset.sum_congr rfl fun k _ => ?_)
  show k0_pay11 (F := Ideal) P0 (ix2 p k) * k0_pay8 (F := Ideal) P0 (ix2 p k) = _
  rw [pay11_row, pay8_row]

set_option backward.isDefEq.respectTransparency.types false in
theorem pay13_row : k0_pay13 (F := Ideal) P0 (ix2 p (0 : Fin 1)) = kurt (row P0 p) := by
  unfold k0_pay13
  show Ideal.div
      (Ideal.div (shapeCast S128x1 (multiReduction .add [1] S128 (mulf (k0_pay11 (F := Ideal) P0) (k0_pay11 (F := Ideal) P0)) 0x00000000#32 _ _ _) _ (ix2 p (0 : Fin 1))) (Ideal.ofBits .f32 W0))
      (((k0_pay10 (F := Ideal) P0 (ix2 p (0 : Fin 1)) * k0_pay10 (F := Ideal) P0 (ix2 p (0 : Fin 1))) * k0_pay10 (F := Ideal) P0 (ix2 p (0 : Fin 1))) * k0_pay10 (F := Ideal) P0 (ix2 p (0 : Fin 1)))
    = Ideal.div (Ideal.div (∑ k : Fin 2560, (dev W0 (row P0 p) k * dev W0 (row P0 p) k) * (dev W0 (row P0 p) k * dev W0 (row P0 p) k)) (lit W0))
        (((std (row P0 p) * std (row P0 p)) * std (row P0 p)) * std (row P0 p))
  rw [shapeCast_a_a1_apply, mredAdd_row, pay10_row]
  refine congrArg (fun s => Ideal.div (Ideal.div s (lit W0)) (((std (row P0 p) * std (row P0 p)) * std (row P0 p)) * std (row P0 p)))
    (Finset.sum_congr rfl fun k _ => ?_)
  show k0_pay11 (F := Ideal) P0 (ix2 p k) * k0_pay11 (F := Ideal) P0 (ix2 p k) = _
  rw [pay11_row]

end Cert.KernelIdeal.Rows

end
-- ==== Proof.KernelRowsB.lean ====
import proofs.«138518_j60224031425109_1_alg».proof.Proof.Gen.KernelIdeal.Skeleton
import proofs.«138518_j60224031425109_1_alg».proof.Proof.Stats
import proofs.«138518_j60224031425109_1_alg».proof.Proof.LibRows
import proofs.«138518_j60224031425109_1_alg».proof.Proof.LibColumn
import proofs.«138518_j60224031425109_1_alg».proof.Proof.Consts
import proofs.«138518_j60224031425109_1_alg».proof.Proof.KernelRowsA

noncomputable section

open scoped BigOperators

namespace Cert.KernelIdeal.Rows

open Cert.KernelIdeal Cert.KernelIdeal.Gen Idealize.ShloMosaic Idealize.ShloMosaic.ValueIdx Cert.Stats
open Idealize.ShloMosaic.Rows Idealize.ShloMosaic.Column

variable (P0 : FVec Ideal S128x2560 .f32) (p : Fin 128)

/-- The magnitudes of the block. -/
theorem pay14_row (k : Fin 2560) : k0_pay14 (F := Ideal) P0 (ix2 p k) = mag (row P0 p k) := by
  unfold k0_pay14
  rw [pay2_eq]
  rfl

/-- The row sum of magnitudes. -/
theorem pay15_row : k0_pay15 (F := Ideal) (k0_pay14 P0) (ix2 p (0 : Fin 1)) = absSum (row P0 p) := by
  unfold k0_pay15
  refine (shapeCast_a_a1_apply _ _ p 0).trans ?_
  refine (mredAdd_row _ _ _ _ _ p).trans ?_
  exact Finset.sum_congr rfl fun k _ => pay14_row P0 p k

/-- Columns 8 and 9: shape factor and impulse factor. -/
theorem pay16_row : k0_pay16 (F := Ideal) (k0_pay7 P0) (k0_pay14 P0) (ix2 p (0 : Fin 1)) = shapeFactor (row P0 p) := by
  unfold k0_pay16
  show Ideal.div (k0_pay7 (F := Ideal) P0 (ix2 p (0 : Fin 1)) * Ideal.ofBits .f32 W0)
      (k0_pay15 (F := Ideal) (k0_pay14 P0) (ix2 p (0 : Fin 1))) = _
  rw [pay7_row, pay15_row]
  rfl

theorem pay17_row : k0_pay17 (F := Ideal) (k0_pay14 P0) (ix2 p (0 : Fin 1)) = impulseFactor (row P0 p) := by
  unfold k0_pay17
  have e : (fun k : Fin 2560 => k0_pay14 (F := Ideal) P0 (ix2 p k)) = fun k => mag (row P0 p k) :=
    funext fun k => pay14_row P0 p k
  have hmax : shapeCast S128x1 (multiReduction .maximumf [1] S128 (k0_pay14 (F := Ideal) P0) 0xFF800000#32
      reduces_S128x2560_S128 (.inl rfl) rfl) shapeCasts_S128_S128x1 (ix2 p (0 : Fin 1)) = absMax (row P0 p) := by
    refine (shapeCast_a_a1_apply _ _ p 0).trans ?_
    refine (mredMax_row _ _ _ _ _ p).trans ?_
    rw [e]
    rfl
  show Ideal.div (shapeCast S128x1 (multiReduction .maximumf [1] S128 (k0_pay14 (F := Ideal) P0) 0xFF800000#32
      reduces_S128x2560_S128 (.inl rfl) rfl) shapeCasts_S128_S128x1 (ix2 p (0 : Fin 1)) * Ideal.ofBits .f32 W0)
      (k0_pay15 (F := Ideal) (k0_pay14 P0) (ix2 p (0 : Fin 1))) = _
  rw [hmax, pay15_row]
  rfl

/-- Column 10: the number of samples beyond three standard deviations. -/
theorem pay18_row : k0_pay18 (F := Ideal) (k0_pay8 P0) (k0_pay10 P0) (ix2 p (0 : Fin 1)) = outliers (row P0 p) := by
  unfold k0_pay18
  refine (shapeCast_a_a1_apply _ _ p 0).trans ?_
  refine (mredAdd_row _ _ _ _ _ p).trans ?_
  refine Finset.sum_congr rfl fun k _ => ?_
  refine (Consts.sitofp_extui_bit _).trans ?_
  refine congrArg bit ?_
  show Ideal.cmp .ogt (max (k0_pay8 (F := Ideal) P0 (ix2 p k)) (-(k0_pay8 (F := Ideal) P0 (ix2 p k))))
      (broadcastTo S128x2560 (mulf (broadcast S128x1 (Scalar.ofBits (F := Ideal) .f32 0x40400000#32)) (k0_pay10 (F := Ideal) P0))
        broadcasts_S128x1_S128x2560 (ix2 p k)) = _
  rw [broadcastTo_a1_ab_apply (by decide), pay8_row]
  show Ideal.cmp .ogt (mag (dev W0 (row P0 p) k)) (Ideal.ofBits .f32 Wthree * k0_pay10 (F := Ideal) P0 (ix2 p (0 : Fin 1))) = _
  rw [pay10_row]

/-- Column 11: the zero-crossing rate. The sign of a sample is the body's select-form of the sign read at one element; the two
    slices read the row of signs shifted and in place, so their difference is the first difference of the signs. -/
theorem pay19_row : k0_pay19 (F := Ideal) (k0_pay2 P0) (ix2 p (0 : Fin 1)) = zcr (row P0 p) := by
  unfold k0_pay19
  rw [pay2_eq]
  refine congrArg (fun s : EReal => Ideal.div s (lit W5120)) ?_
  refine (shapeCast_a_a1_apply _ _ p 0).trans ?_
  refine (mredAdd_row _ _ _ _ _ p).trans ?_
  refine Finset.sum_congr rfl fun k _ => ?_
  refine (Consts.sitofp_extui_bit _).trans ?_
  refine congrArg (fun d : EReal => bit (Ideal.cmp .one d (lit 0x00000000#32))) ?_
  refine congrArg₂ (fun a b : EReal => a - b) ((slice_succ (c := 2559) _ _ p k).trans ?_)
    ((slice_castSucc (c := 2559) _ _ p k).trans ?_)
  · exact Ideal.jnp_sign_eq_sign_f32 (P0 (ix2 p k.succ))
  · exact Ideal.jnp_sign_eq_sign_f32 (P0 (ix2 p k.castSucc))

/-- The first difference of the block's rows, and its centred squares. -/
theorem pay20_row (k : Fin 2559) : k0_pay20 (F := Ideal) (k0_pay2 P0) (ix2 p k) = d1 (row P0 p) k := by
  unfold k0_pay20
  rw [pay2_eq]
  exact congrArg₂ (fun a b : EReal => a - b) (slice_succ (c := 2559) P0 _ p k) (slice_castSucc (c := 2559) P0 _ p k)

/-- The mean of the first difference of row p: its sum over the divisor 2559. -/
theorem d1_mean_row :
    divf (shapeCast S128x1 (multiReduction .add [1] S128 (k0_pay20 (F := Ideal) (k0_pay2 P0)) 0x00000000#32
        reduces_S128x2559_S128 (.inl rfl) rfl) shapeCasts_S128_S128x1)
      (broadcast S128x1 (Scalar.ofBits (F := Ideal) .f32 0x451FF000#32)) (ix2 p (0 : Fin 1))
      = avg W1 (d1 (row P0 p)) := by
  refine congrArg (fun s : EReal => Ideal.div s (lit W1)) ?_
  refine (shapeCast_a_a1_apply _ _ p 0).trans ?_
  refine (mredAdd_row _ _ _ _ _ p).trans ?_
  exact Finset.sum_congr rfl fun k _ => pay20_row P0 p k

/-- The first difference of row p centred at its mean. -/
theorem d1_dev_row (k : Fin 2559) :
    subf (k0_pay20 (F := Ideal) (k0_pay2 P0))
      (broadcastTo S128x2559
        (divf (shapeCast S128x1 (multiReduction .add [1] S128 (k0_pay20 (F := Ideal) (k0_pay2 P0)) 0x00000000#32
            reduces_S128x2559_S128 (.inl rfl) rfl) shapeCasts_S128_S128x1)
          (broadcast S128x1 (Scalar.ofBits (F := Ideal) .f32 0x451FF000#32)))
        broadcasts_S128x1_S128x2559) (ix2 p k)
      = dev W1 (d1 (row P0 p)) k := by
  refine congrArg₂ (fun a b : EReal => a - b) (pay20_row P0 p k) ?_
  rw [broadcastTo_a1_ab_apply (by decide)]
  exact d1_mean_row P0 p

theorem pay21_row (k : Fin 2559) :
    k0_pay21 (F := Ideal) (k0_pay2 P0) (ix2 p k) = dev W1 (d1 (row P0 p)) k * dev W1 (d1 (row P0 p)) k := by
  unfold k0_pay21
  exact congrArg₂ (fun a b : EReal => a * b) (d1_dev_row P0 p k) (d1_dev_row P0 p k)

/-- A row sum over the divisor a word denotes, laid out as a column: at row p it is the average of that row. -/
theorem colAvg_row {c : ℕ} (x : FVec Ideal ⟨2, ![128, c]⟩ .f32)
    (h : (⟨2, ![128, c]⟩ : Shape).Reduces [1] ⟨1, ![128]⟩) (w : BitVec 32) :
    divf (shapeCast S128x1 (multiReduction .add [1] S128 x 0x00000000#32 h (.inl rfl) rfl) shapeCasts_S128_S128x1)
      (broadcast S128x1 (Scalar.ofBits (F := Ideal) .f32 w)) (ix2 p (0 : Fin 1))
      = avg w (fun k : Fin c => x (ix2 p k)) := by
  refine congrArg (fun s : EReal => Ideal.div s (lit w)) ?_
  refine (shapeCast_a_a1_apply _ _ p 0).trans ?_
  exact mredAdd_row _ _ _ _ _ p

/-- An array minus a column spread along its rows: at (p, k) the entry minus the column's entry of row p. -/
theorem subCol_row {c : ℕ} (x : FVec Ideal ⟨2, ![128, c]⟩ .f32) (m : FVec Ideal S128x1 .f32)
    (h : S128x1.Broadcasts ⟨2, ![128, c]⟩) (k : Fin c) :
    subf x (broadcastTo ⟨2, ![128, c]⟩ m h) (ix2 p k) = x (ix2 p k) - m (ix2 p (0 : Fin 1)) :=
  congrArg (fun b : EReal => x (ix2 p k) - b) (broadcastTo_a1_ab_apply (by decide) m h p k)

/-- The second difference of the block's rows, as the body computes it from the first. -/
abbrev kD2 : FVec Ideal S128x2558 .f32 :=
  subf (extractStridedSlice S128x2558 ![0, 1] (k0_pay20 (F := Ideal) (k0_pay2 P0)) slices_S128x2559_o0_1_S128x2558)
    (extractStridedSlice S128x2558 ![0, 0] (k0_pay20 (F := Ideal) (k0_pay2 P0)) slices_S128x2559_o0_0_S128x2558)

theorem kD2_row (k : Fin 2558) : kD2 P0 (ix2 p k) = d2 (row P0 p) k := by
  refine (congrArg₂ (fun a b : EReal => a - b) (slice_succ (c := 2558) _ _ p k) (slice_castSucc (c := 2558) _ _ p k)).trans ?_
  exact congrArg₂ (fun a b : EReal => a - b) (pay20_row P0 p k.succ) (pay20_row P0 p k.castSucc)

/-- The unbiased variance of the first difference, as a column. -/
abbrev kVarD1 : FVec Ideal S128x1 .f32 :=
  divf (shapeCast S128x1 (multiReduction .add [1] S128 (k0_pay21 (F := Ideal) (k0_pay2 P0)) 0x00000000#32
      reduces_S128x2559_S128 (.inl rfl) rfl) shapeCasts_S128_S128x1)
    (broadcast S128x1 (Scalar.ofBits (F := Ideal) .f32 0x451FE000#32))

theorem kVarD1_row : kVarD1 P0 (ix2 p (0 : Fin 1)) = varD1 (row P0 p) := by
  refine (colAvg_row p (k0_pay21 (F := Ideal) (k0_pay2 P0)) reduces_S128x2559_S128 W2).trans ?_
  exact congrArg (avg W2) (funext fun k => pay21_row P0 p k)

/-- The mean of the second difference, as a column; the second difference centred at it. -/
abbrev kMeanD2 : FVec Ideal S128x1 .f32 :=
  divf (shapeCast S128x1 (multiReduction .add [1] S128 (kD2 P0) 0x00000000#32
      reduces_S128x2558_S128 (.inl rfl) rfl) shapeCasts_S128_S128x1)
    (broadcast S128x1 (Scalar.ofBits (F := Ideal) .f32 0x451FE000#32))

abbrev kDevD2 : FVec Ideal S128x2558 .f32 :=
  subf (kD2 P0) (broadcastTo S128x2558 (kMeanD2 P0) broadcasts_S128x1_S128x2558)

theorem kDevD2_row (k : Fin 2558) : kDevD2 P0 (ix2 p k) = dev W2 (d2 (row P0 p)) k := by
  refine (subCol_row p (kD2 P0) (kMeanD2 P0) broadcasts_S128x1_S128x2558 k).trans ?_
  refine congrArg₂ (fun a b : EReal => a - b) (kD2_row P0 p k) ?_
  refine (colAvg_row p (kD2 P0) reduces_S128x2558_S128 W2).trans ?_
  exact congrArg (avg W2) (funext fun i => kD2_row P0 p i)

/-- The unbiased variance of the second difference, as a column. -/
abbrev kVarD2 : FVec Ideal S128x1 .f32 :=
  divf (shapeCast S128x1 (multiReduction .add [1] S128 (mulf (kDevD2 P0) (kDevD2 P0)) 0x00000000#32
      reduces_S128x2558_S128 (.inl rfl) rfl) shapeCasts_S128_S128x1)
    (broadcast S128x1 (Scalar.ofBits (F := Ideal) .f32 0x451FD000#32))

theorem kVarD2_row : kVarD2 P0 (ix2 p (0 : Fin 1)) = varD2 (row P0 p) := by
  refine (colAvg_row p (mulf (kDevD2 P0) (kDevD2 P0)) reduces_S128x2558_S128 W3).trans ?_
  exact congrArg (avg W3) (funext fun k =>
    congrArg₂ (fun a b : EReal => a * b) (kDevD2_row P0 p k) (kDevD2_row P0 p k))

/-- Columns 13 and 14: the Hjorth mobility and complexity. -/
abbrev kMob : FVec Ideal S128x1 .f32 := sqrt (divf (kVarD1 P0) (k0_pay9 (F := Ideal) P0))
abbrev kCpl : FVec Ideal S128x1 .f32 := sqrt (divf (kVarD2 P0) (kVarD1 P0))

theorem kMob_row : kMob P0 (ix2 p (0 : Fin 1)) = mobility (row P0 p) :=
  congrArg Ideal.sqrt (congrArg₂ Ideal.div (kVarD1_row P0 p) (pay9_row P0 p))

theorem kCpl_row : kCpl P0 (ix2 p (0 : Fin 1)) = complexity (row P0 p) :=
  congrArg Ideal.sqrt (congrArg₂ Ideal.div (kVarD2_row P0 p) (kVarD1_row P0 p))

/-- The fifteen columns in the order the body lays them side by side. -/
def cols : Fin 15 → (S128x1.Idx → EReal)
  | ⟨0, _⟩ => k0_pay3 (F := Ideal) P0
  | ⟨1, _⟩ => k0_pay4 (F := Ideal) P0
  | ⟨2, _⟩ => k0_pay5 (F := Ideal) P0
  | ⟨3, _⟩ => k0_pay6 (F := Ideal) P0
  | ⟨4, _⟩ => k0_pay9 (F := Ideal) P0
  | ⟨5, _⟩ => k0_pay7 (F := Ideal) P0
  | ⟨6, _⟩ => k0_pay12 (F := Ideal) P0
  | ⟨7, _⟩ => k0_pay13 (F := Ideal) P0
  | ⟨8, _⟩ => k0_pay16 (F := Ideal) (k0_pay7 P0) (k0_pay14 P0)
  | ⟨9, _⟩ => k0_pay17 (F := Ideal) (k0_pay14 P0)
  | ⟨10, _⟩ => k0_pay18 (F := Ideal) (k0_pay8 P0) (k0_pay10 P0)
  | ⟨11, _⟩ => k0_pay19 (F := Ideal) (k0_pay2 P0)
  | ⟨12, _⟩ => k0_pay9 (F := Ideal) P0
  | ⟨13, _⟩ => kMob P0
  | ⟨14, _⟩ => kCpl P0
  | ⟨_ + 15, h⟩ => absurd h (by omega)

/-- THE BLOCK ROW BY ROW: entry (p, j) of what the body stores is statistic j of row p of the loaded block. -/
theorem block_row (j : Fin 15) :
    k0_pay1 (F := Ideal) (k0_pay3 P0) (k0_pay4 P0) (k0_pay5 P0) (k0_pay6 P0) (k0_pay7 P0) (k0_pay9 P0) (k0_pay12 P0) (k0_pay13 P0)
      (k0_pay16 (k0_pay7 P0) (k0_pay14 P0)) (k0_pay17 (k0_pay14 P0)) (k0_pay18 (k0_pay8 P0) (k0_pay10 P0)) (k0_pay19 (k0_pay2 P0))
      (k0_pay20 (k0_pay2 P0)) (k0_pay21 (k0_pay2 P0)) (ix2 p j) = rowStat (row P0 p) j := by
  unfold k0_pay1
  show concatenate S128x15 1 (List.ofFn fun i : Fin 15 => (⟨S128x1, cols P0 i⟩ : (s : Shape) × (s.Idx → EReal))) _ (ix2 p j) = _
  refine (concat15_apply (cols P0) _ p j).trans ?_
  match j with
  | ⟨0, _⟩ => exact pay3_row P0 p
  | ⟨1, _⟩ => exact pay4_row P0 p
  | ⟨2, _⟩ => exact pay5_row P0 p
  | ⟨3, _⟩ => exact pay6_row P0 p
  | ⟨4, _⟩ => exact pay9_row P0 p
  | ⟨5, _⟩ => exact pay7_row P0 p
  | ⟨6, _⟩ => exact pay12_row P0 p
  | ⟨7, _⟩ => exact pay13_row P0 p
  | ⟨8, _⟩ => exact pay16_row P0 p
  | ⟨9, _⟩ => exact pay17_row P0 p
  | ⟨10, _⟩ => exact pay18_row P0 p
  | ⟨11, _⟩ => exact pay19_row P0 p
  | ⟨12, _⟩ => exact pay9_row P0 p
  | ⟨13, _⟩ => exact kMob_row P0 p
  | ⟨14, _⟩ => exact kCpl_row P0 p
  | ⟨_ + 15, h⟩ => exact absurd h (by omega)

end Cert.KernelIdeal.Rows

end
-- ==== Proof.KernelArray.lean ====
import proofs.«138518_j60224031425109_1_alg».proof.Proof.Gen.KernelIdeal.Value
import proofs.«138518_j60224031425109_1_alg».proof.Proof.KernelRowsB
import Idealize.ShloMosaic.Lib.Pipeline.Value
import Idealize.ShloMosaic.Lib.StableHlo.Run

noncomputable section

namespace Cert.KernelIdeal.Arr

open Cert.KernelIdeal Cert.KernelIdeal.Gen Idealize.ShloMosaic Idealize.ShloMosaic.TcCoe Idealize.SL.Sem
open Idealize.ShloMosaic.ValueIdx Cert.Stats
open Idealize.ShloMosaic.Pipeline (Dat)

variable (m : (ℓ : Loc nD τ sig) → Buf (Elt Ideal) ℓ) (ρ : Dev nD → PrngReg)

/-- The zero offsets of the two whole-block rectangles, spelt as the constant function. -/
theorem zero_offsets : (![0, 0] : Fin 2 → Nat) = fun _ => 0 := funext fun a => by fin_cases a <;> rfl

/-- The printed index maps over the 128 grid points: at point t both windows sit at block row t, block column 0. -/
theorem block_index : ∀ t : Fin cfg0.N, win0_0.index t (0 : Fin 2) = t.val ∧ win0_0.index t (1 : Fin 2) = 0
    ∧ win0_1.index t (0 : Fin 2) = t.val ∧ win0_1.index t (1 : Fin 2) = 0 :=
  (by decide +kernel : ∀ t : Fin grid0.N, win0_0.index t (0 : Fin 2) = t.val ∧ win0_0.index t (1 : Fin 2) = 0
    ∧ win0_1.index t (0 : Fin 2) = t.val ∧ win0_1.index t (1 : Fin 2) = 0)

/-- The matrix the region finds: the host reshape of the argument array. -/
theorem entry_matrix (c : Dev nD) : (V m c main_v0 : S16384x2560.Idx → EReal)
    = shapeCast S16384x2560 (m ((c : Thread nD τ).loc main_arg0)) shapeCasts_S16384x2560x1_S16384x2560 := by
  dsimp only [Gen.V, Gen.hostOps0]; after_results; rfl

/-- Entry (r, k) of the reshaped matrix is entry (r, k, 0) of the argument array: both sit at row-major position
    2560 r + k. -/
theorem reshape_apply (a : S16384x2560x1.Idx → EReal) (r : Fin 16384) (k : Fin 2560) :
    shapeCast S16384x2560 a shapeCasts_S16384x2560x1_S16384x2560 (ix2 r k) = a (ix3 r k (0 : Fin 1)) := by
  refine shapeCast_apply _ _ _ _ ?_
  rw [Shape.rowMajor_val_two, Shape.rowMajor_val_three]
  show (r.val * 2560 + k.val) * 1 + 0 = r.val * 2560 + k.val
  omega

/-- One stored block read row by row: when row p of the loaded block is row r of a matrix X, entry (p, j) of what
    the body stores is statistic j of that row of X. -/
theorem stored_row (X : S16384x2560.Idx → EReal) (P0 : FVec Ideal S128x2560 .f32) (p : Fin 128) (r : Fin 16384)
    (hP : ∀ k : Fin 2560, P0 (ix2 p k) = X (ix2 r k)) (j : Fin 15) :
    k0_pay1 (F := Ideal) (k0_pay3 P0) (k0_pay4 P0) (k0_pay5 P0) (k0_pay6 P0) (k0_pay7 P0) (k0_pay9 P0) (k0_pay12 P0) (k0_pay13 P0)
      (k0_pay16 (k0_pay7 P0) (k0_pay14 P0)) (k0_pay17 (k0_pay14 P0)) (k0_pay18 (k0_pay8 P0) (k0_pay10 P0)) (k0_pay19 (k0_pay2 P0))
      (k0_pay20 (k0_pay2 P0)) (k0_pay21 (k0_pay2 P0)) (ix2 p j) = rowStat (fun k => X (ix2 r k)) j :=
  (Rows.block_row P0 p j).trans (congrArg (fun v => rowStat v j) (funext hP))

/-- Row p of the input block at grid point t is row 128 t + p of the matrix the region finds: a block's coordinate
    is the block index times the block size plus the coordinate inside the block. -/
theorem input_block_row (c : Dev nD) (t : Fin cfg0.N) (p : Fin 128) (r : Fin 16384) (hr : r.val = 128 * t.val + p.val)
    (k : Fin 2560) :
    (iblk m c 0 t : FVec Ideal S128x2560 .f32) (ix2 p k) = (V m c main_v0 : S16384x2560.Idx → EReal) (ix2 r k) := by
  obtain ⟨e0, e1, -, -⟩ := block_index t
  unfold iblk
  rw [View.read_apply]
  show V m c main_v0 _ = V m c main_v0 _
  congr 1
  funext a; apply Fin.ext
  match a with
  | ⟨0, _⟩ => show win0_0.index t (0 : Fin 2) * 128 + 1 * p.val = r.val; omega
  | ⟨1, _⟩ => show win0_0.index t (1 : Fin 2) * 2560 + 1 * k.val = k.val; omega

/-- Entry (p, j) of the output block at grid point t is entry (128 t + p, j) of the result array. -/
theorem output_block_index (t : Fin cfg0.N) (p : Fin 128) (j : Fin 15) (r : Fin 16384) (hr : r.val = 128 * t.val + p.val) :
    ((cfg0.win 1).blk t).view.emb (ix2 p j) = (ix2 r j : S16384x15.Idx) := by
  obtain ⟨-, -, e2, e3⟩ := block_index t
  funext a; apply Fin.ext
  match a with
  | ⟨0, _⟩ => show win0_1.index t (0 : Fin 2) * 128 + 1 * p.val = r.val; omega
  | ⟨1, _⟩ => show win0_1.index t (1 : Fin 2) * 15 + 1 * j.val = j.val; omega

/-- What the body stores at (p, j) at grid point t is the result function at the array index under it: the
    block's row p is row 128 t + p of the reshaped argument, and the block's entry (p, j) lands at (128 t + p, j). -/
theorem stored_entry (c : Dev nD) (t : Fin cfg0.N) (p : Fin 128) (j : Fin 15) :
    k0_pay1 (F := Ideal) (k0_pay3 (iblk m c 0 t)) (k0_pay4 (iblk m c 0 t)) (k0_pay5 (iblk m c 0 t)) (k0_pay6 (iblk m c 0 t)) (k0_pay7 (iblk m c 0 t)) (k0_pay9 (iblk m c 0 t)) (k0_pay12 (iblk m c 0 t)) (k0_pay13 (iblk m c 0 t))
      (k0_pay16 (k0_pay7 (iblk m c 0 t)) (k0_pay14 (iblk m c 0 t))) (k0_pay17 (k0_pay14 (iblk m c 0 t))) (k0_pay18 (k0_pay8 (iblk m c 0 t)) (k0_pay10 (iblk m c 0 t))) (k0_pay19 (k0_pay2 (iblk m c 0 t)))
      (k0_pay20 (k0_pay2 (iblk m c 0 t))) (k0_pay21 (k0_pay2 (iblk m c 0 t))) (ix2 p j)
      = G (m ((c : Thread nD τ).loc main_arg0)) (((cfg0.win 1).blk t).view.emb (ix2 p j)) := by
  have ht : t.val < 128 := lt_of_lt_of_eq t.isLt N_0
  have hp : p.val < 128 := p.isLt
  have hr : 128 * t.val + p.val < 16384 := by omega
  refine Eq.trans ?_ (congrArg (G (m ((c : Thread nD τ).loc main_arg0)))
    (output_block_index t p j ⟨128 * t.val + p.val, hr⟩ rfl).symm)
  rw [G_apply]
  refine (stored_row (V m c main_v0) (iblk m c 0 t) p ⟨128 * t.val + p.val, hr⟩
    (fun k => input_block_row m c t p _ rfl k) j).trans ?_
  rw [entry_matrix]
  exact congrArg (fun v => rowStat v j) (funext fun k => reshape_apply _ _ k)

/-- The same at any index of the block. -/
theorem stored_at (c : Dev nD) (t : Fin cfg0.N) (y : S128x15.Idx) :
    k0_pay1 (F := Ideal) (k0_pay3 (iblk m c 0 t)) (k0_pay4 (iblk m c 0 t)) (k0_pay5 (iblk m c 0 t)) (k0_pay6 (iblk m c 0 t)) (k0_pay7 (iblk m c 0 t)) (k0_pay9 (iblk m c 0 t)) (k0_pay12 (iblk m c 0 t)) (k0_pay13 (iblk m c 0 t))
      (k0_pay16 (k0_pay7 (iblk m c 0 t)) (k0_pay14 (iblk m c 0 t))) (k0_pay17 (k0_pay14 (iblk m c 0 t))) (k0_pay18 (k0_pay8 (iblk m c 0 t)) (k0_pay10 (iblk m c 0 t))) (k0_pay19 (k0_pay2 (iblk m c 0 t)))
      (k0_pay20 (k0_pay2 (iblk m c 0 t))) (k0_pay21 (k0_pay2 (iblk m c 0 t))) y
      = G (m ((c : Thread nD τ).loc main_arg0)) (((cfg0.win 1).blk t).view.emb y) := by
  obtain ⟨p, j, rfl⟩ : ∃ (p : Fin 128) (j : Fin 15), y = ix2 p j := ⟨y 0, y 1, eq_ix2 y⟩
  exact stored_entry m c t p j

/-- What grid point t writes back is block t of the result function of the argument array. -/
theorem flushed_eq (c : Dev nD) (t : Fin cfg0.N) :
    (dats m 0 c).flushed 1 t
      = ((cfg0.win 1).blk t).view.read (Elt Ideal) (G (m ((c : Thread nD τ).loc main_arg0))) := by
  rw [Value.flushed1]
  unfold out0_1
  rw [View.canon_unit_zero zero_offsets]
  simp only [View.ld_unit_zero (S := S128x2560) zero_offsets]
  funext y
  exact stored_at m c t y

/-- An index of the result array is in grid point t's block iff each coordinate is in the block's range on its axis. -/
theorem mem_block (t : Fin cfg0.N) (i : S16384x15.Idx) :
    i ∈ ((cfg0.win 1).blk t).view.set ↔ ∀ a : Fin 2, win0_1.index t a * S128x15.size a ≤ (i a).val
      ∧ (i a).val < win0_1.index t a * S128x15.size a + S128x15.size a := by
  show i ∈ ((View.whole main_v1).slice (win0_1.rect t)).set ↔ _
  rw [View.set_slice_whole, Rect.mem_set_unit]
  exact Iff.rfl

/-- The 128 blocks of 128 rows cover the 16384 rows: row r lies in the block of grid point r / 128. -/
theorem cover (i : S16384x15.Idx) :
    ∃ t : Fin cfg0.N, (cfg0.win 1).flush t = true ∧ i ∈ ((cfg0.win 1).blk t).view.set := by
  have hi0 : (i 0).val < 16384 := (i 0).isLt
  have hi1 : (i 1).val < 15 := (i 1).isLt
  have hq : (i 0).val / 128 < 128 := by omega
  obtain ⟨t, ht⟩ : ∃ t : Fin cfg0.N, t.val = (i 0).val / 128 := ⟨⟨(i 0).val / 128, lt_of_lt_of_eq hq N_0.symm⟩, rfl⟩
  obtain ⟨-, -, e2, e3⟩ := block_index t
  refine ⟨t, flush0_1 t, ?_⟩
  rw [mem_block]
  intro a
  match a with
  | ⟨0, _⟩ =>
    show win0_1.index t (0 : Fin 2) * 128 ≤ (i 0).val ∧ (i 0).val < win0_1.index t (0 : Fin 2) * 128 + 128
    omega
  | ⟨1, _⟩ =>
    show win0_1.index t (1 : Fin 2) * 15 ≤ (i 1).val ∧ (i 1).val < win0_1.index t (1 : Fin 2) * 15 + 15
    omega

/-- After the run the result array is G of the argument array: every block the grid writes back is the matching
    128 rows of G, and the 128 blocks cover the array. -/
theorem final (c : Dev nD) : (dats m 0 c).arrAt 1 cfg0.N = G (m ((c : Thread nD τ).loc main_arg0)) :=
  (dats m 0 c).arrAt_eq_of_cover 1 (G (m ((c : Thread nD τ).loc main_arg0))) (fun t _ => flushed_eq m c t) cover

/-- The idealized kernel's run, with its result named. -/
theorem run : θ_run defs (onTc (τ := τ) (main (F := Ideal))) ⟨m, fun _ => 0, ρ⟩ fun r => ∀ c : Dev nD,
      r.2.mem ((c : Thread nD τ).loc main_v1) = G (m ((c : Thread nD τ).loc main_arg0))
      ∧ r.2.mem ((c : Thread nD τ).loc main_arg0) = m ((c : Thread nD τ).loc main_arg0) :=
  (θ_run defs _ _).mono (fun r h c => ⟨(h c).1.trans (final m c), (h c).2⟩) (Cert.KernelIdeal.Value.run_blocks m ρ)

end Cert.KernelIdeal.Arr

end
-- ==== Proof.RefDefs.lean ====
/-
  What the reference computes, as one function of its argument array, assembled from named whole-array stages.

  The argument [16384, 2560, 1] is re-laid as the matrix X of 16384 rows (signals) and 2560 columns (samples). Every
  stage below is a whole-array operation of the reference's program, at the ideal instance: a row sum (sum0, sum1,
  sum2, for rows of length 2560, 2559, 2558), a vector of per-row statistics ([16384]), its layout as a column
  ([16384, 1]) and that column spread back over a matrix. The unbiased variance is jnp.var's: the centred squares
  summed and divided by (length - ddof), guarded by a select on (length - ddof > 0) whose other branch is a NaN
  pattern that is never taken. refOut is the fifteen columns side by side.
-/
import proofs.«138518_j60224031425109_1_alg».proof.Proof.Gen.ReferenceIdeal
import proofs.«138518_j60224031425109_1_alg».proof.Proof.Stats

noncomputable section

namespace Cert.ReferenceIdeal.Ref

open Cert.ReferenceIdeal Cert.ReferenceIdeal.Gen Idealize.ShloMosaic Cert.Stats

/-- A scalar float constant, and the integer constant one (jnp.var's ddof). -/
abbrev K (w : BitVec 32) : FVec Ideal S_ .f32 := constant S_ .f32 w
abbrev one : IVec S_ 32 := constantI S_ 32 1#32
/-- A scalar spread over the 16384 rows; a vector laid out as a column. -/
abbrev bV (s : FVec Ideal S_ .f32) : FVec Ideal S16384 .f32 := broadcastInDim S16384 ![] bcast_S_S16384 s
abbrev col (v : FVec Ideal S16384 .f32) : FVec Ideal S16384x1 .f32 := broadcastInDim S16384x1 ![0] bcast_S16384_S16384x1_0 v
abbrev bC (s : FVec Ideal S_ .f32) : FVec Ideal S16384x1 .f32 := broadcastInDim S16384x1 ![] bcast_S_S16384x1 s

/-- The argument as a matrix of rows. -/
def X (a : FVec Ideal S16384x2560x1 .f32) : FVec Ideal S16384x2560 .f32 :=
  shapeCast S16384x2560 a shapeCasts_S16384x2560x1_S16384x2560

/-- Row sums from zero, for rows of 2560, 2559 and 2558 entries. -/
def sum0 (y : FVec Ideal S16384x2560 .f32) : FVec Ideal S16384 .f32 :=
  Host.reduceAdd y (K 0x00000000#32) reducesTo_S16384x2560_S16384_d1 h_S_
def sum1 (y : FVec Ideal S16384x2559 .f32) : FVec Ideal S16384 .f32 :=
  Host.reduceAdd y (K 0x00000000#32) reducesTo_S16384x2559_S16384_d1 h_S_
def sum2 (y : FVec Ideal S16384x2558 .f32) : FVec Ideal S16384 .f32 :=
  Host.reduceAdd y (K 0x00000000#32) reducesTo_S16384x2558_S16384_d1 h_S_

/-- A column spread over a matrix of 2560, 2559, 2558 columns. -/
abbrev spread0 (v : FVec Ideal S16384x1 .f32) : FVec Ideal S16384x2560 .f32 :=
  broadcastInDim S16384x2560 ![0, 1] bcast_S16384x1_S16384x2560_0_1 v
abbrev spread1 (v : FVec Ideal S16384x1 .f32) : FVec Ideal S16384x2559 .f32 :=
  broadcastInDim S16384x2559 ![0, 1] bcast_S16384x1_S16384x2559_0_1 v
abbrev spread2 (v : FVec Ideal S16384x1 .f32) : FVec Ideal S16384x2558 .f32 :=
  broadcastInDim S16384x2558 ![0, 1] bcast_S16384x1_S16384x2558_0_1 v

section Stages
variable (x : FVec Ideal S16384x2560 .f32)

def meanV : FVec Ideal S16384 .f32 := Host.divf (sum0 x) (bV (K W0))
def maxV : FVec Ideal S16384 .f32 := Host.reduce FloatOps.maximumf x (K 0xFF800000#32) reducesTo_S16384x2560_S16384_d1 h_S_
def minV : FVec Ideal S16384 .f32 := Host.reduce FloatOps.minimumf x (K 0x7F800000#32) reducesTo_S16384x2560_S16384_d1 h_S_
def p2pV : FVec Ideal S16384 .f32 := subf (maxV x) (minV x)
def rmsV : FVec Ideal S16384 .f32 := Host.sqrt (Host.divf (sum0 (mulf x x)) (bV (K W0)))

end Stages

/-- jnp.var's divisor, length minus ddof, and jnp.where's result. -/
def ddof (w : BitVec 32) : FVec Ideal S_ .f32 := subf (K w) (sitofp .f32 one)
def whereV (pred : IVec S_ 1) (a : FVec Ideal S16384 .f32) (other : FVec Ideal S_ .f32) : FVec Ideal S16384 .f32 :=
  select (broadcastInDim S16384 ![] bcast_S_S16384 pred) a (bV (id other))

/-- jnp.var(ddof = 1) along rows of 2560, 2559, 2558 entries: the rows centred at their own mean (centA, centB,
    centC), and the guarded quotient. -/
def centA (y : FVec Ideal S16384x2560 .f32) : FVec Ideal S16384x2560 .f32 :=
  subf y (spread0 (Host.divf (col (sum0 y)) (bC (K W0))))
def varA (y : FVec Ideal S16384x2560 .f32) : FVec Ideal S16384 .f32 :=
  whereV (cmpf .ogt (ddof W0) (K 0x00000000#32)) (Host.divf (sum0 (mulf (centA y) (centA y))) (bV (ddof W0))) (K 0x7FC00000#32)
def centB (y : FVec Ideal S16384x2559 .f32) : FVec Ideal S16384x2559 .f32 :=
  subf y (spread1 (Host.divf (col (sum1 y)) (bC (K W1))))
def varB (y : FVec Ideal S16384x2559 .f32) : FVec Ideal S16384 .f32 :=
  whereV (cmpf .ogt (ddof W1) (K 0x00000000#32)) (Host.divf (sum1 (mulf (centB y) (centB y))) (bV (ddof W1))) (K 0x7FC00000#32)
def centC (y : FVec Ideal S16384x2558 .f32) : FVec Ideal S16384x2558 .f32 :=
  subf y (spread2 (Host.divf (col (sum2 y)) (bC (K W2))))
def varC (y : FVec Ideal S16384x2558 .f32) : FVec Ideal S16384 .f32 :=
  whereV (cmpf .ogt (ddof W2) (K 0x00000000#32)) (Host.divf (sum2 (mulf (centC y) (centC y))) (bV (ddof W2))) (K 0x7FC00000#32)

/-- jnp.diff along the rows. -/
def diffA (y : FVec Ideal S16384x2560 .f32) : FVec Ideal S16384x2559 .f32 :=
  subf (extractStridedSlice S16384x2559 ![0, 1] y slices_S16384x2560_S16384x2559_0_1)
    (extractStridedSlice S16384x2559 ![0, 0] y slices_S16384x2560_S16384x2559_0_0)
def diffB (y : FVec Ideal S16384x2559 .f32) : FVec Ideal S16384x2558 .f32 :=
  subf (extractStridedSlice S16384x2558 ![0, 1] y slices_S16384x2559_S16384x2558_0_1)
    (extractStridedSlice S16384x2558 ![0, 0] y slices_S16384x2559_S16384x2558_0_0)

section Stages2
variable (x : FVec Ideal S16384x2560 .f32)

def stdV : FVec Ideal S16384 .f32 := Host.sqrt (varA x)
/-- The rows centred at meanV (the reference computes this a second time, outside jnp.var). -/
def centM : FVec Ideal S16384x2560 .f32 := subf x (spread0 (col (meanV x)))
def skewV : FVec Ideal S16384 .f32 :=
  Host.divf (Host.divf (sum0 (mulf (mulf (centM x) (centM x)) (centM x))) (bV (K W0)))
    (mulf (mulf (stdV x) (stdV x)) (stdV x))
def kurtV : FVec Ideal S16384 .f32 :=
  Host.divf (Host.divf (sum0 (mulf (mulf (centM x) (centM x)) (mulf (centM x) (centM x)))) (bV (K W0)))
    (mulf (mulf (stdV x) (stdV x)) (mulf (stdV x) (stdV x)))
def absSumV : FVec Ideal S16384 .f32 := sum0 (Host.absf x)
def absMaxV : FVec Ideal S16384 .f32 :=
  Host.reduce FloatOps.maximumf (Host.absf x) (K 0xFF800000#32) reducesTo_S16384x2560_S16384_d1 h_S_
def shapeV : FVec Ideal S16384 .f32 := Host.divf (mulf (rmsV x) (bV (K W0))) (absSumV x)
def impulseV : FVec Ideal S16384 .f32 := Host.divf (mulf (absMaxV x) (bV (K W0))) (absSumV x)
/-- Three standard deviations, per row, spread over the matrix. -/
def thrV : FVec Ideal S16384x2560 .f32 := spread0 (mulf (bC (K Wthree)) (col (stdV x)))
def outlV : FVec Ideal S16384 .f32 :=
  sitofp .f32 (Host.reduce IntOp.addi (extui 32 (cmpf .ogt (Host.absf (centM x)) (thrV x)) natLt_1_32) (constantI S_ 32 0#32)
    reducesTo_S16384x2560_S16384_d1 h_S_)
def zcrV : FVec Ideal S16384 .f32 :=
  Host.divf (sum1 (uitofp .f32 (cmpf .une (diffA (Host.sign x))
    (broadcastInDim S16384x2559 ![] bcast_S_S16384x2559 (K 0x00000000#32))))) (bV (K W5120))
def mobV : FVec Ideal S16384 .f32 := Host.sqrt (Host.divf (varB (diffA x)) (varA x))
def cmplxV : FVec Ideal S16384 .f32 := Host.sqrt (Host.divf (varC (diffB (diffA x))) (varB (diffA x)))

/-- The fifteen per-row statistics as columns, in the order of the result's columns. -/
def cols : Fin 15 → FVec Ideal S16384x1 .f32
  | ⟨0, _⟩ => col (meanV x)
  | ⟨1, _⟩ => col (maxV x)
  | ⟨2, _⟩ => col (minV x)
  | ⟨3, _⟩ => col (p2pV x)
  | ⟨4, _⟩ => col (varA x)
  | ⟨5, _⟩ => col (rmsV x)
  | ⟨6, _⟩ => col (skewV x)
  | ⟨7, _⟩ => col (kurtV x)
  | ⟨8, _⟩ => col (shapeV x)
  | ⟨9, _⟩ => col (impulseV x)
  | ⟨10, _⟩ => col (outlV x)
  | ⟨11, _⟩ => col (zcrV x)
  | ⟨12, _⟩ => col (varA x)
  | ⟨13, _⟩ => col (mobV x)
  | ⟨14, _⟩ => col (cmplxV x)
  | ⟨_ + 15, h⟩ => absurd h (by omega)

end Stages2

/-- The reference's result as a function of its argument. -/
def refOut (a : FVec Ideal S16384x2560x1 .f32) : FVec Ideal S16384x15 .f32 :=
  concatenate S16384x15 1 [⟨S16384x1, cols (X a) 0⟩, ⟨S16384x1, cols (X a) 1⟩, ⟨S16384x1, cols (X a) 2⟩, ⟨S16384x1, cols (X a) 3⟩,
    ⟨S16384x1, cols (X a) 4⟩, ⟨S16384x1, cols (X a) 5⟩, ⟨S16384x1, cols (X a) 6⟩, ⟨S16384x1, cols (X a) 7⟩, ⟨S16384x1, cols (X a) 8⟩,
    ⟨S16384x1, cols (X a) 9⟩, ⟨S16384x1, cols (X a) 10⟩, ⟨S16384x1, cols (X a) 11⟩, ⟨S16384x1, cols (X a) 12⟩, ⟨S16384x1, cols (X a) 13⟩,
    ⟨S16384x1, cols (X a) 14⟩]
    concatenates_S16384x1_S16384x1_S16384x1_S16384x1_S16384x1_S16384x1_S16384x1_S16384x1_S16384x1_S16384x1_S16384x1_S16384x1_S16384x1_S16384x1_S16384x1_S16384x15_d1

end Cert.ReferenceIdeal.Ref

end
-- ==== Proof.RefRun.lean ====
import proofs.«138518_j60224031425109_1_alg».proof.Proof.Gen.ReferenceIdeal
import proofs.«138518_j60224031425109_1_alg».proof.Proof.RefDefs
import Idealize.ShloMosaic.Lib.StableHlo.Run

noncomputable section

namespace Cert.ReferenceIdeal.Run

open Cert.ReferenceIdeal Cert.ReferenceIdeal.Gen Idealize.ShloMosaic Idealize.ShloMosaic.TcCoe Idealize.SL.Sem Idealize.ShloMosaic.StableHlo

/-!
  The reference program as a list of operations: @main's statements in order, each call of a module-local function
  replaced by the callee's operations over that call's own buffer record (inlining, as the compiler does). The list is
  cut into eight stretches that follow the computation: the first moments; the variance of the rows; the higher
  moments, shape factors and outlier count; the sign changes and the two differences; the variance of the first
  difference; the variance of the second difference; the ratios and the fifteen columns; their concatenation. After
  each stretch every buffer still read later holds a named stage of the reference's result function at the argument.
-/

variable {F : FTy → Type} [FloatOps F]

/-- The matrix of rows, the mean, maximum, minimum, range and root mean square of each row, and the integer one. -/
abbrev opsW1 : List (HloOp τ sig (Elt F)) :=
  [ StableHlo.reshape main_arg0 main_v0 rfl shapeCasts_S16384x2560x1_S16384x2560,
    StableHlo.nullary main_cst (constant S_ .f32 0x00000000#32),
    StableHlo.binary main_v0 main_cst main_v1 ((fun x v => Host.reduceAdd x v reducesTo_S16384x2560_S16384_d1 h_S_) : (⟨S16384x2560, .f32⟩ : BufTy).Contents (Elt F) → (⟨S_, .f32⟩ : BufTy).Contents (Elt F) → (⟨S16384, .f32⟩ : BufTy).Contents (Elt F)),
    StableHlo.nullary main_cst_0 (constant S_ .f32 0x45200000#32),
    StableHlo.unary main_cst_0 main_v2 (broadcastInDim S16384 ![] bcast_S_S16384 : (⟨S_, .f32⟩ : BufTy).Contents (Elt F) → (⟨S16384, .f32⟩ : BufTy).Contents (Elt F)),
    StableHlo.binary main_v1 main_v2 main_v3 (Host.divf : (⟨S16384, .f32⟩ : BufTy).Contents (Elt F) → (⟨S16384, .f32⟩ : BufTy).Contents (Elt F) → (⟨S16384, .f32⟩ : BufTy).Contents (Elt F)),
    StableHlo.nullary main_cst_1 (constant S_ .f32 0xFF800000#32),
    StableHlo.binary main_v0 main_cst_1 main_v4 ((fun x v => Host.reduce FloatOps.maximumf x v reducesTo_S16384x2560_S16384_d1 h_S_) : (⟨S16384x2560, .f32⟩ : BufTy).Contents (Elt F) → (⟨S_, .f32⟩ : BufTy).Contents (Elt F) → (⟨S16384, .f32⟩ : BufTy).Contents (Elt F)),
    StableHlo.nullary main_cst_2 (constant S_ .f32 0x7F800000#32),
    StableHlo.binary main_v0 main_cst_2 main_v5 ((fun x v => Host.reduce FloatOps.minimumf x v reducesTo_S16384x2560_S16384_d1 h_S_) : (⟨S16384x2560, .f32⟩ : BufTy).Contents (Elt F) → (⟨S_, .f32⟩ : BufTy).Contents (Elt F) → (⟨S16384, .f32⟩ : BufTy).Contents (Elt F)),
    StableHlo.binary main_v4 main_v5 main_v6 (subf : (⟨S16384, .f32⟩ : BufTy).Contents (Elt F) → (⟨S16384, .f32⟩ : BufTy).Contents (Elt F) → (⟨S16384, .f32⟩ : BufTy).Contents (Elt F)),
    StableHlo.binary main_v0 main_v0 main_v7 (mulf : (⟨S16384x2560, .f32⟩ : BufTy).Contents (Elt F) → (⟨S16384x2560, .f32⟩ : BufTy).Contents (Elt F) → (⟨S16384x2560, .f32⟩ : BufTy).Contents (Elt F)),
    StableHlo.nullary main_cst_3 (constant S_ .f32 0x00000000#32),
    StableHlo.binary main_v7 main_cst_3 main_v8 ((fun x v => Host.reduceAdd x v reducesTo_S16384x2560_S16384_d1 h_S_) : (⟨S16384x2560, .f32⟩ : BufTy).Contents (Elt F) → (⟨S_, .f32⟩ : BufTy).Contents (Elt F) → (⟨S16384, .f32⟩ : BufTy).Contents (Elt F)),
    StableHlo.nullary main_cst_4 (constant S_ .f32 0x45200000#32),
    StableHlo.unary main_cst_4 main_v9 (broadcastInDim S16384 ![] bcast_S_S16384 : (⟨S_, .f32⟩ : BufTy).Contents (Elt F) → (⟨S16384, .f32⟩ : BufTy).Contents (Elt F)),
    StableHlo.binary main_v8 main_v9 main_v10 (Host.divf : (⟨S16384, .f32⟩ : BufTy).Contents (Elt F) → (⟨S16384, .f32⟩ : BufTy).Contents (Elt F) → (⟨S16384, .f32⟩ : BufTy).Contents (Elt F)),
    StableHlo.unary main_v10 main_v11 (Host.sqrt : (⟨S16384, .f32⟩ : BufTy).Contents (Elt F) → (⟨S16384, .f32⟩ : BufTy).Contents (Elt F)),
    StableHlo.nullary main_c (constantI S_ 32 1#32) ]

/-- The unbiased variance of each row. -/
abbrev opsW2 : List (HloOp τ sig (Elt F)) :=
  [ StableHlo.TRef.nullary main_call0.cst (constant S_ .f32 0x00000000#32),
    StableHlo.TRef.binary (.of main_v0 : StableHlo.TRef sig ⟨S16384x2560, .f32⟩) main_call0.cst main_call0.v0 (fun x v => Host.reduceAdd x v reducesTo_S16384x2560_S16384_d1 h_S_),
    StableHlo.TRef.unary main_call0.v0 main_call0.v1 (broadcastInDim S16384x1 ![0] bcast_S16384_S16384x1_0),
    StableHlo.TRef.nullary main_call0.cst_0 (constant S_ .f32 0x45200000#32),
    StableHlo.TRef.unary main_call0.cst_0 main_call0.v2 (broadcastInDim S16384x1 ![] bcast_S_S16384x1),
    StableHlo.TRef.binary main_call0.v1 main_call0.v2 main_call0.v3 Host.divf,
    StableHlo.TRef.unary main_call0.v3 main_call0.v4 (broadcastInDim S16384x2560 ![0, 1] bcast_S16384x1_S16384x2560_0_1),
    StableHlo.TRef.binary (.of main_v0 : StableHlo.TRef sig ⟨S16384x2560, .f32⟩) main_call0.v4 main_call0.v5 subf,
    StableHlo.TRef.binary main_call0.v5 main_call0.v5 main_call0.v6 mulf,
    StableHlo.TRef.unary (.of main_c : StableHlo.TRef sig ⟨S_, .i32⟩) main_call0.v7 (sitofp .f32),
    StableHlo.TRef.nullary main_call0.cst_1 (constant S_ .f32 0x45200000#32),
    StableHlo.TRef.binary main_call0.cst_1 main_call0.v7 main_call0.v8 subf,
    StableHlo.TRef.nullary main_call0.cst_2 (constant S_ .f32 0x00000000#32),
    StableHlo.TRef.binary main_call0.v6 main_call0.cst_2 main_call0.v9 (fun x v => Host.reduceAdd x v reducesTo_S16384x2560_S16384_d1 h_S_),
    StableHlo.TRef.unary main_call0.v8 main_call0.v10 (broadcastInDim S16384 ![] bcast_S_S16384),
    StableHlo.TRef.binary main_call0.v9 main_call0.v10 main_call0.v11 Host.divf,
    StableHlo.TRef.nullary main_call0.cst_3 (constant S_ .f32 0x00000000#32),
    StableHlo.TRef.binary main_call0.v8 main_call0.cst_3 main_call0.v12 (cmpf .ogt),
    StableHlo.TRef.nullary main_call0.cst_4 (constant S_ .f32 0x7FC00000#32),
    StableHlo.TRef.unary main_call0.cst_4 main_call0.call0.v0 id,
    StableHlo.TRef.unary main_call0.call0.v0 main_call0.call0.v1 (broadcastInDim S16384 ![] bcast_S_S16384),
    StableHlo.TRef.ternary main_call0.v12 main_call0.v11 main_call0.call0.v1 main_call0.call0.v2 (fun p a b => select (broadcastInDim S16384 ![] bcast_S_S16384 p) a b) ]

/-- The standard deviation, the rows centred at their mean, skewness, kurtosis, absolute sum and maximum, shape and impulse factors, outlier count. -/
abbrev opsW3 : List (HloOp τ sig (Elt F)) :=
  [ StableHlo.unary main_v12 main_v13 (Host.sqrt : (⟨S16384, .f32⟩ : BufTy).Contents (Elt F) → (⟨S16384, .f32⟩ : BufTy).Contents (Elt F)),
    StableHlo.unary main_v3 main_v14 (broadcastInDim S16384x1 ![0] bcast_S16384_S16384x1_0 : (⟨S16384, .f32⟩ : BufTy).Contents (Elt F) → (⟨S16384x1, .f32⟩ : BufTy).Contents (Elt F)),
    StableHlo.unary main_v14 main_v15 (broadcastInDim S16384x2560 ![0, 1] bcast_S16384x1_S16384x2560_0_1 : (⟨S16384x1, .f32⟩ : BufTy).Contents (Elt F) → (⟨S16384x2560, .f32⟩ : BufTy).Contents (Elt F)),
    StableHlo.binary main_v0 main_v15 main_v16 (subf : (⟨S16384x2560, .f32⟩ : BufTy).Contents (Elt F) → (⟨S16384x2560, .f32⟩ : BufTy).Contents (Elt F) → (⟨S16384x2560, .f32⟩ : BufTy).Contents (Elt F)),
    StableHlo.binary main_v16 main_v16 main_v17 (mulf : (⟨S16384x2560, .f32⟩ : BufTy).Contents (Elt F) → (⟨S16384x2560, .f32⟩ : BufTy).Contents (Elt F) → (⟨S16384x2560, .f32⟩ : BufTy).Contents (Elt F)),
    StableHlo.binary main_v17 main_v16 main_v18 (mulf : (⟨S16384x2560, .f32⟩ : BufTy).Contents (Elt F) → (⟨S16384x2560, .f32⟩ : BufTy).Contents (Elt F) → (⟨S16384x2560, .f32⟩ : BufTy).Contents (Elt F)),
    StableHlo.nullary main_cst_5 (constant S_ .f32 0x00000000#32),
    StableHlo.binary main_v18 main_cst_5 main_v19 ((fun x v => Host.reduceAdd x v reducesTo_S16384x2560_S16384_d1 h_S_) : (⟨S16384x2560, .f32⟩ : BufTy).Contents (Elt F) → (⟨S_, .f32⟩ : BufTy).Contents (Elt F) → (⟨S16384, .f32⟩ : BufTy).Contents (Elt F)),
    StableHlo.nullary main_cst_6 (constant S_ .f32 0x45200000#32),
    StableHlo.unary main_cst_6 main_v20 (broadcastInDim S16384 ![] bcast_S_S16384 : (⟨S_, .f32⟩ : BufTy).Contents (Elt F) → (⟨S16384, .f32⟩ : BufTy).Contents (Elt F)),
    StableHlo.binary main_v19 main_v20 main_v21 (Host.divf : (⟨S16384, .f32⟩ : BufTy).Contents (Elt F) → (⟨S16384, .f32⟩ : BufTy).Contents (Elt F) → (⟨S16384, .f32⟩ : BufTy).Contents (Elt F)),
    StableHlo.binary main_v13 main_v13 main_v22 (mulf : (⟨S16384, .f32⟩ : BufTy).Contents (Elt F) → (⟨S16384, .f32⟩ : BufTy).Contents (Elt F) → (⟨S16384, .f32⟩ : BufTy).Contents (Elt F)),
    StableHlo.binary main_v22 main_v13 main_v23 (mulf : (⟨S16384, .f32⟩ : BufTy).Contents (Elt F) → (⟨S16384, .f32⟩ : BufTy).Contents (Elt F) → (⟨S16384, .f32⟩ : BufTy).Contents (Elt F)),
    StableHlo.binary main_v21 main_v23 main_v24 (Host.divf : (⟨S16384, .f32⟩ : BufTy).Contents (Elt F) → (⟨S16384, .f32⟩ : BufTy).Contents (Elt F) → (⟨S16384, .f32⟩ : BufTy).Contents (Elt F)),
    StableHlo.binary main_v16 main_v16 main_v25 (mulf : (⟨S16384x2560, .f32⟩ : BufTy).Contents (Elt F) → (⟨S16384x2560, .f32⟩ : BufTy).Contents (Elt F) → (⟨S16384x2560, .f32⟩ : BufTy).Contents (Elt F)),
    StableHlo.binary main_v25 main_v25 main_v26 (mulf : (⟨S16384x2560, .f32⟩ : BufTy).Contents (Elt F) → (⟨S16384x2560, .f32⟩ : BufTy).Contents (Elt F) → (⟨S16384x2560, .f32⟩ : BufTy).Contents (Elt F)),
    StableHlo.nullary main_cst_7 (constant S_ .f32 0x00000000#32),
    StableHlo.binary main_v26 main_cst_7 main_v27 ((fun x v => Host.reduceAdd x v reducesTo_S16384x2560_S16384_d1 h_S_) : (⟨S16384x2560, .f32⟩ : BufTy).Contents (Elt F) → (⟨S_, .f32⟩ : BufTy).Contents (Elt F) → (⟨S16384, .f32⟩ : BufTy).Contents (Elt F)),
    StableHlo.nullary main_cst_8 (constant S_ .f32 0x45200000#32),
    StableHlo.unary main_cst_8 main_v28 (broadcastInDim S16384 ![] bcast_S_S16384 : (⟨S_, .f32⟩ : BufTy).Contents (Elt F) → (⟨S16384, .f32⟩ : BufTy).Contents (Elt F)),
    StableHlo.binary main_v27 main_v28 main_v29 (Host.divf : (⟨S16384, .f32⟩ : BufTy).Contents (Elt F) → (⟨S16384, .f32⟩ : BufTy).Contents (Elt F) → (⟨S16384, .f32⟩ : BufTy).Contents (Elt F)),
    StableHlo.binary main_v13 main_v13 main_v30 (mulf : (⟨S16384, .f32⟩ : BufTy).Contents (Elt F) → (⟨S16384, .f32⟩ : BufTy).Contents (Elt F) → (⟨S16384, .f32⟩ : BufTy).Contents (Elt F)),
    StableHlo.binary main_v30 main_v30 main_v31 (mulf : (⟨S16384, .f32⟩ : BufTy).Contents (Elt F) → (⟨S16384, .f32⟩ : BufTy).Contents (Elt F) → (⟨S16384, .f32⟩ : BufTy).Contents (Elt F)),
    StableHlo.binary main_v29 main_v31 main_v32 (Host.divf : (⟨S16384, .f32⟩ : BufTy).Contents (Elt F) → (⟨S16384, .f32⟩ : BufTy).Contents (Elt F) → (⟨S16384, .f32⟩ : BufTy).Contents (Elt F)),
    StableHlo.unary main_v0 main_v33 (Host.absf : (⟨S16384x2560, .f32⟩ : BufTy).Contents (Elt F) → (⟨S16384x2560, .f32⟩ : BufTy).Contents (Elt F)),
    StableHlo.nullary main_cst_9 (constant S_ .f32 0x00000000#32),
    StableHlo.binary main_v33 main_cst_9 main_v34 ((fun x v => Host.reduceAdd x v reducesTo_S16384x2560_S16384_d1 h_S_) : (⟨S16384x2560, .f32⟩ : BufTy).Contents (Elt F) → (⟨S_, .f32⟩ : BufTy).Contents (Elt F) → (⟨S16384, .f32⟩ : BufTy).Contents (Elt F)),
    StableHlo.nullary main_cst_10 (constant S_ .f32 0xFF800000#32),
    StableHlo.binary main_v33 main_cst_10 main_v35 ((fun x v => Host.reduce FloatOps.maximumf x v reducesTo_S16384x2560_S16384_d1 h_S_) : (⟨S16384x2560, .f32⟩ : BufTy).Contents (Elt F) → (⟨S_, .f32⟩ : BufTy).Contents (Elt F) → (⟨S16384, .f32⟩ : BufTy).Contents (Elt F)),
    StableHlo.nullary main_cst_11 (constant S_ .f32 0x45200000#32),
    StableHlo.unary main_cst_11 main_v36 (broadcastInDim S16384 ![] bcast_S_S16384 : (⟨S_, .f32⟩ : BufTy).Contents (Elt F) → (⟨S16384, .f32⟩ : BufTy).Contents (Elt F)),
    StableHlo.binary main_v11 main_v36 main_v37 (mulf : (⟨S16384, .f32⟩ : BufTy).Contents (Elt F) → (⟨S16384, .f32⟩ : BufTy).Contents (Elt F) → (⟨S16384, .f32⟩ : BufTy).Contents (Elt F)),
    StableHlo.binary main_v37 main_v34 main_v38 (Host.divf : (⟨S16384, .f32⟩ : BufTy).Contents (Elt F) → (⟨S16384, .f32⟩ : BufTy).Contents (Elt F) → (⟨S16384, .f32⟩ : BufTy).Contents (Elt F)),
    StableHlo.nullary main_cst_12 (constant S_ .f32 0x45200000#32),
    StableHlo.unary main_cst_12 main_v39 (broadcastInDim S16384 ![] bcast_S_S16384 : (⟨S_, .f32⟩ : BufTy).Contents (Elt F) → (⟨S16384, .f32⟩ : BufTy).Contents (Elt F)),
    StableHlo.binary main_v35 main_v39 main_v40 (mulf : (⟨S16384, .f32⟩ : BufTy).Contents (Elt F) → (⟨S16384, .f32⟩ : BufTy).Contents (Elt F) → (⟨S16384, .f32⟩ : BufTy).Contents (Elt F)),
    StableHlo.binary main_v40 main_v34 main_v41 (Host.divf : (⟨S16384, .f32⟩ : BufTy).Contents (Elt F) → (⟨S16384, .f32⟩ : BufTy).Contents (Elt F) → (⟨S16384, .f32⟩ : BufTy).Contents (Elt F)),
    StableHlo.unary main_v16 main_v42 (Host.absf : (⟨S16384x2560, .f32⟩ : BufTy).Contents (Elt F) → (⟨S16384x2560, .f32⟩ : BufTy).Contents (Elt F)),
    StableHlo.unary main_v13 main_v43 (broadcastInDim S16384x1 ![0] bcast_S16384_S16384x1_0 : (⟨S16384, .f32⟩ : BufTy).Contents (Elt F) → (⟨S16384x1, .f32⟩ : BufTy).Contents (Elt F)),
    StableHlo.nullary main_cst_13 (constant S_ .f32 0x40400000#32),
    StableHlo.unary main_cst_13 main_v44 (broadcastInDim S16384x1 ![] bcast_S_S16384x1 : (⟨S_, .f32⟩ : BufTy).Contents (Elt F) → (⟨S16384x1, .f32⟩ : BufTy).Contents (Elt F)),
    StableHlo.binary main_v44 main_v43 main_v45 (mulf : (⟨S16384x1, .f32⟩ : BufTy).Contents (Elt F) → (⟨S16384x1, .f32⟩ : BufTy).Contents (Elt F) → (⟨S16384x1, .f32⟩ : BufTy).Contents (Elt F)),
    StableHlo.unary main_v45 main_v46 (broadcastInDim S16384x2560 ![0, 1] bcast_S16384x1_S16384x2560_0_1 : (⟨S16384x1, .f32⟩ : BufTy).Contents (Elt F) → (⟨S16384x2560, .f32⟩ : BufTy).Contents (Elt F)),
    StableHlo.binary main_v42 main_v46 main_v47 (cmpf .ogt : (⟨S16384x2560, .f32⟩ : BufTy).Contents (Elt F) → (⟨S16384x2560, .f32⟩ : BufTy).Contents (Elt F) → (⟨S16384x2560, .i1⟩ : BufTy).Contents (Elt F)),
    StableHlo.unary main_v47 main_v48 ((extui 32 · natLt_1_32) : (⟨S16384x2560, .i1⟩ : BufTy).Contents (Elt F) → (⟨S16384x2560, .i32⟩ : BufTy).Contents (Elt F)),
    StableHlo.nullary main_c_14 (constantI S_ 32 0#32),
    StableHlo.binary main_v48 main_c_14 main_v49 ((fun x v => Host.reduce IntOp.addi x v reducesTo_S16384x2560_S16384_d1 h_S_) : (⟨S16384x2560, .i32⟩ : BufTy).Contents (Elt F) → (⟨S_, .i32⟩ : BufTy).Contents (Elt F) → (⟨S16384, .i32⟩ : BufTy).Contents (Elt F)),
    StableHlo.unary main_v49 main_v50 (sitofp .f32 : (⟨S16384, .i32⟩ : BufTy).Contents (Elt F) → (⟨S16384, .f32⟩ : BufTy).Contents (Elt F)) ]

/-- The sign changes of each row, and the first and second differences along the rows. -/
abbrev opsW4 : List (HloOp τ sig (Elt F)) :=
  [ StableHlo.unary main_v0 main_v51 (Host.sign : (⟨S16384x2560, .f32⟩ : BufTy).Contents (Elt F) → (⟨S16384x2560, .f32⟩ : BufTy).Contents (Elt F)),
    StableHlo.TRef.unary (.of main_v51 : StableHlo.TRef sig ⟨S16384x2560, .f32⟩) main_call1.v0 (extractStridedSlice S16384x2559 ![0, 1] · slices_S16384x2560_S16384x2559_0_1),
    StableHlo.TRef.unary (.of main_v51 : StableHlo.TRef sig ⟨S16384x2560, .f32⟩) main_call1.v1 (extractStridedSlice S16384x2559 ![0, 0] · slices_S16384x2560_S16384x2559_0_0),
    StableHlo.TRef.binary main_call1.v0 main_call1.v1 main_call1.v2 subf,
    StableHlo.nullary main_cst_15 (constant S_ .f32 0x00000000#32),
    StableHlo.unary main_cst_15 main_v53 (broadcastInDim S16384x2559 ![] bcast_S_S16384x2559 : (⟨S_, .f32⟩ : BufTy).Contents (Elt F) → (⟨S16384x2559, .f32⟩ : BufTy).Contents (Elt F)),
    StableHlo.binary main_v52 main_v53 main_v54 (cmpf .une : (⟨S16384x2559, .f32⟩ : BufTy).Contents (Elt F) → (⟨S16384x2559, .f32⟩ : BufTy).Contents (Elt F) → (⟨S16384x2559, .i1⟩ : BufTy).Contents (Elt F)),
    StableHlo.unary main_v54 main_v55 (uitofp .f32 : (⟨S16384x2559, .i1⟩ : BufTy).Contents (Elt F) → (⟨S16384x2559, .f32⟩ : BufTy).Contents (Elt F)),
    StableHlo.nullary main_cst_16 (constant S_ .f32 0x00000000#32),
    StableHlo.binary main_v55 main_cst_16 main_v56 ((fun x v => Host.reduceAdd x v reducesTo_S16384x2559_S16384_d1 h_S_) : (⟨S16384x2559, .f32⟩ : BufTy).Contents (Elt F) → (⟨S_, .f32⟩ : BufTy).Contents (Elt F) → (⟨S16384, .f32⟩ : BufTy).Contents (Elt F)),
    StableHlo.nullary main_cst_17 (constant S_ .f32 0x45A00000#32),
    StableHlo.unary main_cst_17 main_v57 (broadcastInDim S16384 ![] bcast_S_S16384 : (⟨S_, .f32⟩ : BufTy).Contents (Elt F) → (⟨S16384, .f32⟩ : BufTy).Contents (Elt F)),
    StableHlo.binary main_v56 main_v57 main_v58 (Host.divf : (⟨S16384, .f32⟩ : BufTy).Contents (Elt F) → (⟨S16384, .f32⟩ : BufTy).Contents (Elt F) → (⟨S16384, .f32⟩ : BufTy).Contents (Elt F)),
    StableHlo.TRef.unary (.of main_v0 : StableHlo.TRef sig ⟨S16384x2560, .f32⟩) main_call2.v0 (extractStridedSlice S16384x2559 ![0, 1] · slices_S16384x2560_S16384x2559_0_1),
    StableHlo.TRef.unary (.of main_v0 : StableHlo.TRef sig ⟨S16384x2560, .f32⟩) main_call2.v1 (extractStridedSlice S16384x2559 ![0, 0] · slices_S16384x2560_S16384x2559_0_0),
    StableHlo.TRef.binary main_call2.v0 main_call2.v1 main_call2.v2 subf,
    StableHlo.TRef.unary (.of main_v59 : StableHlo.TRef sig ⟨S16384x2559, .f32⟩) main_call3.v0 (extractStridedSlice S16384x2558 ![0, 1] · slices_S16384x2559_S16384x2558_0_1),
    StableHlo.TRef.unary (.of main_v59 : StableHlo.TRef sig ⟨S16384x2559, .f32⟩) main_call3.v1 (extractStridedSlice S16384x2558 ![0, 0] · slices_S16384x2559_S16384x2558_0_0),
    StableHlo.TRef.binary main_call3.v0 main_call3.v1 main_call3.v2 subf ]

/-- The unbiased variance of the first difference. -/
abbrev opsW5 : List (HloOp τ sig (Elt F)) :=
  [ StableHlo.nullary main_c_18 (constantI S_ 32 1#32),
    StableHlo.TRef.nullary main_call4.cst (constant S_ .f32 0x00000000#32),
    StableHlo.TRef.binary (.of main_v59 : StableHlo.TRef sig ⟨S16384x2559, .f32⟩) main_call4.cst main_call4.v0 (fun x v => Host.reduceAdd x v reducesTo_S16384x2559_S16384_d1 h_S_),
    StableHlo.TRef.unary main_call4.v0 main_call4.v1 (broadcastInDim S16384x1 ![0] bcast_S16384_S16384x1_0),
    StableHlo.TRef.nullary main_call4.cst_0 (constant S_ .f32 0x451FF000#32),
    StableHlo.TRef.unary main_call4.cst_0 main_call4.v2 (broadcastInDim S16384x1 ![] bcast_S_S16384x1),
    StableHlo.TRef.binary main_call4.v1 main_call4.v2 main_call4.v3 Host.divf,
    StableHlo.TRef.unary main_call4.v3 main_call4.v4 (broadcastInDim S16384x2559 ![0, 1] bcast_S16384x1_S16384x2559_0_1),
    StableHlo.TRef.binary (.of main_v59 : StableHlo.TRef sig ⟨S16384x2559, .f32⟩) main_call4.v4 main_call4.v5 subf,
    StableHlo.TRef.binary main_call4.v5 main_call4.v5 main_call4.v6 mulf,
    StableHlo.TRef.unary (.of main_c_18 : StableHlo.TRef sig ⟨S_, .i32⟩) main_call4.v7 (sitofp .f32),
    StableHlo.TRef.nullary main_call4.cst_1 (constant S_ .f32 0x451FF000#32),
    StableHlo.TRef.binary main_call4.cst_1 main_call4.v7 main_call4.v8 subf,
    StableHlo.TRef.nullary main_call4.cst_2 (constant S_ .f32 0x00000000#32),
    StableHlo.TRef.binary main_call4.v6 main_call4.cst_2 main_call4.v9 (fun x v => Host.reduceAdd x v reducesTo_S16384x2559_S16384_d1 h_S_),
    StableHlo.TRef.unary main_call4.v8 main_call4.v10 (broadcastInDim S16384 ![] bcast_S_S16384),
    StableHlo.TRef.binary main_call4.v9 main_call4.v10 main_call4.v11 Host.divf,
    StableHlo.TRef.nullary main_call4.cst_3 (constant S_ .f32 0x00000000#32),
    StableHlo.TRef.binary main_call4.v8 main_call4.cst_3 main_call4.v12 (cmpf .ogt),
    StableHlo.TRef.nullary main_call4.cst_4 (constant S_ .f32 0x7FC00000#32),
    StableHlo.TRef.unary main_call4.cst_4 main_call4.call0.v0 id,
    StableHlo.TRef.unary main_call4.call0.v0 main_call4.call0.v1 (broadcastInDim S16384 ![] bcast_S_S16384),
    StableHlo.TRef.ternary main_call4.v12 main_call4.v11 main_call4.call0.v1 main_call4.call0.v2 (fun p a b => select (broadcastInDim S16384 ![] bcast_S_S16384 p) a b) ]

/-- The unbiased variance of the second difference. -/
abbrev opsW6 : List (HloOp τ sig (Elt F)) :=
  [ StableHlo.nullary main_c_19 (constantI S_ 32 1#32),
    StableHlo.TRef.nullary main_call5.cst (constant S_ .f32 0x00000000#32),
    StableHlo.TRef.binary (.of main_v60 : StableHlo.TRef sig ⟨S16384x2558, .f32⟩) main_call5.cst main_call5.v0 (fun x v => Host.reduceAdd x v reducesTo_S16384x2558_S16384_d1 h_S_),
    StableHlo.TRef.unary main_call5.v0 main_call5.v1 (broadcastInDim S16384x1 ![0] bcast_S16384_S16384x1_0),
    StableHlo.TRef.nullary main_call5.cst_0 (constant S_ .f32 0x451FE000#32),
    StableHlo.TRef.unary main_call5.cst_0 main_call5.v2 (broadcastInDim S16384x1 ![] bcast_S_S16384x1),
    StableHlo.TRef.binary main_call5.v1 main_call5.v2 main_call5.v3 Host.divf,
    StableHlo.TRef.unary main_call5.v3 main_call5.v4 (broadcastInDim S16384x2558 ![0, 1] bcast_S16384x1_S16384x2558_0_1),
    StableHlo.TRef.binary (.of main_v60 : StableHlo.TRef sig ⟨S16384x2558, .f32⟩) main_call5.v4 main_call5.v5 subf,
    StableHlo.TRef.binary main_call5.v5 main_call5.v5 main_call5.v6 mulf,
    StableHlo.TRef.unary (.of main_c_19 : StableHlo.TRef sig ⟨S_, .i32⟩) main_call5.v7 (sitofp .f32),
    StableHlo.TRef.nullary main_call5.cst_1 (constant S_ .f32 0x451FE000#32),
    StableHlo.TRef.binary main_call5.cst_1 main_call5.v7 main_call5.v8 subf,
    StableHlo.TRef.nullary main_call5.cst_2 (constant S_ .f32 0x00000000#32),
    StableHlo.TRef.binary main_call5.v6 main_call5.cst_2 main_call5.v9 (fun x v => Host.reduceAdd x v reducesTo_S16384x2558_S16384_d1 h_S_),
    StableHlo.TRef.unary main_call5.v8 main_call5.v10 (broadcastInDim S16384 ![] bcast_S_S16384),
    StableHlo.TRef.binary main_call5.v9 main_call5.v10 main_call5.v11 Host.divf,
    StableHlo.TRef.nullary main_call5.cst_3 (constant S_ .f32 0x00000000#32),
    StableHlo.TRef.binary main_call5.v8 main_call5.cst_3 main_call5.v12 (cmpf .ogt),
    StableHlo.TRef.nullary main_call5.cst_4 (constant S_ .f32 0x7FC00000#32),
    StableHlo.TRef.unary main_call5.cst_4 main_call5.call0.v0 id,
    StableHlo.TRef.unary main_call5.call0.v0 main_call5.call0.v1 (broadcastInDim S16384 ![] bcast_S_S16384),
    StableHlo.TRef.ternary main_call5.v12 main_call5.v11 main_call5.call0.v1 main_call5.call0.v2 (fun p a b => select (broadcastInDim S16384 ![] bcast_S_S16384 p) a b) ]

/-- Mobility and complexity, and the fifteen statistics as columns. -/
abbrev opsW7 : List (HloOp τ sig (Elt F)) :=
  [ StableHlo.binary main_v61 main_v12 main_v63 (Host.divf : (⟨S16384, .f32⟩ : BufTy).Contents (Elt F) → (⟨S16384, .f32⟩ : BufTy).Contents (Elt F) → (⟨S16384, .f32⟩ : BufTy).Contents (Elt F)),
    StableHlo.unary main_v63 main_v64 (Host.sqrt : (⟨S16384, .f32⟩ : BufTy).Contents (Elt F) → (⟨S16384, .f32⟩ : BufTy).Contents (Elt F)),
    StableHlo.binary main_v62 main_v61 main_v65 (Host.divf : (⟨S16384, .f32⟩ : BufTy).Contents (Elt F) → (⟨S16384, .f32⟩ : BufTy).Contents (Elt F) → (⟨S16384, .f32⟩ : BufTy).Contents (Elt F)),
    StableHlo.unary main_v65 main_v66 (Host.sqrt : (⟨S16384, .f32⟩ : BufTy).Contents (Elt F) → (⟨S16384, .f32⟩ : BufTy).Contents (Elt F)),
    StableHlo.unary main_v3 main_v67 (broadcastInDim S16384x1 ![0] bcast_S16384_S16384x1_0 : (⟨S16384, .f32⟩ : BufTy).Contents (Elt F) → (⟨S16384x1, .f32⟩ : BufTy).Contents (Elt F)),
    StableHlo.unary main_v4 main_v68 (broadcastInDim S16384x1 ![0] bcast_S16384_S16384x1_0 : (⟨S16384, .f32⟩ : BufTy).Contents (Elt F) → (⟨S16384x1, .f32⟩ : BufTy).Contents (Elt F)),
    StableHlo.unary main_v5 main_v69 (broadcastInDim S16384x1 ![0] bcast_S16384_S16384x1_0 : (⟨S16384, .f32⟩ : BufTy).Contents (Elt F) → (⟨S16384x1, .f32⟩ : BufTy).Contents (Elt F)),
    StableHlo.unary main_v6 main_v70 (broadcastInDim S16384x1 ![0] bcast_S16384_S16384x1_0 : (⟨S16384, .f32⟩ : BufTy).Contents (Elt F) → (⟨S16384x1, .f32⟩ : BufTy).Contents (Elt F)),
    StableHlo.unary main_v12 main_v71 (broadcastInDim S16384x1 ![0] bcast_S16384_S16384x1_0 : (⟨S16384, .f32⟩ : BufTy).Contents (Elt F) → (⟨S16384x1, .f32⟩ : BufTy).Contents (Elt F)),
    StableHlo.unary main_v11 main_v72 (broadcastInDim S16384x1 ![0] bcast_S16384_S16384x1_0 : (⟨S16384, .f32⟩ : BufTy).Contents (Elt F) → (⟨S16384x1, .f32⟩ : BufTy).Contents (Elt F)),
    StableHlo.unary main_v24 main_v73 (broadcastInDim S16384x1 ![0] bcast_S16384_S16384x1_0 : (⟨S16384, .f32⟩ : BufTy).Contents (Elt F) → (⟨S16384x1, .f32⟩ : BufTy).Contents (Elt F)),
    StableHlo.unary main_v32 main_v74 (broadcastInDim S16384x1 ![0] bcast_S16384_S16384x1_0 : (⟨S16384, .f32⟩ : BufTy).Contents (Elt F) → (⟨S16384x1, .f32⟩ : BufTy).Contents (Elt F)),
    StableHlo.unary main_v38 main_v75 (broadcastInDim S16384x1 ![0] bcast_S16384_S16384x1_0 : (⟨S16384, .f32⟩ : BufTy).Contents (Elt F) → (⟨S16384x1, .f32⟩ : BufTy).Contents (Elt F)),
    StableHlo.unary main_v41 main_v76 (broadcastInDim S16384x1 ![0] bcast_S16384_S16384x1_0 : (⟨S16384, .f32⟩ : BufTy).Contents (Elt F) → (⟨S16384x1, .f32⟩ : BufTy).Contents (Elt F)),
    StableHlo.unary main_v50 main_v77 (broadcastInDim S16384x1 ![0] bcast_S16384_S16384x1_0 : (⟨S16384, .f32⟩ : BufTy).Contents (Elt F) → (⟨S16384x1, .f32⟩ : BufTy).Contents (Elt F)),
    StableHlo.unary main_v58 main_v78 (broadcastInDim S16384x1 ![0] bcast_S16384_S16384x1_0 : (⟨S16384, .f32⟩ : BufTy).Contents (Elt F) → (⟨S16384x1, .f32⟩ : BufTy).Contents (Elt F)),
    StableHlo.unary main_v12 main_v79 (broadcastInDim S16384x1 ![0] bcast_S16384_S16384x1_0 : (⟨S16384, .f32⟩ : BufTy).Contents (Elt F) → (⟨S16384x1, .f32⟩ : BufTy).Contents (Elt F)),
    StableHlo.unary main_v64 main_v80 (broadcastInDim S16384x1 ![0] bcast_S16384_S16384x1_0 : (⟨S16384, .f32⟩ : BufTy).Contents (Elt F) → (⟨S16384x1, .f32⟩ : BufTy).Contents (Elt F)),
    StableHlo.unary main_v66 main_v81 (broadcastInDim S16384x1 ![0] bcast_S16384_S16384x1_0 : (⟨S16384, .f32⟩ : BufTy).Contents (Elt F) → (⟨S16384x1, .f32⟩ : BufTy).Contents (Elt F)) ]

/-- The columns side by side. -/
abbrev opsW8 : List (HloOp τ sig (Elt F)) :=
  [ StableHlo.nary ![main_v67, main_v68, main_v69, main_v70, main_v71, main_v72, main_v73, main_v74, main_v75, main_v76, main_v77, main_v78, main_v79, main_v80, main_v81] main_v82 (fun u => concatenate S16384x15 1 [⟨S16384x1, u 0⟩, ⟨S16384x1, u 1⟩, ⟨S16384x1, u 2⟩, ⟨S16384x1, u 3⟩, ⟨S16384x1, u 4⟩, ⟨S16384x1, u 5⟩, ⟨S16384x1, u 6⟩, ⟨S16384x1, u 7⟩, ⟨S16384x1, u 8⟩, ⟨S16384x1, u 9⟩, ⟨S16384x1, u 10⟩, ⟨S16384x1, u 11⟩, ⟨S16384x1, u 12⟩, ⟨S16384x1, u 13⟩, ⟨S16384x1, u 14⟩] concatenates_S16384x1_S16384x1_S16384x1_S16384x1_S16384x1_S16384x1_S16384x1_S16384x1_S16384x1_S16384x1_S16384x1_S16384x1_S16384x1_S16384x1_S16384x1_S16384x15_d1) ]

/-- The reference's operations, in order. -/
abbrev ops : List (HloOp τ sig (Elt F)) :=
  opsW1 ++ (opsW2 ++ (opsW3 ++ (opsW4 ++ (opsW5 ++ (opsW6 ++ (opsW7 ++ opsW8))))))

set_option maxRecDepth 32768 in
set_option maxHeartbeats 8000000 in
/-- @main is that straight line: the two windows and the functions unfolded at their calls, the records at their fields,
    and sequencing reassociated. -/
theorem main_eq (c : Dev nD) : main (F := F) c = seq ops := by
  simp only [main, main_part0, main_part1, fn_var.body, fn_var_1.body, fn_var_2.body, fn_where.body, fn_diff.body,
    fn_diff_0.body, ops, opsW1, opsW2, opsW3, opsW4, opsW5, opsW6, opsW7, opsW8, List.cons_append, List.nil_append, seq,
    bind_assoc, pure_bind]

theorem scopedRefs_eq : (Finset.univ.filter fun b : Ref sig .tc => b.isScoped) = ∅ := by decide
theorem scopedSems_eq : (Finset.univ.filter fun sm : SemLoc sig => sm.isScoped .tc) = ∅ := by decide

set_option maxRecDepth 8192 in
theorem opsW1_sub : (opsW1 : List (HloOp τ sig (Elt F))).Forall fun op => op.bufs ⊆ tcRefs τ sig :=
  ⟨reshape_bufs_sub .., nullary_bufs_sub .., binary_bufs_sub .., nullary_bufs_sub .., unary_bufs_sub .., binary_bufs_sub .., nullary_bufs_sub .., binary_bufs_sub .., nullary_bufs_sub .., binary_bufs_sub .., binary_bufs_sub .., binary_bufs_sub .., nullary_bufs_sub .., binary_bufs_sub .., nullary_bufs_sub .., unary_bufs_sub .., binary_bufs_sub .., unary_bufs_sub .., nullary_bufs_sub ..⟩
set_option maxRecDepth 8192 in
theorem opsW1_fresh : (opsW1 : List (HloOp τ sig (Elt F))).Forall fun op => op.fresh = ∅ :=
  ⟨rfl, rfl, rfl, rfl, rfl, rfl, rfl, rfl, rfl, rfl, rfl, rfl, rfl, rfl, rfl, rfl, rfl, rfl, rfl⟩

set_option maxRecDepth 8192 in
theorem opsW2_sub : (opsW2 : List (HloOp τ sig (Elt F))).Forall fun op => op.bufs ⊆ tcRefs τ sig :=
  ⟨nullary_bufs_sub .., binary_bufs_sub .., unary_bufs_sub .., nullary_bufs_sub .., unary_bufs_sub .., binary_bufs_sub .., unary_bufs_sub .., binary_bufs_sub .., binary_bufs_sub .., unary_bufs_sub .., nullary_bufs_sub .., binary_bufs_sub .., nullary_bufs_sub .., binary_bufs_sub .., unary_bufs_sub .., binary_bufs_sub .., nullary_bufs_sub .., binary_bufs_sub .., nullary_bufs_sub .., unary_bufs_sub .., unary_bufs_sub .., ternary_bufs_sub ..⟩
set_option maxRecDepth 8192 in
theorem opsW2_fresh : (opsW2 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl⟩

set_option maxRecDepth 8192 in
theorem opsW3_sub : (opsW3 : List (HloOp τ sig (Elt F))).Forall fun op => op.bufs ⊆ tcRefs τ sig :=
  ⟨unary_bufs_sub .., unary_bufs_sub .., unary_bufs_sub .., binary_bufs_sub .., binary_bufs_sub .., binary_bufs_sub .., nullary_bufs_sub .., binary_bufs_sub .., nullary_bufs_sub .., unary_bufs_sub .., binary_bufs_sub .., binary_bufs_sub .., binary_bufs_sub .., binary_bufs_sub .., binary_bufs_sub .., binary_bufs_sub .., nullary_bufs_sub .., binary_bufs_sub .., nullary_bufs_sub .., unary_bufs_sub .., binary_bufs_sub .., binary_bufs_sub .., binary_bufs_sub .., binary_bufs_sub .., unary_bufs_sub .., nullary_bufs_sub .., binary_bufs_sub .., nullary_bufs_sub .., binary_bufs_sub .., nullary_bufs_sub .., unary_bufs_sub .., binary_bufs_sub .., binary_bufs_sub .., nullary_bufs_sub .., unary_bufs_sub .., binary_bufs_sub .., binary_bufs_sub .., unary_bufs_sub .., unary_bufs_sub .., nullary_bufs_sub .., unary_bufs_sub .., binary_bufs_sub .., unary_bufs_sub .., binary_bufs_sub .., unary_bufs_sub .., nullary_bufs_sub .., binary_bufs_sub .., unary_bufs_sub ..⟩
set_option maxRecDepth 8192 in
theorem opsW3_fresh : (opsW3 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩

set_option maxRecDepth 8192 in
theorem opsW4_sub : (opsW4 : List (HloOp τ sig (Elt F))).Forall fun op => op.bufs ⊆ tcRefs τ sig :=
  ⟨unary_bufs_sub .., unary_bufs_sub .., unary_bufs_sub .., binary_bufs_sub .., nullary_bufs_sub .., unary_bufs_sub .., binary_bufs_sub .., unary_bufs_sub .., nullary_bufs_sub .., binary_bufs_sub .., nullary_bufs_sub .., unary_bufs_sub .., binary_bufs_sub .., unary_bufs_sub .., unary_bufs_sub .., binary_bufs_sub .., unary_bufs_sub .., unary_bufs_sub .., binary_bufs_sub ..⟩
set_option maxRecDepth 8192 in
theorem opsW4_fresh : (opsW4 : List (HloOp τ sig (Elt F))).Forall fun op => op.fresh = ∅ :=
  ⟨rfl, rfl, rfl, rfl, rfl, rfl, rfl, rfl, rfl, rfl, rfl, rfl, rfl, rfl, rfl, rfl, rfl, rfl, rfl⟩

set_option maxRecDepth 8192 in
theorem opsW5_sub : (opsW5 : List (HloOp τ sig (Elt F))).Forall fun op => op.bufs ⊆ tcRefs τ sig :=
  ⟨nullary_bufs_sub .., nullary_bufs_sub .., binary_bufs_sub .., unary_bufs_sub .., nullary_bufs_sub .., unary_bufs_sub .., binary_bufs_sub .., unary_bufs_sub .., binary_bufs_sub .., binary_bufs_sub .., unary_bufs_sub .., nullary_bufs_sub .., binary_bufs_sub .., nullary_bufs_sub .., binary_bufs_sub .., unary_bufs_sub .., binary_bufs_sub .., nullary_bufs_sub .., binary_bufs_sub .., nullary_bufs_sub .., unary_bufs_sub .., unary_bufs_sub .., ternary_bufs_sub ..⟩
set_option maxRecDepth 8192 in
theorem opsW5_fresh : (opsW5 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl⟩

set_option maxRecDepth 8192 in
theorem opsW6_sub : (opsW6 : List (HloOp τ sig (Elt F))).Forall fun op => op.bufs ⊆ tcRefs τ sig :=
  ⟨nullary_bufs_sub .., nullary_bufs_sub .., binary_bufs_sub .., unary_bufs_sub .., nullary_bufs_sub .., unary_bufs_sub .., binary_bufs_sub .., unary_bufs_sub .., binary_bufs_sub .., binary_bufs_sub .., unary_bufs_sub .., nullary_bufs_sub .., binary_bufs_sub .., nullary_bufs_sub .., binary_bufs_sub .., unary_bufs_sub .., binary_bufs_sub .., nullary_bufs_sub .., binary_bufs_sub .., nullary_bufs_sub .., unary_bufs_sub .., unary_bufs_sub .., ternary_bufs_sub ..⟩
set_option maxRecDepth 8192 in
theorem opsW6_fresh : (opsW6 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl⟩

set_option maxRecDepth 8192 in
theorem opsW7_sub : (opsW7 : List (HloOp τ sig (Elt F))).Forall fun op => op.bufs ⊆ tcRefs τ sig :=
  ⟨binary_bufs_sub .., unary_bufs_sub .., binary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub ..⟩
set_option maxRecDepth 8192 in
theorem opsW7_fresh : (opsW7 : List (HloOp τ sig (Elt F))).Forall fun op => op.fresh = ∅ :=
  ⟨rfl, rfl, rfl, rfl, rfl, rfl, rfl, rfl, rfl, rfl, rfl, rfl, rfl, rfl, rfl, rfl, rfl, rfl, rfl⟩

set_option maxRecDepth 8192 in
theorem opsW8_sub : (opsW8 : List (HloOp τ sig (Elt F))).Forall fun op => op.bufs ⊆ tcRefs τ sig :=
  (nary_bufs_sub ..)
set_option maxRecDepth 8192 in
theorem opsW8_fresh : (opsW8 : List (HloOp τ sig (Elt F))).Forall fun op => op.fresh = ∅ :=
  rfl

theorem ops_sub : (ops : List (HloOp τ sig (Elt F))).Forall fun op => op.bufs ⊆ tcRefs τ sig :=
  List.forall_iff_forall_mem.mpr fun op h => by
    simp only [ops, List.mem_append] at h
    rcases h with h | h | h | h | h | h | h | h
    exacts [List.forall_iff_forall_mem.mp opsW1_sub op h, List.forall_iff_forall_mem.mp opsW2_sub op h, List.forall_iff_forall_mem.mp opsW3_sub op h, List.forall_iff_forall_mem.mp opsW4_sub op h, List.forall_iff_forall_mem.mp opsW5_sub op h, List.forall_iff_forall_mem.mp opsW6_sub op h, List.forall_iff_forall_mem.mp opsW7_sub op h, List.forall_iff_forall_mem.mp opsW8_sub op h]

theorem ops_fresh : ∀ op ∈ (ops : List (HloOp τ sig (Elt F))), op.fresh = ∅ := fun op h => by
    simp only [ops, List.mem_append] at h
    rcases h with h | h | h | h | h | h | h | h
    exacts [List.forall_iff_forall_mem.mp opsW1_fresh op h, List.forall_iff_forall_mem.mp opsW2_fresh op h, List.forall_iff_forall_mem.mp opsW3_fresh op h, List.forall_iff_forall_mem.mp opsW4_fresh op h, List.forall_iff_forall_mem.mp opsW5_fresh op h, List.forall_iff_forall_mem.mp opsW6_fresh op h, List.forall_iff_forall_mem.mp opsW7_fresh op h, List.forall_iff_forall_mem.mp opsW8_fresh op h]

/-- From any memory with zero counters every weakly fair execution of @main terminates, and every final state has each
    buffer at the operations' fold over the launch contents. -/
theorem run_main (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (b : DevRef τ sig) :=
  run_seq scopedRefs_eq scopedSems_eq defs main (fun _ => ops) main_eq (fun _ => ops_sub) m ρ (fun _ => ops_fresh)

/-! ## The values, stretch by stretch -/

/-- The fold over two lists in a row is the fold over the second after the fold over the first. -/
theorem after_app (l₁ l₂ : List (HloOp τ sig (Elt Ideal))) (V : Valuation τ sig (Elt Ideal)) :
    after (l₁ ++ l₂) V = after l₂ (after l₁ V) := by
  induction l₁ generalizing V with
  | nil => rfl
  | cons op l ih => simp only [List.cons_append, after_cons, ih]

/-- Fifteen columns side by side. -/
def cat15 (c0 c1 c2 c3 c4 c5 c6 c7 c8 c9 c10 c11 c12 c13 c14 : FVec Ideal S16384x1 .f32) : FVec Ideal S16384x15 .f32 :=
  concatenate S16384x15 1 [⟨S16384x1, c0⟩, ⟨S16384x1, c1⟩, ⟨S16384x1, c2⟩, ⟨S16384x1, c3⟩, ⟨S16384x1, c4⟩, ⟨S16384x1, c5⟩,
    ⟨S16384x1, c6⟩, ⟨S16384x1, c7⟩, ⟨S16384x1, c8⟩, ⟨S16384x1, c9⟩, ⟨S16384x1, c10⟩, ⟨S16384x1, c11⟩, ⟨S16384x1, c12⟩,
    ⟨S16384x1, c13⟩, ⟨S16384x1, c14⟩]
    concatenates_S16384x1_S16384x1_S16384x1_S16384x1_S16384x1_S16384x1_S16384x1_S16384x1_S16384x1_S16384x1_S16384x1_S16384x1_S16384x1_S16384x1_S16384x1_S16384x15_d1

/-- The buffers' contents after the first 1 stretch. -/
def val1 (V : Valuation τ sig (Elt Ideal)) : Valuation τ sig (Elt Ideal) := after (opsW1 (F := Ideal)) V

set_option maxRecDepth 8192 in
set_option maxHeartbeats 4000000 in
theorem val1_main_arg0 (V : Valuation τ sig (Elt Ideal)) :
    val1 V (no_index (Proc.devRef .tc main_arg0)) = V (main_arg0 : DevRef τ sig) := by
  unfold val1
  simp only [opsW1]
  after_results_simp <;> rfl

set_option maxRecDepth 8192 in
set_option maxHeartbeats 4000000 in
theorem val1_main_v0 (V : Valuation τ sig (Elt Ideal)) :
    val1 V (no_index (Proc.devRef .tc main_v0)) = Ref.X (V (main_arg0 : DevRef τ sig)) := by
  unfold val1
  simp only [opsW1]
  after_results_simp
  all_goals (try simp only [TRef.ofBuf, TRef.toBuf, cast_eq])
  all_goals rfl

set_option maxRecDepth 8192 in
set_option maxHeartbeats 4000000 in
theorem val1_main_v3 (V : Valuation τ sig (Elt Ideal)) :
    val1 V (no_index (Proc.devRef .tc main_v3)) = Ref.meanV (Ref.X (V (main_arg0 : DevRef τ sig))) := by
  unfold val1
  simp only [opsW1]
  after_results_simp
  all_goals (try simp only [TRef.ofBuf, TRef.toBuf, cast_eq])
  all_goals rfl

set_option maxRecDepth 8192 in
set_option maxHeartbeats 4000000 in
theorem val1_main_v4 (V : Valuation τ sig (Elt Ideal)) :
    val1 V (no_index (Proc.devRef .tc main_v4)) = Ref.maxV (Ref.X (V (main_arg0 : DevRef τ sig))) := by
  unfold val1
  simp only [opsW1]
  after_results_simp
  all_goals (try simp only [TRef.ofBuf, TRef.toBuf, cast_eq])
  all_goals rfl

set_option maxRecDepth 8192 in
set_option maxHeartbeats 4000000 in
theorem val1_main_v5 (V : Valuation τ sig (Elt Ideal)) :
    val1 V (no_index (Proc.devRef .tc main_v5)) = Ref.minV (Ref.X (V (main_arg0 : DevRef τ sig))) := by
  unfold val1
  simp only [opsW1]
  after_results_simp
  all_goals (try simp only [TRef.ofBuf, TRef.toBuf, cast_eq])
  all_goals rfl

set_option maxRecDepth 8192 in
set_option maxHeartbeats 4000000 in
theorem val1_main_v6 (V : Valuation τ sig (Elt Ideal)) :
    val1 V (no_index (Proc.devRef .tc main_v6)) = Ref.p2pV (Ref.X (V (main_arg0 : DevRef τ sig))) := by
  unfold val1
  simp only [opsW1]
  after_results_simp
  all_goals (try simp only [TRef.ofBuf, TRef.toBuf, cast_eq])
  all_goals rfl

set_option maxRecDepth 8192 in
set_option maxHeartbeats 4000000 in
theorem val1_main_v11 (V : Valuation τ sig (Elt Ideal)) :
    val1 V (no_index (Proc.devRef .tc main_v11)) = Ref.rmsV (Ref.X (V (main_arg0 : DevRef τ sig))) := by
  unfold val1
  simp only [opsW1]
  after_results_simp
  all_goals (try simp only [TRef.ofBuf, TRef.toBuf, cast_eq])
  all_goals rfl

set_option maxRecDepth 8192 in
set_option maxHeartbeats 4000000 in
theorem val1_main_c (V : Valuation τ sig (Elt Ideal)) :
    val1 V (no_index (Proc.devRef .tc main_c)) = Ref.one := by
  unfold val1
  simp only [opsW1]
  after_results_simp
  all_goals (try simp only [TRef.ofBuf, TRef.toBuf, cast_eq])
  all_goals rfl

/-- The buffers' contents after the first 2 stretches. -/
def val2 (V : Valuation τ sig (Elt Ideal)) : Valuation τ sig (Elt Ideal) := after (opsW2 (F := Ideal)) (val1 V)

set_option maxRecDepth 8192 in
set_option maxHeartbeats 4000000 in
theorem val2_main_arg0 (V : Valuation τ sig (Elt Ideal)) :
    val2 V (no_index (Proc.devRef .tc main_arg0)) = V (main_arg0 : DevRef τ sig) := by
  unfold val2
  simp only [opsW2]
  after_results_simp <;> exact val1_main_arg0 V

set_option maxRecDepth 8192 in
set_option maxHeartbeats 4000000 in
theorem val2_main_v0 (V : Valuation τ sig (Elt Ideal)) :
    val2 V (no_index (Proc.devRef .tc main_v0)) = Ref.X (V (main_arg0 : DevRef τ sig)) := by
  unfold val2
  simp only [opsW2]
  after_results_simp <;> exact val1_main_v0 V

set_option maxRecDepth 8192 in
set_option maxHeartbeats 4000000 in
theorem val2_main_v3 (V : Valuation τ sig (Elt Ideal)) :
    val2 V (no_index (Proc.devRef .tc main_v3)) = Ref.meanV (Ref.X (V (main_arg0 : DevRef τ sig))) := by
  unfold val2
  simp only [opsW2]
  after_results_simp <;> exact val1_main_v3 V

set_option maxRecDepth 8192 in
set_option maxHeartbeats 4000000 in
theorem val2_main_v4 (V : Valuation τ sig (Elt Ideal)) :
    val2 V (no_index (Proc.devRef .tc main_v4)) = Ref.maxV (Ref.X (V (main_arg0 : DevRef τ sig))) := by
  unfold val2
  simp only [opsW2]
  after_results_simp <;> exact val1_main_v4 V

set_option maxRecDepth 8192 in
set_option maxHeartbeats 4000000 in
theorem val2_main_v5 (V : Valuation τ sig (Elt Ideal)) :
    val2 V (no_index (Proc.devRef .tc main_v5)) = Ref.minV (Ref.X (V (main_arg0 : DevRef τ sig))) := by
  unfold val2
  simp only [opsW2]
  after_results_simp <;> exact val1_main_v5 V

set_option maxRecDepth 8192 in
set_option maxHeartbeats 4000000 in
theorem val2_main_v6 (V : Valuation τ sig (Elt Ideal)) :
    val2 V (no_index (Proc.devRef .tc main_v6)) = Ref.p2pV (Ref.X (V (main_arg0 : DevRef τ sig))) := by
  unfold val2
  simp only [opsW2]
  after_results_simp <;> exact val1_main_v6 V

set_option maxRecDepth 8192 in
set_option maxHeartbeats 4000000 in
theorem val2_main_v11 (V : Valuation τ sig (Elt Ideal)) :
    val2 V (no_index (Proc.devRef .tc main_v11)) = Ref.rmsV (Ref.X (V (main_arg0 : DevRef τ sig))) := by
  unfold val2
  simp only [opsW2]
  after_results_simp <;> exact val1_main_v11 V

set_option maxRecDepth 8192 in
set_option maxHeartbeats 4000000 in
theorem val2_main_v12 (V : Valuation τ sig (Elt Ideal)) :
    val2 V (no_index (Proc.devRef .tc main_v12)) = Ref.varA (Ref.X (V (main_arg0 : DevRef τ sig))) := by
  unfold val2
  simp only [opsW2]
  after_results_simp
  all_goals (try simp only [TRef.ofBuf, TRef.toBuf, cast_eq])
  all_goals (try simp only [val1_main_c, val1_main_v0])
  all_goals rfl

/-- The buffers' contents after the first 3 stretches. -/
def val3 (V : Valuation τ sig (Elt Ideal)) : Valuation τ sig (Elt Ideal) := after (opsW3 (F := Ideal)) (val2 V)

set_option maxRecDepth 8192 in
set_option maxHeartbeats 4000000 in
theorem val3_main_arg0 (V : Valuation τ sig (Elt Ideal)) :
    val3 V (no_index (Proc.devRef .tc main_arg0)) = V (main_arg0 : DevRef τ sig) := by
  unfold val3
  simp only [opsW3]
  after_results_simp <;> exact val2_main_arg0 V

set_option maxRecDepth 8192 in
set_option maxHeartbeats 4000000 in
theorem val3_main_v0 (V : Valuation τ sig (Elt Ideal)) :
    val3 V (no_index (Proc.devRef .tc main_v0)) = Ref.X (V (main_arg0 : DevRef τ sig)) := by
  unfold val3
  simp only [opsW3]
  after_results_simp <;> exact val2_main_v0 V

set_option maxRecDepth 8192 in
set_option maxHeartbeats 4000000 in
theorem val3_main_v3 (V : Valuation τ sig (Elt Ideal)) :
    val3 V (no_index (Proc.devRef .tc main_v3)) = Ref.meanV (Ref.X (V (main_arg0 : DevRef τ sig))) := by
  unfold val3
  simp only [opsW3]
  after_results_simp <;> exact val2_main_v3 V

set_option maxRecDepth 8192 in
set_option maxHeartbeats 4000000 in
theorem val3_main_v4 (V : Valuation τ sig (Elt Ideal)) :
    val3 V (no_index (Proc.devRef .tc main_v4)) = Ref.maxV (Ref.X (V (main_arg0 : DevRef τ sig))) := by
  unfold val3
  simp only [opsW3]
  after_results_simp <;> exact val2_main_v4 V

set_option maxRecDepth 8192 in
set_option maxHeartbeats 4000000 in
theorem val3_main_v5 (V : Valuation τ sig (Elt Ideal)) :
    val3 V (no_index (Proc.devRef .tc main_v5)) = Ref.minV (Ref.X (V (main_arg0 : DevRef τ sig))) := by
  unfold val3
  simp only [opsW3]
  after_results_simp <;> exact val2_main_v5 V

set_option maxRecDepth 8192 in
set_option maxHeartbeats 4000000 in
theorem val3_main_v6 (V : Valuation τ sig (Elt Ideal)) :
    val3 V (no_index (Proc.devRef .tc main_v6)) = Ref.p2pV (Ref.X (V (main_arg0 : DevRef τ sig))) := by
  unfold val3
  simp only [opsW3]
  after_results_simp <;> exact val2_main_v6 V

set_option maxRecDepth 8192 in
set_option maxHeartbeats 4000000 in
theorem val3_main_v11 (V : Valuation τ sig (Elt Ideal)) :
    val3 V (no_index (Proc.devRef .tc main_v11)) = Ref.rmsV (Ref.X (V (main_arg0 : DevRef τ sig))) := by
  unfold val3
  simp only [opsW3]
  after_results_simp <;> exact val2_main_v11 V

set_option maxRecDepth 8192 in
set_option maxHeartbeats 4000000 in
theorem val3_main_v12 (V : Valuation τ sig (Elt Ideal)) :
    val3 V (no_index (Proc.devRef .tc main_v12)) = Ref.varA (Ref.X (V (main_arg0 : DevRef τ sig))) := by
  unfold val3
  simp only [opsW3]
  after_results_simp <;> exact val2_main_v12 V

set_option maxRecDepth 8192 in
set_option maxHeartbeats 4000000 in
theorem val3_main_v24 (V : Valuation τ sig (Elt Ideal)) :
    val3 V (no_index (Proc.devRef .tc main_v24)) = Ref.skewV (Ref.X (V (main_arg0 : DevRef τ sig))) := by
  unfold val3
  simp only [opsW3]
  after_results_simp
  all_goals (try simp only [TRef.ofBuf, TRef.toBuf, cast_eq])
  all_goals (try simp only [val2_main_v12, val2_main_v3, val2_main_v0])
  all_goals rfl

set_option maxRecDepth 8192 in
set_option maxHeartbeats 4000000 in
theorem val3_main_v32 (V : Valuation τ sig (Elt Ideal)) :
    val3 V (no_index (Proc.devRef .tc main_v32)) = Ref.kurtV (Ref.X (V (main_arg0 : DevRef τ sig))) := by
  unfold val3
  simp only [opsW3]
  after_results_simp
  all_goals (try simp only [TRef.ofBuf, TRef.toBuf, cast_eq])
  all_goals (try simp only [val2_main_v12, val2_main_v3, val2_main_v0])
  all_goals rfl

set_option maxRecDepth 8192 in
set_option maxHeartbeats 4000000 in
theorem val3_main_v38 (V : Valuation τ sig (Elt Ideal)) :
    val3 V (no_index (Proc.devRef .tc main_v38)) = Ref.shapeV (Ref.X (V (main_arg0 : DevRef τ sig))) := by
  unfold val3
  simp only [opsW3]
  after_results_simp
  all_goals (try simp only [TRef.ofBuf, TRef.toBuf, cast_eq])
  all_goals (try simp only [val2_main_v0, val2_main_v11])
  all_goals rfl

set_option maxRecDepth 8192 in
set_option maxHeartbeats 4000000 in
theorem val3_main_v41 (V : Valuation τ sig (Elt Ideal)) :
    val3 V (no_index (Proc.devRef .tc main_v41)) = Ref.impulseV (Ref.X (V (main_arg0 : DevRef τ sig))) := by
  unfold val3
  simp only [opsW3]
  after_results_simp
  all_goals (try simp only [TRef.ofBuf, TRef.toBuf, cast_eq])
  all_goals (try simp only [val2_main_v0])
  all_goals rfl

set_option maxRecDepth 8192 in
set_option maxHeartbeats 4000000 in
theorem val3_main_v50 (V : Valuation τ sig (Elt Ideal)) :
    val3 V (no_index (Proc.devRef .tc main_v50)) = Ref.outlV (Ref.X (V (main_arg0 : DevRef τ sig))) := by
  unfold val3
  simp only [opsW3]
  after_results_simp
  all_goals (try simp only [TRef.ofBuf, TRef.toBuf, cast_eq])
  all_goals (try simp only [val2_main_v12, val2_main_v3, val2_main_v0])
  all_goals rfl

/-- The buffers' contents after the first 4 stretches. -/
def val4 (V : Valuation τ sig (Elt Ideal)) : Valuation τ sig (Elt Ideal) := after (opsW4 (F := Ideal)) (val3 V)

set_option maxRecDepth 8192 in
set_option maxHeartbeats 4000000 in
theorem val4_main_arg0 (V : Valuation τ sig (Elt Ideal)) :
    val4 V (no_index (Proc.devRef .tc main_arg0)) = V (main_arg0 : DevRef τ sig) := by
  unfold val4
  simp only [opsW4]
  after_results_simp <;> exact val3_main_arg0 V

set_option maxRecDepth 8192 in
set_option maxHeartbeats 4000000 in
theorem val4_main_v3 (V : Valuation τ sig (Elt Ideal)) :
    val4 V (no_index (Proc.devRef .tc main_v3)) = Ref.meanV (Ref.X (V (main_arg0 : DevRef τ sig))) := by
  unfold val4
  simp only [opsW4]
  after_results_simp <;> exact val3_main_v3 V

set_option maxRecDepth 8192 in
set_option maxHeartbeats 4000000 in
theorem val4_main_v4 (V : Valuation τ sig (Elt Ideal)) :
    val4 V (no_index (Proc.devRef .tc main_v4)) = Ref.maxV (Ref.X (V (main_arg0 : DevRef τ sig))) := by
  unfold val4
  simp only [opsW4]
  after_results_simp <;> exact val3_main_v4 V

set_option maxRecDepth 8192 in
set_option maxHeartbeats 4000000 in
theorem val4_main_v5 (V : Valuation τ sig (Elt Ideal)) :
    val4 V (no_index (Proc.devRef .tc main_v5)) = Ref.minV (Ref.X (V (main_arg0 : DevRef τ sig))) := by
  unfold val4
  simp only [opsW4]
  after_results_simp <;> exact val3_main_v5 V

set_option maxRecDepth 8192 in
set_option maxHeartbeats 4000000 in
theorem val4_main_v6 (V : Valuation τ sig (Elt Ideal)) :
    val4 V (no_index (Proc.devRef .tc main_v6)) = Ref.p2pV (Ref.X (V (main_arg0 : DevRef τ sig))) := by
  unfold val4
  simp only [opsW4]
  after_results_simp <;> exact val3_main_v6 V

set_option maxRecDepth 8192 in
set_option maxHeartbeats 4000000 in
theorem val4_main_v11 (V : Valuation τ sig (Elt Ideal)) :
    val4 V (no_index (Proc.devRef .tc main_v11)) = Ref.rmsV (Ref.X (V (main_arg0 : DevRef τ sig))) := by
  unfold val4
  simp only [opsW4]
  after_results_simp <;> exact val3_main_v11 V

set_option maxRecDepth 8192 in
set_option maxHeartbeats 4000000 in
theorem val4_main_v12 (V : Valuation τ sig (Elt Ideal)) :
    val4 V (no_index (Proc.devRef .tc main_v12)) = Ref.varA (Ref.X (V (main_arg0 : DevRef τ sig))) := by
  unfold val4
  simp only [opsW4]
  after_results_simp <;> exact val3_main_v12 V

set_option maxRecDepth 8192 in
set_option maxHeartbeats 4000000 in
theorem val4_main_v24 (V : Valuation τ sig (Elt Ideal)) :
    val4 V (no_index (Proc.devRef .tc main_v24)) = Ref.skewV (Ref.X (V (main_arg0 : DevRef τ sig))) := by
  unfold val4
  simp only [opsW4]
  after_results_simp <;> exact val3_main_v24 V

set_option maxRecDepth 8192 in
set_option maxHeartbeats 4000000 in
theorem val4_main_v32 (V : Valuation τ sig (Elt Ideal)) :
    val4 V (no_index (Proc.devRef .tc main_v32)) = Ref.kurtV (Ref.X (V (main_arg0 : DevRef τ sig))) := by
  unfold val4
  simp only [opsW4]
  after_results_simp <;> exact val3_main_v32 V

set_option maxRecDepth 8192 in
set_option maxHeartbeats 4000000 in
theorem val4_main_v38 (V : Valuation τ sig (Elt Ideal)) :
    val4 V (no_index (Proc.devRef .tc main_v38)) = Ref.shapeV (Ref.X (V (main_arg0 : DevRef τ sig))) := by
  unfold val4
  simp only [opsW4]
  after_results_simp <;> exact val3_main_v38 V

set_option maxRecDepth 8192 in
set_option maxHeartbeats 4000000 in
theorem val4_main_v41 (V : Valuation τ sig (Elt Ideal)) :
    val4 V (no_index (Proc.devRef .tc main_v41)) = Ref.impulseV (Ref.X (V (main_arg0 : DevRef τ sig))) := by
  unfold val4
  simp only [opsW4]
  after_results_simp <;> exact val3_main_v41 V

set_option maxRecDepth 8192 in
set_option maxHeartbeats 4000000 in
theorem val4_main_v50 (V : Valuation τ sig (Elt Ideal)) :
    val4 V (no_index (Proc.devRef .tc main_v50)) = Ref.outlV (Ref.X (V (main_arg0 : DevRef τ sig))) := by
  unfold val4
  simp only [opsW4]
  after_results_simp <;> exact val3_main_v50 V

set_option maxRecDepth 8192 in
set_option maxHeartbeats 4000000 in
theorem val4_main_v58 (V : Valuation τ sig (Elt Ideal)) :
    val4 V (no_index (Proc.devRef .tc main_v58)) = Ref.zcrV (Ref.X (V (main_arg0 : DevRef τ sig))) := by
  unfold val4
  simp only [opsW4]
  after_results_simp
  all_goals (try simp only [TRef.ofBuf, TRef.toBuf, cast_eq])
  all_goals (try simp only [val3_main_v0])
  all_goals rfl

set_option maxRecDepth 8192 in
set_option maxHeartbeats 4000000 in
theorem val4_main_v59 (V : Valuation τ sig (Elt Ideal)) :
    val4 V (no_index (Proc.devRef .tc main_v59)) = Ref.diffA (Ref.X (V (main_arg0 : DevRef τ sig))) := by
  unfold val4
  simp only [opsW4]
  after_results_simp
  all_goals (try simp only [TRef.ofBuf, TRef.toBuf, cast_eq])
  all_goals (try simp only [val3_main_v0])
  all_goals rfl

set_option maxRecDepth 8192 in
set_option maxHeartbeats 4000000 in
theorem val4_main_v60 (V : Valuation τ sig (Elt Ideal)) :
    val4 V (no_index (Proc.devRef .tc main_v60)) = Ref.diffB (Ref.diffA (Ref.X (V (main_arg0 : DevRef τ sig)))) := by
  unfold val4
  simp only [opsW4]
  after_results_simp
  all_goals (try simp only [TRef.ofBuf, TRef.toBuf, cast_eq])
  all_goals (try simp only [val3_main_v0])
  all_goals rfl

/-- The buffers' contents after the first 5 stretches. -/
def val5 (V : Valuation τ sig (Elt Ideal)) : Valuation τ sig (Elt Ideal) := after (opsW5 (F := Ideal)) (val4 V)

set_option maxRecDepth 8192 in
set_option maxHeartbeats 4000000 in
theorem val5_main_arg0 (V : Valuation τ sig (Elt Ideal)) :
    val5 V (no_index (Proc.devRef .tc main_arg0)) = V (main_arg0 : DevRef τ sig) := by
  unfold val5
  simp only [opsW5]
  after_results_simp <;> exact val4_main_arg0 V

set_option maxRecDepth 8192 in
set_option maxHeartbeats 4000000 in
theorem val5_main_v3 (V : Valuation τ sig (Elt Ideal)) :
    val5 V (no_index (Proc.devRef .tc main_v3)) = Ref.meanV (Ref.X (V (main_arg0 : DevRef τ sig))) := by
  unfold val5
  simp only [opsW5]
  after_results_simp <;> exact val4_main_v3 V

set_option maxRecDepth 8192 in
set_option maxHeartbeats 4000000 in
theorem val5_main_v4 (V : Valuation τ sig (Elt Ideal)) :
    val5 V (no_index (Proc.devRef .tc main_v4)) = Ref.maxV (Ref.X (V (main_arg0 : DevRef τ sig))) := by
  unfold val5
  simp only [opsW5]
  after_results_simp <;> exact val4_main_v4 V

set_option maxRecDepth 8192 in
set_option maxHeartbeats 4000000 in
theorem val5_main_v5 (V : Valuation τ sig (Elt Ideal)) :
    val5 V (no_index (Proc.devRef .tc main_v5)) = Ref.minV (Ref.X (V (main_arg0 : DevRef τ sig))) := by
  unfold val5
  simp only [opsW5]
  after_results_simp <;> exact val4_main_v5 V

set_option maxRecDepth 8192 in
set_option maxHeartbeats 4000000 in
theorem val5_main_v6 (V : Valuation τ sig (Elt Ideal)) :
    val5 V (no_index (Proc.devRef .tc main_v6)) = Ref.p2pV (Ref.X (V (main_arg0 : DevRef τ sig))) := by
  unfold val5
  simp only [opsW5]
  after_results_simp <;> exact val4_main_v6 V

set_option maxRecDepth 8192 in
set_option maxHeartbeats 4000000 in
theorem val5_main_v11 (V : Valuation τ sig (Elt Ideal)) :
    val5 V (no_index (Proc.devRef .tc main_v11)) = Ref.rmsV (Ref.X (V (main_arg0 : DevRef τ sig))) := by
  unfold val5
  simp only [opsW5]
  after_results_simp <;> exact val4_main_v11 V

set_option maxRecDepth 8192 in
set_option maxHeartbeats 4000000 in
theorem val5_main_v12 (V : Valuation τ sig (Elt Ideal)) :
    val5 V (no_index (Proc.devRef .tc main_v12)) = Ref.varA (Ref.X (V (main_arg0 : DevRef τ sig))) := by
  unfold val5
  simp only [opsW5]
  after_results_simp <;> exact val4_main_v12 V

set_option maxRecDepth 8192 in
set_option maxHeartbeats 4000000 in
theorem val5_main_v24 (V : Valuation τ sig (Elt Ideal)) :
    val5 V (no_index (Proc.devRef .tc main_v24)) = Ref.skewV (Ref.X (V (main_arg0 : DevRef τ sig))) := by
  unfold val5
  simp only [opsW5]
  after_results_simp <;> exact val4_main_v24 V

set_option maxRecDepth 8192 in
set_option maxHeartbeats 4000000 in
theorem val5_main_v32 (V : Valuation τ sig (Elt Ideal)) :
    val5 V (no_index (Proc.devRef .tc main_v32)) = Ref.kurtV (Ref.X (V (main_arg0 : DevRef τ sig))) := by
  unfold val5
  simp only [opsW5]
  after_results_simp <;> exact val4_main_v32 V

set_option maxRecDepth 8192 in
set_option maxHeartbeats 4000000 in
theorem val5_main_v38 (V : Valuation τ sig (Elt Ideal)) :
    val5 V (no_index (Proc.devRef .tc main_v38)) = Ref.shapeV (Ref.X (V (main_arg0 : DevRef τ sig))) := by
  unfold val5
  simp only [opsW5]
  after_results_simp <;> exact val4_main_v38 V

set_option maxRecDepth 8192 in
set_option maxHeartbeats 4000000 in
theorem val5_main_v41 (V : Valuation τ sig (Elt Ideal)) :
    val5 V (no_index (Proc.devRef .tc main_v41)) = Ref.impulseV (Ref.X (V (main_arg0 : DevRef τ sig))) := by
  unfold val5
  simp only [opsW5]
  after_results_simp <;> exact val4_main_v41 V

set_option maxRecDepth 8192 in
set_option maxHeartbeats 4000000 in
theorem val5_main_v50 (V : Valuation τ sig (Elt Ideal)) :
    val5 V (no_index (Proc.devRef .tc main_v50)) = Ref.outlV (Ref.X (V (main_arg0 : DevRef τ sig))) := by
  unfold val5
  simp only [opsW5]
  after_results_simp <;> exact val4_main_v50 V

set_option maxRecDepth 8192 in
set_option maxHeartbeats 4000000 in
theorem val5_main_v58 (V : Valuation τ sig (Elt Ideal)) :
    val5 V (no_index (Proc.devRef .tc main_v58)) = Ref.zcrV (Ref.X (V (main_arg0 : DevRef τ sig))) := by
  unfold val5
  simp only [opsW5]
  after_results_simp <;> exact val4_main_v58 V

set_option maxRecDepth 8192 in
set_option maxHeartbeats 4000000 in
theorem val5_main_v60 (V : Valuation τ sig (Elt Ideal)) :
    val5 V (no_index (Proc.devRef .tc main_v60)) = Ref.diffB (Ref.diffA (Ref.X (V (main_arg0 : DevRef τ sig)))) := by
  unfold val5
  simp only [opsW5]
  after_results_simp <;> exact val4_main_v60 V

set_option maxRecDepth 8192 in
set_option maxHeartbeats 4000000 in
theorem val5_main_v61 (V : Valuation τ sig (Elt Ideal)) :
    val5 V (no_index (Proc.devRef .tc main_v61)) = Ref.varB (Ref.diffA (Ref.X (V (main_arg0 : DevRef τ sig)))) := by
  unfold val5
  simp only [opsW5]
  after_results_simp
  all_goals (try simp only [TRef.ofBuf, TRef.toBuf, cast_eq])
  all_goals (try simp only [val4_main_v59])
  all_goals rfl

/-- The buffers' contents after the first 6 stretches. -/
def val6 (V : Valuation τ sig (Elt Ideal)) : Valuation τ sig (Elt Ideal) := after (opsW6 (F := Ideal)) (val5 V)

set_option maxRecDepth 8192 in
set_option maxHeartbeats 4000000 in
theorem val6_main_arg0 (V : Valuation τ sig (Elt Ideal)) :
    val6 V (no_index (Proc.devRef .tc main_arg0)) = V (main_arg0 : DevRef τ sig) := by
  unfold val6
  simp only [opsW6]
  after_results_simp <;> exact val5_main_arg0 V

set_option maxRecDepth 8192 in
set_option maxHeartbeats 4000000 in
theorem val6_main_v3 (V : Valuation τ sig (Elt Ideal)) :
    val6 V (no_index (Proc.devRef .tc main_v3)) = Ref.meanV (Ref.X (V (main_arg0 : DevRef τ sig))) := by
  unfold val6
  simp only [opsW6]
  after_results_simp <;> exact val5_main_v3 V

set_option maxRecDepth 8192 in
set_option maxHeartbeats 4000000 in
theorem val6_main_v4 (V : Valuation τ sig (Elt Ideal)) :
    val6 V (no_index (Proc.devRef .tc main_v4)) = Ref.maxV (Ref.X (V (main_arg0 : DevRef τ sig))) := by
  unfold val6
  simp only [opsW6]
  after_results_simp <;> exact val5_main_v4 V

set_option maxRecDepth 8192 in
set_option maxHeartbeats 4000000 in
theorem val6_main_v5 (V : Valuation τ sig (Elt Ideal)) :
    val6 V (no_index (Proc.devRef .tc main_v5)) = Ref.minV (Ref.X (V (main_arg0 : DevRef τ sig))) := by
  unfold val6
  simp only [opsW6]
  after_results_simp <;> exact val5_main_v5 V

set_option maxRecDepth 8192 in
set_option maxHeartbeats 4000000 in
theorem val6_main_v6 (V : Valuation τ sig (Elt Ideal)) :
    val6 V (no_index (Proc.devRef .tc main_v6)) = Ref.p2pV (Ref.X (V (main_arg0 : DevRef τ sig))) := by
  unfold val6
  simp only [opsW6]
  after_results_simp <;> exact val5_main_v6 V

set_option maxRecDepth 8192 in
set_option maxHeartbeats 4000000 in
theorem val6_main_v11 (V : Valuation τ sig (Elt Ideal)) :
    val6 V (no_index (Proc.devRef .tc main_v11)) = Ref.rmsV (Ref.X (V (main_arg0 : DevRef τ sig))) := by
  unfold val6
  simp only [opsW6]
  after_results_simp <;> exact val5_main_v11 V

set_option maxRecDepth 8192 in
set_option maxHeartbeats 4000000 in
theorem val6_main_v12 (V : Valuation τ sig (Elt Ideal)) :
    val6 V (no_index (Proc.devRef .tc main_v12)) = Ref.varA (Ref.X (V (main_arg0 : DevRef τ sig))) := by
  unfold val6
  simp only [opsW6]
  after_results_simp <;> exact val5_main_v12 V

set_option maxRecDepth 8192 in
set_option maxHeartbeats 4000000 in
theorem val6_main_v24 (V : Valuation τ sig (Elt Ideal)) :
    val6 V (no_index (Proc.devRef .tc main_v24)) = Ref.skewV (Ref.X (V (main_arg0 : DevRef τ sig))) := by
  unfold val6
  simp only [opsW6]
  after_results_simp <;> exact val5_main_v24 V

set_option maxRecDepth 8192 in
set_option maxHeartbeats 4000000 in
theorem val6_main_v32 (V : Valuation τ sig (Elt Ideal)) :
    val6 V (no_index (Proc.devRef .tc main_v32)) = Ref.kurtV (Ref.X (V (main_arg0 : DevRef τ sig))) := by
  unfold val6
  simp only [opsW6]
  after_results_simp <;> exact val5_main_v32 V

set_option maxRecDepth 8192 in
set_option maxHeartbeats 4000000 in
theorem val6_main_v38 (V : Valuation τ sig (Elt Ideal)) :
    val6 V (no_index (Proc.devRef .tc main_v38)) = Ref.shapeV (Ref.X (V (main_arg0 : DevRef τ sig))) := by
  unfold val6
  simp only [opsW6]
  after_results_simp <;> exact val5_main_v38 V

set_option maxRecDepth 8192 in
set_option maxHeartbeats 4000000 in
theorem val6_main_v41 (V : Valuation τ sig (Elt Ideal)) :
    val6 V (no_index (Proc.devRef .tc main_v41)) = Ref.impulseV (Ref.X (V (main_arg0 : DevRef τ sig))) := by
  unfold val6
  simp only [opsW6]
  after_results_simp <;> exact val5_main_v41 V

set_option maxRecDepth 8192 in
set_option maxHeartbeats 4000000 in
theorem val6_main_v50 (V : Valuation τ sig (Elt Ideal)) :
    val6 V (no_index (Proc.devRef .tc main_v50)) = Ref.outlV (Ref.X (V (main_arg0 : DevRef τ sig))) := by
  unfold val6
  simp only [opsW6]
  after_results_simp <;> exact val5_main_v50 V

set_option maxRecDepth 8192 in
set_option maxHeartbeats 4000000 in
theorem val6_main_v58 (V : Valuation τ sig (Elt Ideal)) :
    val6 V (no_index (Proc.devRef .tc main_v58)) = Ref.zcrV (Ref.X (V (main_arg0 : DevRef τ sig))) := by
  unfold val6
  simp only [opsW6]
  after_results_simp <;> exact val5_main_v58 V

set_option maxRecDepth 8192 in
set_option maxHeartbeats 4000000 in
theorem val6_main_v61 (V : Valuation τ sig (Elt Ideal)) :
    val6 V (no_index (Proc.devRef .tc main_v61)) = Ref.varB (Ref.diffA (Ref.X (V (main_arg0 : DevRef τ sig)))) := by
  unfold val6
  simp only [opsW6]
  after_results_simp <;> exact val5_main_v61 V

set_option maxRecDepth 8192 in
set_option maxHeartbeats 4000000 in
theorem val6_main_v62 (V : Valuation τ sig (Elt Ideal)) :
    val6 V (no_index (Proc.devRef .tc main_v62)) = Ref.varC (Ref.diffB (Ref.diffA (Ref.X (V (main_arg0 : DevRef τ sig))))) := by
  unfold val6
  simp only [opsW6]
  after_results_simp
  all_goals (try simp only [TRef.ofBuf, TRef.toBuf, cast_eq])
  all_goals (try simp only [val5_main_v60])
  all_goals rfl

/-- The buffers' contents after the first 7 stretches. -/
def val7 (V : Valuation τ sig (Elt Ideal)) : Valuation τ sig (Elt Ideal) := after (opsW7 (F := Ideal)) (val6 V)

set_option maxRecDepth 8192 in
set_option maxHeartbeats 4000000 in
theorem val7_main_arg0 (V : Valuation τ sig (Elt Ideal)) :
    val7 V (no_index (Proc.devRef .tc main_arg0)) = V (main_arg0 : DevRef τ sig) := by
  unfold val7
  simp only [opsW7]
  after_results_simp <;> exact val6_main_arg0 V

set_option maxRecDepth 8192 in
set_option maxHeartbeats 4000000 in
theorem val7_main_v67 (V : Valuation τ sig (Elt Ideal)) :
    val7 V (Proc.devRef .tc main_v67) = Ref.cols (Ref.X (V (main_arg0 : DevRef τ sig))) 0 := by
  unfold val7
  simp only [opsW7]
  after_results_simp
  all_goals (try simp only [TRef.ofBuf, TRef.toBuf, cast_eq])
  all_goals (try simp only [val6_main_v3])
  all_goals rfl

set_option maxRecDepth 8192 in
set_option maxHeartbeats 4000000 in
theorem val7_main_v68 (V : Valuation τ sig (Elt Ideal)) :
    val7 V (Proc.devRef .tc main_v68) = Ref.cols (Ref.X (V (main_arg0 : DevRef τ sig))) 1 := by
  unfold val7
  simp only [opsW7]
  after_results_simp
  all_goals (try simp only [TRef.ofBuf, TRef.toBuf, cast_eq])
  all_goals (try simp only [val6_main_v4])
  all_goals rfl

set_option maxRecDepth 8192 in
set_option maxHeartbeats 4000000 in
theorem val7_main_v69 (V : Valuation τ sig (Elt Ideal)) :
    val7 V (Proc.devRef .tc main_v69) = Ref.cols (Ref.X (V (main_arg0 : DevRef τ sig))) 2 := by
  unfold val7
  simp only [opsW7]
  after_results_simp
  all_goals (try simp only [TRef.ofBuf, TRef.toBuf, cast_eq])
  all_goals (try simp only [val6_main_v5])
  all_goals rfl

set_option maxRecDepth 8192 in
set_option maxHeartbeats 4000000 in
theorem val7_main_v70 (V : Valuation τ sig (Elt Ideal)) :
    val7 V (Proc.devRef .tc main_v70) = Ref.cols (Ref.X (V (main_arg0 : DevRef τ sig))) 3 := by
  unfold val7
  simp only [opsW7]
  after_results_simp
  all_goals (try simp only [TRef.ofBuf, TRef.toBuf, cast_eq])
  all_goals (try simp only [val6_main_v6])
  all_goals rfl

set_option maxRecDepth 8192 in
set_option maxHeartbeats 4000000 in
theorem val7_main_v71 (V : Valuation τ sig (Elt Ideal)) :
    val7 V (Proc.devRef .tc main_v71) = Ref.cols (Ref.X (V (main_arg0 : DevRef τ sig))) 4 := by
  unfold val7
  simp only [opsW7]
  after_results_simp
  all_goals (try simp only [TRef.ofBuf, TRef.toBuf, cast_eq])
  all_goals (try simp only [val6_main_v12])
  all_goals rfl

set_option maxRecDepth 8192 in
set_option maxHeartbeats 4000000 in
theorem val7_main_v72 (V : Valuation τ sig (Elt Ideal)) :
    val7 V (Proc.devRef .tc main_v72) = Ref.cols (Ref.X (V (main_arg0 : DevRef τ sig))) 5 := by
  unfold val7
  simp only [opsW7]
  after_results_simp
  all_goals (try simp only [TRef.ofBuf, TRef.toBuf, cast_eq])
  all_goals (try simp only [val6_main_v11])
  all_goals rfl

set_option maxRecDepth 8192 in
set_option maxHeartbeats 4000000 in
theorem val7_main_v73 (V : Valuation τ sig (Elt Ideal)) :
    val7 V (Proc.devRef .tc main_v73) = Ref.cols (Ref.X (V (main_arg0 : DevRef τ sig))) 6 := by
  unfold val7
  simp only [opsW7]
  after_results_simp
  all_goals (try simp only [TRef.ofBuf, TRef.toBuf, cast_eq])
  all_goals (try simp only [val6_main_v24])
  all_goals rfl

set_option maxRecDepth 8192 in
set_option maxHeartbeats 4000000 in
theorem val7_main_v74 (V : Valuation τ sig (Elt Ideal)) :
    val7 V (Proc.devRef .tc main_v74) = Ref.cols (Ref.X (V (main_arg0 : DevRef τ sig))) 7 := by
  unfold val7
  simp only [opsW7]
  after_results_simp
  all_goals (try simp only [TRef.ofBuf, TRef.toBuf, cast_eq])
  all_goals (try simp only [val6_main_v32])
  all_goals rfl

set_option maxRecDepth 8192 in
set_option maxHeartbeats 4000000 in
theorem val7_main_v75 (V : Valuation τ sig (Elt Ideal)) :
    val7 V (Proc.devRef .tc main_v75) = Ref.cols (Ref.X (V (main_arg0 : DevRef τ sig))) 8 := by
  unfold val7
  simp only [opsW7]
  after_results_simp
  all_goals (try simp only [TRef.ofBuf, TRef.toBuf, cast_eq])
  all_goals (try simp only [val6_main_v38])
  all_goals rfl

set_option maxRecDepth 8192 in
set_option maxHeartbeats 4000000 in
theorem val7_main_v76 (V : Valuation τ sig (Elt Ideal)) :
    val7 V (Proc.devRef .tc main_v76) = Ref.cols (Ref.X (V (main_arg0 : DevRef τ sig))) 9 := by
  unfold val7
  simp only [opsW7]
  after_results_simp
  all_goals (try simp only [TRef.ofBuf, TRef.toBuf, cast_eq])
  all_goals (try simp only [val6_main_v41])
  all_goals rfl

set_option maxRecDepth 8192 in
set_option maxHeartbeats 4000000 in
theorem val7_main_v77 (V : Valuation τ sig (Elt Ideal)) :
    val7 V (Proc.devRef .tc main_v77) = Ref.cols (Ref.X (V (main_arg0 : DevRef τ sig))) 10 := by
  unfold val7
  simp only [opsW7]
  after_results_simp
  all_goals (try simp only [TRef.ofBuf, TRef.toBuf, cast_eq])
  all_goals (try simp only [val6_main_v50])
  all_goals rfl

set_option maxRecDepth 8192 in
set_option maxHeartbeats 4000000 in
theorem val7_main_v78 (V : Valuation τ sig (Elt Ideal)) :
    val7 V (Proc.devRef .tc main_v78) = Ref.cols (Ref.X (V (main_arg0 : DevRef τ sig))) 11 := by
  unfold val7
  simp only [opsW7]
  after_results_simp
  all_goals (try simp only [TRef.ofBuf, TRef.toBuf, cast_eq])
  all_goals (try simp only [val6_main_v58])
  all_goals rfl

set_option maxRecDepth 8192 in
set_option maxHeartbeats 4000000 in
theorem val7_main_v79 (V : Valuation τ sig (Elt Ideal)) :
    val7 V (Proc.devRef .tc main_v79) = Ref.cols (Ref.X (V (main_arg0 : DevRef τ sig))) 12 := by
  unfold val7
  simp only [opsW7]
  after_results_simp
  all_goals (try simp only [TRef.ofBuf, TRef.toBuf, cast_eq])
  all_goals (try simp only [val6_main_v12])
  all_goals rfl

set_option maxRecDepth 8192 in
set_option maxHeartbeats 4000000 in
theorem val7_main_v80 (V : Valuation τ sig (Elt Ideal)) :
    val7 V (Proc.devRef .tc main_v80) = Ref.cols (Ref.X (V (main_arg0 : DevRef τ sig))) 13 := by
  unfold val7
  simp only [opsW7]
  after_results_simp
  all_goals (try simp only [TRef.ofBuf, TRef.toBuf, cast_eq])
  all_goals (try simp only [val6_main_v12, val6_main_v61])
  all_goals rfl

set_option maxRecDepth 8192 in
set_option maxHeartbeats 4000000 in
theorem val7_main_v81 (V : Valuation τ sig (Elt Ideal)) :
    val7 V (Proc.devRef .tc main_v81) = Ref.cols (Ref.X (V (main_arg0 : DevRef τ sig))) 14 := by
  unfold val7
  simp only [opsW7]
  after_results_simp
  all_goals (try simp only [TRef.ofBuf, TRef.toBuf, cast_eq])
  all_goals (try simp only [val6_main_v61, val6_main_v62])
  all_goals rfl

/-- The buffers' contents after the first 8 stretches. -/
def val8 (V : Valuation τ sig (Elt Ideal)) : Valuation τ sig (Elt Ideal) := after (opsW8 (F := Ideal)) (val7 V)

set_option maxRecDepth 8192 in
set_option maxHeartbeats 4000000 in
theorem val8_main_arg0 (V : Valuation τ sig (Elt Ideal)) :
    val8 V (no_index (Proc.devRef .tc main_arg0)) = V (main_arg0 : DevRef τ sig) := by
  unfold val8
  simp only [opsW8]
  after_results_simp <;> exact val7_main_arg0 V

set_option maxRecDepth 8192 in
set_option maxHeartbeats 4000000 in
theorem val8_main_v82 (V : Valuation τ sig (Elt Ideal)) :
    val8 V (no_index (Proc.devRef .tc main_v82)) = Ref.refOut (V (main_arg0 : DevRef τ sig)) := by
  unfold val8
  simp only [opsW8]
  simp only [after_cons, after_nil]
  rw [nary_result]
  show cat15 (val7 V (Proc.devRef .tc main_v67)) (val7 V (Proc.devRef .tc main_v68)) (val7 V (Proc.devRef .tc main_v69)) (val7 V (Proc.devRef .tc main_v70)) (val7 V (Proc.devRef .tc main_v71)) (val7 V (Proc.devRef .tc main_v72)) (val7 V (Proc.devRef .tc main_v73)) (val7 V (Proc.devRef .tc main_v74)) (val7 V (Proc.devRef .tc main_v75)) (val7 V (Proc.devRef .tc main_v76)) (val7 V (Proc.devRef .tc main_v77)) (val7 V (Proc.devRef .tc main_v78)) (val7 V (Proc.devRef .tc main_v79)) (val7 V (Proc.devRef .tc main_v80)) (val7 V (Proc.devRef .tc main_v81)) = _
  rw [val7_main_v67 V, val7_main_v68 V, val7_main_v69 V, val7_main_v70 V, val7_main_v71 V, val7_main_v72 V, val7_main_v73 V, val7_main_v74 V, val7_main_v75 V, val7_main_v76 V, val7_main_v77 V, val7_main_v78 V, val7_main_v79 V, val7_main_v80 V, val7_main_v81 V]
  rfl

/-- The fold over the whole list is the stretches in a row. -/
theorem after_ops (V : Valuation τ sig (Elt Ideal)) : after (ops (F := Ideal)) V = val8 V := by
  simp only [ops, after_app]
  rfl

/-- The reference's run: every weakly fair execution of @main terminates with the result array at refOut of the
    argument array, the argument unchanged. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v82) = Ref.refOut (m ((c.tc : Thread nD τ).loc main_arg0))
      ∧ r.2.mem ((c.tc : Thread nD τ).loc main_arg0) = m ((c.tc : Thread nD τ).loc main_arg0) :=
  (θ_run defs _ _).mono (fun _ h c =>
      ⟨(h c main_v82).trans ((congrFun (after_ops _) _).trans (val8_main_v82 _)),
        (h c main_arg0).trans ((congrFun (after_ops _) _).trans (val8_main_arg0 _))⟩)
    (run_main m ρ)

end Cert.ReferenceIdeal.Run

end
-- ==== Proof.RefRowsA.lean ====
import proofs.«138518_j60224031425109_1_alg».proof.Proof.RefDefs
import proofs.«138518_j60224031425109_1_alg».proof.Proof.LibRows
import proofs.«138518_j60224031425109_1_alg».proof.Proof.LibColumn
import proofs.«138518_j60224031425109_1_alg».proof.Proof.Consts
import Idealize.ShloMosaic.Lib.StableHlo.Predicate

noncomputable section

open scoped BigOperators

namespace Cert.ReferenceIdeal.Ref

open Cert.ReferenceIdeal Cert.ReferenceIdeal.Gen Idealize.ShloMosaic Idealize.ShloMosaic.ValueIdx Cert.Stats
open Idealize.ShloMosaic.Rows Idealize.ShloMosaic.Column

/-- Row r of the matrix of signals; of a matrix of first differences (2559 columns); of second differences (2558). -/
abbrev rowX (x : FVec Ideal S16384x2560 .f32) (r : Fin 16384) : Fin 2560 → EReal := fun k => x (ix2 r k)
abbrev rowY (y : FVec Ideal S16384x2559 .f32) (r : Fin 16384) : Fin 2559 → EReal := fun k => y (ix2 r k)
abbrev rowZ (z : FVec Ideal S16384x2558 .f32) (r : Fin 16384) : Fin 2558 → EReal := fun k => z (ix2 r k)

variable (x : FVec Ideal S16384x2560 .f32) (r : Fin 16384)

/-- The host's quotient and root read at an index; a scalar constant at its one index. -/
private theorem hdivf_apply {s : Shape} {φ : FTy} (a b : FVec Ideal s φ) (i : s.Idx) :
    Host.divf a b i = Ideal.div (a i) (b i) := rfl
private theorem hsqrt_apply {s : Shape} {φ : FTy} (a : FVec Ideal s φ) (i : s.Idx) :
    Host.sqrt a i = Ideal.sqrt (a i) := rfl
private theorem K_ix0 (w : BitVec 32) : K w ix0 = lit w := rfl

/-- Row sums. -/
theorem sum0_row (y : FVec Ideal S16384x2560 .f32) : sum0 y (ix1 r) = ∑ k, y (ix2 r k) := by
  refine (hredAdd_row y (K 0x00000000#32) reducesTo_S16384x2560_S16384_d1 (by decide) h_S_ r).trans ?_
  show lit 0x00000000#32 + _ = _
  rw [Consts.lit_zero, zero_add]
theorem sum1_row (y : FVec Ideal S16384x2559 .f32) : sum1 y (ix1 r) = ∑ k, y (ix2 r k) := by
  refine (hredAdd_row y (K 0x00000000#32) reducesTo_S16384x2559_S16384_d1 (by decide) h_S_ r).trans ?_
  show lit 0x00000000#32 + _ = _
  rw [Consts.lit_zero, zero_add]
theorem sum2_row (y : FVec Ideal S16384x2558 .f32) : sum2 y (ix1 r) = ∑ k, y (ix2 r k) := by
  refine (hredAdd_row y (K 0x00000000#32) reducesTo_S16384x2558_S16384_d1 (by decide) h_S_ r).trans ?_
  show lit 0x00000000#32 + _ = _
  rw [Consts.lit_zero, zero_add]
/-- A scalar spread over the rows; a vector as a column; a column spread over the matrices. -/
theorem bV_row (s : FVec Ideal S_ .f32) : bV s (ix1 r) = s ix0 :=
  (StableHlo.Predicate.bcast_scalar bcast_S_S16384 h_S_ s (ix1 r)).trans (congrArg s (eq_ix0 _))
theorem bC_row (s : FVec Ideal S_ .f32) : bC s (ix2 r (0 : Fin 1)) = s ix0 :=
  (StableHlo.Predicate.bcast_scalar bcast_S_S16384x1 h_S_ s (ix2 r (0 : Fin 1))).trans (congrArg s (eq_ix0 _))
theorem col_row (v : FVec Ideal S16384 .f32) : col v (ix2 r (0 : Fin 1)) = v (ix1 r) :=
  broadcastInDim_a_a1_apply v ![0] rfl bcast_S16384_S16384x1_0 r (0 : Fin 1)
theorem spread0_row (v : FVec Ideal S16384x1 .f32) (k : Fin 2560) : spread0 v (ix2 r k) = v (ix2 r (0 : Fin 1)) :=
  broadcastInDim_a1_ab_apply (by decide) v ![0, 1] rfl rfl bcast_S16384x1_S16384x2560_0_1 r k
theorem spread1_row (v : FVec Ideal S16384x1 .f32) (k : Fin 2559) : spread1 v (ix2 r k) = v (ix2 r (0 : Fin 1)) :=
  broadcastInDim_a1_ab_apply (by decide) v ![0, 1] rfl rfl bcast_S16384x1_S16384x2559_0_1 r k
theorem spread2_row (v : FVec Ideal S16384x1 .f32) (k : Fin 2558) : spread2 v (ix2 r k) = v (ix2 r (0 : Fin 1)) :=
  broadcastInDim_a1_ab_apply (by decide) v ![0, 1] rfl rfl bcast_S16384x1_S16384x2558_0_1 r k

/-- Mean, extremes, peak to peak, root mean square. -/
theorem meanV_row : meanV x (ix1 r) = mean (rowX x r) := by
  show Ideal.div (sum0 x (ix1 r)) (bV (K W0) (ix1 r)) = Ideal.div (∑ k, x (ix2 r k)) (lit W0)
  rw [sum0_row, bV_row]
  rfl
theorem maxV_row : maxV x (ix1 r) = hi (rowX x r) :=
  hredMax_row x (K 0xFF800000#32) reducesTo_S16384x2560_S16384_d1 (by decide) h_S_ r
theorem minV_row : minV x (ix1 r) = lo (rowX x r) :=
  hredMin_row x (K 0x7F800000#32) reducesTo_S16384x2560_S16384_d1 (by decide) h_S_ r
theorem p2pV_row : p2pV x (ix1 r) = hi (rowX x r) - lo (rowX x r) := by
  unfold p2pV
  rw [subf_apply, maxV_row, minV_row]
theorem rmsV_row : rmsV x (ix1 r) = rms (rowX x r) := by
  show Ideal.sqrt (Ideal.div (sum0 (mulf x x) (ix1 r)) (bV (K W0) (ix1 r))) = _
  rw [sum0_row, bV_row]
  rfl
/-- The centred rows (both of the reference's computations of them), the guarded variance, its root. -/
theorem centA_row (k : Fin 2560) : centA x (ix2 r k) = dev W0 (rowX x r) k := by
  unfold centA dev avg
  rw [subf_apply, spread0_row, hdivf_apply, col_row, bC_row, sum0_row, K_ix0]
theorem centM_row (k : Fin 2560) : centM x (ix2 r k) = dev W0 (rowX x r) k := by
  unfold centM dev
  rw [subf_apply, spread0_row, col_row, meanV_row]
  unfold mean
  rfl
theorem whereV_row (pred : IVec S_ 1) (a : FVec Ideal S16384 .f32) (other : FVec Ideal S_ .f32) (hp : pred ix0 = 1#1) :
    whereV pred a other (ix1 r) = a (ix1 r) := by
  unfold whereV
  rw [select_apply, StableHlo.Predicate.bcast_scalar bcast_S_S16384 h_S_ pred (ix1 r), eq_ix0 (Shape.Idx.first h_S_), hp,
    select_one]
theorem varA_row : varA x (ix1 r) = var (rowX x r) := by
  have hd : ddof W0 ix0 = lit W1 := by
    unfold ddof
    rw [subf_apply, K_ix0, sitofp_apply]
    exact Consts.W0_sub_one
  have hp : cmpf .ogt (ddof W0) (K 0x00000000#32) ix0 = 1#1 := by
    rw [cmpf_apply, hd, K_ix0]
    exact Consts.W1_pos
  unfold varA
  rw [whereV_row r _ _ _ hp, hdivf_apply, sum0_row, bV_row, hd]
  unfold var spread avg
  refine congrArg (fun t => Ideal.div t (lit W1)) (Finset.sum_congr rfl fun k _ => ?_)
  rw [mulf_apply, centA_row]
theorem stdV_row : stdV x (ix1 r) = std (rowX x r) := by
  unfold stdV std
  rw [hsqrt_apply, varA_row]
/-- Skewness and kurtosis (the reference's fourth power of the deviation is (s·s)·(s·s)). -/
theorem skewV_row : skewV x (ix1 r) = skew (rowX x r) := by
  unfold skewV skew avg
  rw [hdivf_apply, hdivf_apply, sum0_row, bV_row, K_ix0, mulf_apply, mulf_apply, stdV_row]
  refine congrArg (fun t => Ideal.div (Ideal.div t (lit W0)) ((std (rowX x r) * std (rowX x r)) * std (rowX x r)))
    (Finset.sum_congr rfl fun k _ => ?_)
  rw [mulf_apply, mulf_apply, centM_row]
theorem kurtV_row : kurtV x (ix1 r) = kurt (rowX x r) := by
  unfold kurtV kurt avg
  rw [hdivf_apply, hdivf_apply, sum0_row, bV_row, K_ix0, mulf_apply, mulf_apply, stdV_row,
    ← mul_assoc (std (rowX x r) * std (rowX x r)) (std (rowX x r)) (std (rowX x r))]
  refine congrArg
    (fun t => Ideal.div (Ideal.div t (lit W0)) (((std (rowX x r) * std (rowX x r)) * std (rowX x r)) * std (rowX x r)))
    (Finset.sum_congr rfl fun k _ => ?_)
  rw [mulf_apply, mulf_apply, centM_row]

end Cert.ReferenceIdeal.Ref

end
-- ==== Proof.RefRowsB.lean ====
import proofs.«138518_j60224031425109_1_alg».proof.Proof.RefDefs
import proofs.«138518_j60224031425109_1_alg».proof.Proof.LibRows
import proofs.«138518_j60224031425109_1_alg».proof.Proof.LibColumn
import proofs.«138518_j60224031425109_1_alg».proof.Proof.Consts
import proofs.«138518_j60224031425109_1_alg».proof.Proof.RefRowsA
import Idealize.ShloMosaic.Lib.StableHlo.Predicate

noncomputable section

open scoped BigOperators

namespace Cert.ReferenceIdeal.Ref

open Cert.ReferenceIdeal Cert.ReferenceIdeal.Gen Idealize.ShloMosaic Idealize.ShloMosaic.ValueIdx Cert.Stats
open Idealize.ShloMosaic.Rows Idealize.ShloMosaic.Column

variable (x : FVec Ideal S16384x2560 .f32) (r : Fin 16384)

/-- Host operations read at an index, and a scalar constant read at its one index. -/
private theorem hostDivf_at {s : Shape} (a b : FVec Ideal s .f32) (i : s.Idx) :
    Host.divf a b i = Ideal.div (a i) (b i) := rfl
private theorem hostAbsf_at {s : Shape} (a : FVec Ideal s .f32) (i : s.Idx) : Host.absf a i = mag (a i) := rfl
private theorem hostSign_at {s : Shape} (a : FVec Ideal s .f32) (i : s.Idx) : Host.sign a i = Ideal.sign (a i) := rfl
private theorem uitofp_at {s : Shape} (m : IVec s 1) (i : s.Idx) :
    (uitofp .f32 m : FVec Ideal s .f32) i = bit (m i) := rfl
private theorem K_at (w : BitVec 32) : K w ix0 = lit w := rfl
/-- The two spellings of "not equal" are one test. -/
private theorem cmp_une_one (a b : EReal) : Ideal.cmp .une a b = Ideal.cmp .one a b := rfl
/-- A signed conversion of a word is its signed value. -/
private theorem sitofp_word (w : BitVec 32) : (FloatOps.sitofp (F := Ideal) .f32 w : EReal) = ((w.toInt : ℝ) : EReal) := rfl

/-- The coercion of a finite sum of reals is the sum of the coercions. -/
private theorem coe_sum_real {ι : Type} (s : Finset ι) (f : ι → ℝ) :
    ((∑ i ∈ s, f i : ℝ) : EReal) = ∑ i ∈ s, (f i : EReal) := by
  classical
  refine Finset.induction_on s (by simp) fun a s ha ih => ?_
  rw [Finset.sum_insert ha, Finset.sum_insert ha, EReal.coe_add, ih]

/-- A set bit counts one, a clear bit nothing. -/
private theorem ite_bit (b : BitVec 1) : (((if b = 1#1 then 1 else 0 : ℕ) : ℝ) : EReal) = bit b := by
  rcases BitVec.eq_zero_or_eq_one b with rfl | rfl <;> simp [bit]

/-- The two constructors of the index (row p, column q) agree. -/
private theorem ij_eq (p : Fin 16384) (q : Fin 2560) : StableHlo.Predicate.ij p q = ix2 p q := by
  funext a
  match a with
  | ⟨0, _⟩ => rfl
  | ⟨1, _⟩ => rfl

/-- Sum and maximum of magnitudes; shape and impulse factors. -/
theorem absSumV_row : absSumV x (ix1 r) = absSum (rowX x r) := by
  unfold absSumV
  rw [sum0_row]
  rfl
set_option backward.isDefEq.respectTransparency.types false in
theorem absMaxV_row : absMaxV x (ix1 r) = absMax (rowX x r) := by
  unfold absMaxV
  rw [hredMax_row (Host.absf x) (K 0xFF800000#32) reducesTo_S16384x2560_S16384_d1 (by decide) h_S_ r]
  rfl
theorem shapeV_row : shapeV x (ix1 r) = shapeFactor (rowX x r) := by
  unfold shapeV shapeFactor
  rw [hostDivf_at, mulf_apply, rmsV_row, bV_row, absSumV_row, K_at]
theorem impulseV_row : impulseV x (ix1 r) = impulseFactor (rowX x r) := by
  unfold impulseV impulseFactor
  rw [hostDivf_at, mulf_apply, absMaxV_row, bV_row, absSumV_row, K_at]
/-- The threshold, three standard deviations; the count of samples beyond it (an integer sum, converted). -/
theorem thrV_row (k : Fin 2560) : thrV x (ix2 r k) = lit Wthree * std (rowX x r) := by
  unfold thrV
  rw [spread0_row, mulf_apply, bC_row, col_row, stdV_row, K_at]

theorem outlV_row : outlV x (ix1 r) = outliers (rowX x r) := by
  classical
  unfold outlV outliers
  rw [sitofp_apply, sitofp_word]
  have hcount := StableHlo.Predicate.toNat_reduce_count_cols (n := 16384) (m := 2560) (by norm_num)
    (cmpf .ogt (Host.absf (centM x)) (thrV x)) natLt_1_32 reducesTo_S16384x2560_S16384_d1 h_S_ (ix1 r)
  have hlt : (Host.reduce IntOp.addi (extui 32 (cmpf .ogt (Host.absf (centM x)) (thrV x)) natLt_1_32)
      (constantI S_ 32 0#32) reducesTo_S16384x2560_S16384_d1 h_S_ (ix1 r)).toNat < 2 ^ 31 := by
    rw [hcount]
    refine lt_of_le_of_lt (Finset.card_le_univ _) ?_
    rw [Fintype.card_fin]
    norm_num
  rw [StableHlo.Predicate.toInt_eq_toNat_of_lt hlt, Int.cast_natCast, hcount, Finset.card_filter, Nat.cast_sum,
    coe_sum_real]
  refine Finset.sum_congr rfl fun k _ => ?_
  rw [ite_bit]
  refine congrArg bit ?_
  refine (congrArg (cmpf .ogt (Host.absf (centM x)) (thrV x)) (ij_eq r k)).trans ?_
  rw [cmpf_apply, hostAbsf_at, centM_row, thrV_row]
  rfl

/-- jnp.diff at (r, k): the right neighbour minus the sample. -/
private theorem diffA_at (y : FVec Ideal S16384x2560 .f32) (k : Fin 2559) :
    diffA y (ix2 r k) = y (ix2 r k.succ) - y (ix2 r k.castSucc) := by
  unfold diffA
  rw [subf_apply, slice_succ (c := 2559), slice_castSucc (c := 2559)]

/-- The zero-crossing rate. -/
theorem zcrV_row : zcrV x (ix1 r) = zcr (rowX x r) := by
  unfold zcrV zcr
  rw [hostDivf_at, sum1_row, bV_row, K_at]
  refine congrArg (fun s => Ideal.div s (lit W5120)) (Finset.sum_congr rfl fun k _ => ?_)
  rw [uitofp_at, cmpf_apply, diffA_at, hostSign_at, hostSign_at, StableHlo.Predicate.bcast_scalar _ h_S_]
  refine congrArg bit ?_
  exact cmp_une_one _ _

end Cert.ReferenceIdeal.Ref

end
-- ==== Proof.RefRowsC.lean ====
import proofs.«138518_j60224031425109_1_alg».proof.Proof.RefDefs
import proofs.«138518_j60224031425109_1_alg».proof.Proof.LibRows
import proofs.«138518_j60224031425109_1_alg».proof.Proof.LibColumn
import proofs.«138518_j60224031425109_1_alg».proof.Proof.Consts
import proofs.«138518_j60224031425109_1_alg».proof.Proof.RefRowsA
import Idealize.ShloMosaic.Lib.StableHlo.Predicate

noncomputable section

open scoped BigOperators

namespace Cert.ReferenceIdeal.Ref

open Cert.ReferenceIdeal Cert.ReferenceIdeal.Gen Idealize.ShloMosaic Idealize.ShloMosaic.ValueIdx Cert.Stats
open Idealize.ShloMosaic.Rows Idealize.ShloMosaic.Column

variable (x : FVec Ideal S16384x2560 .f32) (r : Fin 16384)

/-- jnp.diff along the rows. -/
theorem diffA_row (y : FVec Ideal S16384x2560 .f32) (k : Fin 2559) : diffA y (ix2 r k) = diff (n := 2559) (rowX y r) k := by
  unfold diffA
  show extractStridedSlice S16384x2559 ![0, 1] y slices_S16384x2560_S16384x2559_0_1 (ix2 r k)
      - extractStridedSlice S16384x2559 ![0, 0] y slices_S16384x2560_S16384x2559_0_0 (ix2 r k) = _
  rw [slice_succ (c := 2559) y _ r k, slice_castSucc (c := 2559) y _ r k]
  rfl
theorem diffB_row (y : FVec Ideal S16384x2559 .f32) (k : Fin 2558) : diffB y (ix2 r k) = diff (n := 2558) (rowY y r) k := by
  unfold diffB
  show extractStridedSlice S16384x2558 ![0, 1] y slices_S16384x2559_S16384x2558_0_1 (ix2 r k)
      - extractStridedSlice S16384x2558 ![0, 0] y slices_S16384x2559_S16384x2558_0_0 (ix2 r k) = _
  rw [slice_succ (c := 2558) y _ r k, slice_castSucc (c := 2558) y _ r k]
  rfl

/-- The divisor of the unbiased variance, length minus one, is the next divisor word. -/
private theorem ddof_W1 : ddof W1 ix0 = lit W2 := Consts.W1_sub_one
private theorem ddof_W2 : ddof W2 ix0 = lit W3 := Consts.W2_sub_one

/-- The centred first and second differences and their guarded variances. -/
theorem centB_row (y : FVec Ideal S16384x2559 .f32) (k : Fin 2559) : centB y (ix2 r k) = dev W1 (rowY y r) k := by
  unfold centB
  show y (ix2 r k) - spread1 (Host.divf (col (sum1 y)) (bC (K W1))) (ix2 r k) = _
  rw [spread1_row]
  show y (ix2 r k) - Ideal.div (col (sum1 y) (ix2 r (0 : Fin 1))) (bC (K W1) (ix2 r (0 : Fin 1))) = _
  rw [col_row, bC_row, sum1_row]
  rfl
theorem varB_row (y : FVec Ideal S16384x2559 .f32) : varB y (ix1 r) = spread W1 W2 (rowY y r) := by
  unfold varB
  have hp : cmpf .ogt (ddof W1) (K 0x00000000#32) ix0 = 1#1 := by
    show Ideal.cmp .ogt (ddof W1 ix0) (lit 0x00000000#32) = 1#1
    rw [ddof_W1]
    exact Consts.W2_pos
  rw [whereV_row r _ _ _ hp]
  show Ideal.div (sum1 (mulf (centB y) (centB y)) (ix1 r)) (bV (ddof W1) (ix1 r)) = _
  rw [sum1_row, bV_row, ddof_W1]
  refine congrArg (fun s => Ideal.div s (lit W2)) (Finset.sum_congr rfl fun k _ => ?_)
  show centB y (ix2 r k) * centB y (ix2 r k) = _
  rw [centB_row]
theorem centC_row (z : FVec Ideal S16384x2558 .f32) (k : Fin 2558) : centC z (ix2 r k) = dev W2 (rowZ z r) k := by
  unfold centC
  show z (ix2 r k) - spread2 (Host.divf (col (sum2 z)) (bC (K W2))) (ix2 r k) = _
  rw [spread2_row]
  show z (ix2 r k) - Ideal.div (col (sum2 z) (ix2 r (0 : Fin 1))) (bC (K W2) (ix2 r (0 : Fin 1))) = _
  rw [col_row, bC_row, sum2_row]
  rfl
theorem varC_row (z : FVec Ideal S16384x2558 .f32) : varC z (ix1 r) = spread W2 W3 (rowZ z r) := by
  unfold varC
  have hp : cmpf .ogt (ddof W2) (K 0x00000000#32) ix0 = 1#1 := by
    show Ideal.cmp .ogt (ddof W2 ix0) (lit 0x00000000#32) = 1#1
    rw [ddof_W2]
    exact Consts.W3_pos
  rw [whereV_row r _ _ _ hp]
  show Ideal.div (sum2 (mulf (centC z) (centC z)) (ix1 r)) (bV (ddof W2) (ix1 r)) = _
  rw [sum2_row, bV_row, ddof_W2]
  refine congrArg (fun s => Ideal.div s (lit W3)) (Finset.sum_congr rfl fun k _ => ?_)
  show centC z (ix2 r k) * centC z (ix2 r k) = _
  rw [centC_row]

/-- Row r of the first differences is the first difference of row r; likewise the second. -/
private theorem rowY_diffA : rowY (diffA x) r = d1 (rowX x r) := funext fun k => diffA_row r x k
private theorem rowZ_diffB_diffA : rowZ (diffB (diffA x)) r = d2 (rowX x r) := by
  funext k
  show diffB (diffA x) (ix2 r k) = diff (n := 2558) (d1 (rowX x r)) k
  rw [diffB_row, rowY_diffA]

/-- Hjorth mobility and complexity. -/
theorem mobV_row : mobV x (ix1 r) = mobility (rowX x r) := by
  unfold mobV
  show Ideal.sqrt (Ideal.div (varB (diffA x) (ix1 r)) (varA x (ix1 r))) = _
  rw [varB_row, varA_row, rowY_diffA]
  rfl
theorem cmplxV_row : cmplxV x (ix1 r) = complexity (rowX x r) := by
  unfold cmplxV
  show Ideal.sqrt (Ideal.div (varC (diffB (diffA x)) (ix1 r)) (varB (diffA x) (ix1 r))) = _
  rw [varC_row, varB_row, rowY_diffA, rowZ_diffB_diffA]
  rfl

end Cert.ReferenceIdeal.Ref

end
-- ==== Proof.RefOut.lean ====
/-
  The reference's result is G of its argument.

  The argument's entry (r, k, 0) is the matrix's entry (r, k); each of the fifteen columns of the result is one
  per-row statistic laid out as a column; so entry (r, j) of the concatenation is statistic j of signal r.
-/
import proofs.«138518_j60224031425109_1_alg».proof.Proof.RefRowsB
import proofs.«138518_j60224031425109_1_alg».proof.Proof.RefRowsC

noncomputable section

namespace Cert.ReferenceIdeal.Ref

open Cert.ReferenceIdeal Cert.ReferenceIdeal.Gen Idealize.ShloMosaic Idealize.ShloMosaic.ValueIdx Cert.Stats
open Idealize.ShloMosaic.Rows Idealize.ShloMosaic.Column

/-- The re-laid argument: sample k of signal r. -/
theorem X_row (a : FVec Ideal S16384x2560x1 .f32) (r : Fin 16384) (k : Fin 2560) :
    X a (ix2 r k) = a (ix3 r k (0 : Fin 1)) := by
  unfold X
  refine shapeCast_apply a _ _ _ ?_
  rw [Shape.rowMajor_val_three, Shape.rowMajor_val_two]
  show (r.val * 2560 + k.val) * 1 + 0 = r.val * 2560 + k.val
  omega

theorem rowX_X (a : FVec Ideal S16384x2560x1 .f32) (r : Fin 16384) :
    rowX (X a) r = fun k => a (ix3 r k (0 : Fin 1)) := funext fun k => X_row a r k

/-- Column j of the result, at row r, is statistic j of that row. -/
theorem cols_row (x : FVec Ideal S16384x2560 .f32) (r : Fin 16384) (j : Fin 15) :
    cols x j (ix2 r (0 : Fin 1)) = rowStat (rowX x r) j := by
  match j with
  | ⟨0, _⟩ =>
    show col (meanV x) (ix2 r (0 : Fin 1)) = mean (rowX x r)
    exact (col_row r (meanV x)).trans (meanV_row x r)
  | ⟨1, _⟩ =>
    show col (maxV x) (ix2 r (0 : Fin 1)) = hi (rowX x r)
    exact (col_row r (maxV x)).trans (maxV_row x r)
  | ⟨2, _⟩ =>
    show col (minV x) (ix2 r (0 : Fin 1)) = lo (rowX x r)
    exact (col_row r (minV x)).trans (minV_row x r)
  | ⟨3, _⟩ =>
    show col (p2pV x) (ix2 r (0 : Fin 1)) = hi (rowX x r) - lo (rowX x r)
    exact (col_row r (p2pV x)).trans (p2pV_row x r)
  | ⟨4, _⟩ =>
    show col (varA x) (ix2 r (0 : Fin 1)) = var (rowX x r)
    exact (col_row r (varA x)).trans (varA_row x r)
  | ⟨5, _⟩ =>
    show col (rmsV x) (ix2 r (0 : Fin 1)) = rms (rowX x r)
    exact (col_row r (rmsV x)).trans (rmsV_row x r)
  | ⟨6, _⟩ =>
    show col (skewV x) (ix2 r (0 : Fin 1)) = skew (rowX x r)
    exact (col_row r (skewV x)).trans (skewV_row x r)
  | ⟨7, _⟩ =>
    show col (kurtV x) (ix2 r (0 : Fin 1)) = kurt (rowX x r)
    exact (col_row r (kurtV x)).trans (kurtV_row x r)
  | ⟨8, _⟩ =>
    show col (shapeV x) (ix2 r (0 : Fin 1)) = shapeFactor (rowX x r)
    exact (col_row r (shapeV x)).trans (shapeV_row x r)
  | ⟨9, _⟩ =>
    show col (impulseV x) (ix2 r (0 : Fin 1)) = impulseFactor (rowX x r)
    exact (col_row r (impulseV x)).trans (impulseV_row x r)
  | ⟨10, _⟩ =>
    show col (outlV x) (ix2 r (0 : Fin 1)) = outliers (rowX x r)
    exact (col_row r (outlV x)).trans (outlV_row x r)
  | ⟨11, _⟩ =>
    show col (zcrV x) (ix2 r (0 : Fin 1)) = zcr (rowX x r)
    exact (col_row r (zcrV x)).trans (zcrV_row x r)
  | ⟨12, _⟩ =>
    show col (varA x) (ix2 r (0 : Fin 1)) = var (rowX x r)
    exact (col_row r (varA x)).trans (varA_row x r)
  | ⟨13, _⟩ =>
    show col (mobV x) (ix2 r (0 : Fin 1)) = mobility (rowX x r)
    exact (col_row r (mobV x)).trans (mobV_row x r)
  | ⟨14, _⟩ =>
    show col (cmplxV x) (ix2 r (0 : Fin 1)) = complexity (rowX x r)
    exact (col_row r (cmplxV x)).trans (cmplxV_row x r)
  | ⟨n + 15, h⟩ => exact absurd h (by omega)

set_option backward.isDefEq.respectTransparency.types false in
/-- Entry (r, j) of the reference's result. -/
theorem refOut_row (a : FVec Ideal S16384x2560x1 .f32) (r : Fin 16384) (j : Fin 15) :
    refOut a (ix2 r j) = rowStat (fun k => a (ix3 r k (0 : Fin 1))) j := by
  unfold refOut
  show concatenate S16384x15 1 (List.ofFn fun i : Fin 15 => (⟨S16384x1, cols (X a) i⟩ : (s : Shape) × (s.Idx → EReal))) _ (ix2 r j) = _
  rw [concat15_apply, cols_row, rowX_X]

theorem refOut_eq_G (a : FVec Ideal S16384x2560x1 .f32) : refOut a = G a := by
  funext i
  obtain ⟨r, j, rfl⟩ : ∃ (r : Fin 16384) (j : Fin 15), i = ix2 r j := ⟨i 0, i 1, eq_ix2 i⟩
  rw [refOut_row, G_apply]

end Cert.ReferenceIdeal.Ref

end
-- ==== Proof.lean ====
/-
  Fifteen statistics of 16384 signals of 2560 samples: a kernel that computes them block by block (128 signals
  per grid point, every statistic of a row from one pass over the row held in fast memory) against jax's
  whole-array reference.

  Both programs, read at the extended reals, end with the array G of the argument (Proof/Stats.lean): entry (r, j) is
  statistic j of signal r. On the kernel's side every grid point writes back the matching 128 rows of G and the
  128 blocks cover the result (Proof/KernelArray.lean over Proof/KernelRowsA.lean and KernelRowsB.lean, which read
  the body's vector operations row by row). On the reference's side the host program's operations compose to a
  whole-array function (Proof/RefRun.lean, Proof/RefDefs.lean) that is G index by index (Proof/RefRowsA.lean, B, C,
  Proof/RefOut.lean). The two sides meet without any algebra beyond: a zero initial value added to a sum; jnp.var's
  divisor "length minus one" computed as a float subtraction and guarded by a select that is always taken
  (Proof/Consts.lean); the fourth power of the standard deviation grouped two ways; an integer count converted to
  a float against a sum of zeros and ones; and jnp.sign, which the kernel spells as selects on the sign bit: the one
  rewrite the idealization made, stated by preserves.
-/
import proofs.«138518_j60224031425109_1_alg».proof.Defs
import proofs.«138518_j60224031425109_1_alg».proof.Proof.Gen.Kernel
import proofs.«138518_j60224031425109_1_alg».proof.Proof.Gen.Kernel.Skeleton
import proofs.«138518_j60224031425109_1_alg».proof.Proof.Gen.Kernel.Launch
import proofs.«138518_j60224031425109_1_alg».proof.Proof.Gen.Kernel.Points
import proofs.«138518_j60224031425109_1_alg».proof.Proof.Gen.Kernel.Frame
import proofs.«138518_j60224031425109_1_alg».proof.Proof.Gen.KernelIdeal
import proofs.«138518_j60224031425109_1_alg».proof.Proof.Gen.KernelIdeal.Skeleton
import proofs.«138518_j60224031425109_1_alg».proof.Proof.Gen.KernelIdeal.Launch
import proofs.«138518_j60224031425109_1_alg».proof.Proof.Gen.KernelIdeal.Points
import proofs.«138518_j60224031425109_1_alg».proof.Proof.Gen.KernelIdeal.Frame
import proofs.«138518_j60224031425109_1_alg».proof.Proof.Gen.KernelIdeal.Value
import proofs.«138518_j60224031425109_1_alg».proof.Proof.Gen.ReferenceIdeal
import proofs.«138518_j60224031425109_1_alg».proof.Proof.Gen.Pre_finite_inputs
import proofs.«138518_j60224031425109_1_alg».proof.Proof.KernelArray
import proofs.«138518_j60224031425109_1_alg».proof.Proof.RefRun
import proofs.«138518_j60224031425109_1_alg».proof.Proof.RefOut
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Gen.frame m ρ
theorem frame_ki : Cert.frame_KernelIdeal := fun m ρ _ => Cert.KernelIdeal.Gen.frame m ρ
/-- The reference's frame is its run with the result dropped. -/
theorem frame_ri : Cert.frame_ReferenceIdeal := fun m ρ _ =>
  (θ_run Cert.ReferenceIdeal.defs _ _).mono (fun _ h c => (h c).2) (Cert.ReferenceIdeal.Run.run m ρ)

/-- The ledger's one entry: 1.0 carrying the sign bit of a float is -1 below zero and 1 otherwise. -/
theorem preserves : Cert.preserves_Kernel_KernelIdeal := IdealRules.sign_bit.statement Cert.KernelIdeal.S128x2560 .f32

/-- Both idealized programs end at G of arguments that agree. -/
theorem algebraic : Cert.algebraic_KernelIdeal_ReferenceIdeal := by
  intro m ρ m' ρ' _ hagree
  refine ⟨fun c => Cert.Stats.G (m ((c.tc : Thread Cert.KernelIdeal.nD Cert.KernelIdeal.τ).loc Cert.KernelIdeal.main_arg0)),
    Cert.KernelIdeal.Arr.run m ρ, ?_⟩
  refine (θ_run Cert.ReferenceIdeal.defs _ _).mono (fun _ h c => ⟨(h c).1.trans ?_, (h c).2⟩)
    (Cert.ReferenceIdeal.Run.run m' ρ')
  rw [Cert.ReferenceIdeal.Ref.refOut_eq_G, hagree c]

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
